-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x3200000 32) (main_arg2 : FVec F S128x16 .f32) (main_arg3 : FVec F S16 .f32) (main_arg4 : FVec F S16x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x16 : Shape := ⟨2, ![100000, 16]⟩
abbrev S2000x128 : Shape := ⟨2, ![2000, 128]⟩
abbrev S2000x1 : Shape := ⟨2, ![2000, 1]⟩
abbrev S2000x16 : Shape := ⟨2, ![2000, 16]⟩
abbrev S3200000x16 : Shape := ⟨2, ![3200000, 16]⟩
abbrev S1x16 : Shape := ⟨2, ![1, 16]⟩
abbrev S100000x40 : Shape := ⟨2, ![100000, 40]⟩
abbrev S2000x40 : Shape := ⟨2, ![2000, 40]⟩
abbrev S3200000x40 : Shape := ⟨2, ![3200000, 40]⟩
abbrev S1x40 : Shape := ⟨2, ![1, 40]⟩
abbrev S2000 : Shape := ⟨1, ![2000]⟩

abbrev nBuf : Space → Nat
  | .hbm => 61
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S100000x16, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000x16, .f32⟩
  | .hbm, ⟨37, _⟩ => ⟨S_, .f32⟩
  | .hbm, ⟨38, _⟩ => ⟨S100000x16, .f32⟩
  | .hbm, ⟨39, _⟩ => ⟨S3200000x1, .i32⟩
  | .hbm, ⟨40, _⟩ => ⟨S100000x16, .f32⟩
  | .hbm, ⟨41, _⟩ => ⟨S100000x16, .f32⟩
  | .hbm, ⟨42, _⟩ => ⟨S1x16, .f32⟩
  | .hbm, ⟨43, _⟩ => ⟨S100000x16, .f32⟩
  | .hbm, ⟨44, _⟩ => ⟨S100000x40, .f32⟩
  | .hbm, ⟨45, _⟩ => ⟨S_, .i32⟩
  | .hbm, ⟨46, _⟩ => ⟨S3200000, .i32⟩
  | .hbm, ⟨47, _⟩ => ⟨S3200000, .i1⟩
  | .hbm, ⟨48, _⟩ => ⟨S_, .i32⟩
  | .hbm, ⟨49, _⟩ => ⟨S3200000, .i32⟩
  | .hbm, ⟨50, _⟩ => ⟨S3200000, .i32⟩
  | .hbm, ⟨51, _⟩ => ⟨S3200000, .i32⟩
  | .hbm, ⟨52, _⟩ => ⟨S3200000x1, .i32⟩
  | .hbm, ⟨53, _⟩ => ⟨S3200000x40, .f32⟩
  | .hbm, ⟨54, _⟩ => ⟨S_, .f32⟩
  | .hbm, ⟨55, _⟩ => ⟨S100000x40, .f32⟩
  | .hbm, ⟨56, _⟩ => ⟨S3200000x1, .i32⟩
  | .hbm, ⟨57, _⟩ => ⟨S100000x40, .f32⟩
  | .hbm, ⟨58, _⟩ => ⟨S100000x40, .f32⟩
  | .hbm, ⟨59, _⟩ => ⟨S1x40, .f32⟩
  | .hbm, ⟨60, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S128x16, .f32⟩
  | .local _ .vmem, ⟨3, _⟩ => ⟨S2000x1, .f32⟩
  | .local _ .vmem, ⟨4, _⟩ => ⟨S2000x1, .f32⟩
  | .local _ .vmem, ⟨5, _⟩ => ⟨S2000x16, .f32⟩
  | .local _ .vmem, ⟨6, _⟩ => ⟨S2000x16, .f32⟩
  | .local _ .vmem, ⟨7, _⟩ => ⟨S2000x16, .f32⟩
  | .local _ .vmem, ⟨8, _⟩ => ⟨S2000x16, .f32⟩
  | .local _ .vmem, ⟨9, _⟩ => ⟨S2000x1, .f32⟩
  | .local _ .vmem, ⟨10, _⟩ => ⟨S2000x1, .f32⟩
  | .local _ .vmem, ⟨11, _⟩ => ⟨S1x16, .f32⟩
  | .local _ .vmem, ⟨12, _⟩ => ⟨S2000x16, .f32⟩
  | .local _ .vmem, ⟨13, _⟩ => ⟨S2000x16, .f32⟩
  | .local _ .vmem, ⟨14, _⟩ => ⟨S2000x16, .f32⟩
  | .local _ .vmem, ⟨15, _⟩ => ⟨S2000x16, .f32⟩
  | .local _ .vmem, ⟨16, _⟩ => ⟨S16x40, .f32⟩
  | .local _ .vmem, ⟨17, _⟩ => ⟨S2000x1, .f32⟩
  | .local _ .vmem, ⟨18, _⟩ => ⟨S2000x1, .f32⟩
  | .local _ .vmem, ⟨19, _⟩ => ⟨S2000x40, .f32⟩
  | .local _ .vmem, ⟨20, _⟩ => ⟨S2000x40, .f32⟩
  | .local _ .vmem, ⟨21, _⟩ => ⟨S2000x40, .f32⟩
  | .local _ .vmem, ⟨22, _⟩ => ⟨S2000x40, .f32⟩
  | .local _ .vmem, ⟨23, _⟩ => ⟨S2000x1, .f32⟩
  | .local _ .vmem, ⟨24, _⟩ => ⟨S2000x1, .f32⟩
  | .local _ .vmem, ⟨25, _⟩ => ⟨S1x40, .f32⟩
  | .local _ .vmem, ⟨26, _⟩ => ⟨S2000x40, .f32⟩
  | .local _ .vmem, ⟨27, _⟩ => ⟨S2000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x16 : S2000x1.Broadcasts S2000x16
  inb_S2000x16_S2000x16_0_0 : ∀ a, (![0, 0] : Fin 2 → Nat) a + S2000x16.size a ≤ S2000x16.size a
  h_S2000x16 : 0 < S2000x16.numel
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x40_S16x40_0_0 : ∀ a, (![0, 0] : Fin 2 → Nat) a + S16x40.size a ≤ S16x40.size a
  h_S16x40 : 0 < S16x40.numel
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  scatter_S100000_S3200000x1_S3200000_n_0_0_1_wf : ScatterDims.WF S100000 S3200000x1 S3200000 [] [0] [0] 1
  dot_S2000x128_S128x16_S2000x16_1_0_0_1_n_n_wf : DotDims.WF S2000x128 S128x16 S2000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S2000x16_S16x40_S2000x40_1_0_0_1_n_n_wf : DotDims.WF S2000x16 S16x40 S2000x40 [1] [0] [0] [1] [] []
  gather_S100000x40_S3200000x1_S3200000x40_1_0_n_n_0_1_140_wf : GatherDims.WF S100000x40 S3200000x1 S3200000x40 [1] [0] [] [0] [] 1 ![1, 40]
  scatter_S100000x40_S3200000x1_S3200000x40_1_0_0_1_wf : ScatterDims.WF S100000x40 S3200000x1 S3200000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x16.size a ≤ S100000x16.size a
  hwx0_3 : ∀ i : grid0.Coords, EltTy.bits .f32 = 32 ∨ (Rect.block (s := S100000x16) S2000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x16.size a ≤ S100000x16.size a
  hwx1_0 : ∀ i : grid1.Coords, EltTy.bits .f32 = 32 ∨ (Rect.block (s := S100000x16) S2000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x16.size a ≤ S100000x16.size a
  hwx1_3 : ∀ i : grid1.Coords, EltTy.bits .f32 = 32 ∨ (Rect.block (s := S100000x16) S2000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x40.size a ≤ S16x40.size a
  hwx2_1 : ∀ i : grid2.Coords, EltTy.bits .f32 = 32 ∨ (Rect.block (s := S16x40) S16x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x40.size a ≤ S100000x40.size a
  hwx2_3 : ∀ i : grid2.Coords, EltTy.bits .f32 = 32 ∨ (Rect.block (s := S100000x40) S2000x40.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S100000x40.size a
  hwx3_0 : ∀ i : grid3.Coords, EltTy.bits .f32 = 32 ∨ (Rect.block (s := S100000x40) S2000x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x40.size a ≤ S100000x40.size a
  hwx3_3 : ∀ i : grid3.Coords, EltTy.bits .f32 = 32 ∨ (Rect.block (s := S100000x40) S2000x40.size (cc3_transform_3 i) (hinb3_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S2000x16_S16x40_S2000x40_1_0_0_1_n_n : DotDims S2000x16 S16x40 S2000x40 where
  lhsContracting := [1]
  rhsContracting := [0]
  lhsNonContracting := [0]
  rhsNonContracting := [1]
  lhsBatch := []
  rhsBatch := []
  wf := dot_S2000x16_S16x40_S2000x40_1_0_0_1_n_n_wf
def gather_S100000x40_S3200000x1_S3200000x40_1_0_n_n_0_1_140 : GatherDims S100000x40 S3200000x1 S3200000x40 where
  offsetDims := [1]
  collapsedSliceDims := [0]
  operandBatchingDims := []
  startIndicesBatchingDims := []
  startIndexMap := [0]
  indexVectorDim := 1
  sliceSizes := ![1, 40]
  wf := gather_S100000x40_S3200000x1_S3200000x40_1_0_n_n_0_1_140_wf
def scatter_S100000x40_S3200000x1_S3200000x40_1_0_0_1 : ScatterDims S100000x40 S3200000x1 S3200000x40 where
  updateWindowDims := [1]
  insertedWindowDims := [0]
  scatterDimsToOperandDims := [0]
  indexVectorDim := 1
  wf := scatter_S100000x40_S3200000x1_S3200000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S2000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30) S2000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S2000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x40 : Shape := ⟨2, ![16, 40]⟩
abbrev S40 : Shape := ⟨1, ![40]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 142
  | .vmem => 0
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x40, .f32⟩
  | 5 => ⟨S40, .f32⟩
  | 6 => ⟨S100000x16, .f32⟩
  | 7 => ⟨S100000, .i32⟩
  | 8 => ⟨S1x3200000, .i32⟩
  | 9 => ⟨S3200000, .i32⟩
  | 10 => ⟨S3300000, .i32⟩
  | 11 => ⟨S1x3200000, .i32⟩
  | 12 => ⟨S3200000, .i32⟩
  | 13 => ⟨S3300000, .i32⟩
  | 14 => ⟨S_, .f32⟩
  | 15 => ⟨S3300000, .f32⟩
  | 16 => ⟨S_, .f32⟩
  | 17 => ⟨S100000, .f32⟩
  | 18 => ⟨S3300000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S100000, .f32⟩
  | 26 => ⟨S100000, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S3300000x1, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x16, .f32⟩
  | 56 => ⟨S3300000x16, .f32⟩
  | 57 => ⟨S3300000x16, .f32⟩
  | 58 => ⟨S_, .f32⟩
  | 59 => ⟨S100000x16, .f32⟩
  | 60 => ⟨S3300000x1, .i32⟩
  | 61 => ⟨S100000x16, .f32⟩
  | 62 => ⟨S1x16, .f32⟩
  | 63 => ⟨S100000x16, .f32⟩
  | 64 => ⟨S100000x16, .f32⟩
  | 65 => ⟨S_, .f32⟩
  | 66 => ⟨S100000x16, .f32⟩
  | 67 => ⟨S100000x16, .f32⟩
  | 68 => ⟨S100000x40, .f32⟩
  | 69 => ⟨S100000, .i32⟩
  | 70 => ⟨S1x3200000, .i32⟩
  | 71 => ⟨S3200000, .i32⟩
  | 72 => ⟨S3300000, .i32⟩
  | 73 => ⟨S1x3200000, .i32⟩
  | 74 => ⟨S3200000, .i32⟩
  | 75 => ⟨S3300000, .i32⟩
  | 76 => ⟨S_, .f32⟩
  | 77 => ⟨S3300000, .f32⟩
  | 78 => ⟨S_, .f32⟩
  | 79 => ⟨S100000, .f32⟩
  | 80 => ⟨S3300000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S100000, .f32⟩
  | 88 => ⟨S100000, .f32⟩
  | 89 => ⟨S_, .i32⟩
  | 90 => ⟨S3300000, .i32⟩
  | 91 => ⟨S3300000, .i1⟩
  | 92 => ⟨S_, .i32⟩
  | 93 => ⟨S3300000, .i32⟩
  | 94 => ⟨S3300000, .i32⟩
  | 95 => ⟨S3300000, .i32⟩
  | 96 => ⟨S3300000x1, .i32⟩
  | 97 => ⟨S3300000, .f32⟩
  | 98 => ⟨S_, .i32⟩
  | 99 => ⟨S3300000, .i32⟩
  | 100 => ⟨S3300000, .i1⟩
  | 101 => ⟨S_, .i32⟩
  | 102 => ⟨S3300000, .i32⟩
  | 103 => ⟨S3300000, .i32⟩
  | 104 => ⟨S3300000, .i32⟩
  | 105 => ⟨S3300000x1, .i32⟩
  | 106 => ⟨S3300000, .f32⟩
  | 107 => ⟨S3300000, .f32⟩
  | 108 => ⟨S3300000x1, .f32⟩
  | 109 => ⟨S_, .i32⟩
  | 110 => ⟨S3300000, .i32⟩
  | 111 => ⟨S3300000, .i1⟩
  | 112 => ⟨S_, .i32⟩
  | 113 => ⟨S3300000, .i32⟩
  | 114 => ⟨S3300000, .i32⟩
  | 115 => ⟨S3300000, .i32⟩
  | 116 => ⟨S3300000x1, .i32⟩
  | 117 => ⟨S3300000x40, .f32⟩
  | 118 => ⟨S3300000x40, .f32⟩
  | 119 => ⟨S3300000x40, .f32⟩
  | 120 => ⟨S_, .f32⟩
  | 121 => ⟨S100000x40, .f32⟩
  | 122 => ⟨S3300000x1, .i32⟩
  | 123 => ⟨S100000x40, .f32⟩
  | 124 => ⟨S1x40, .f32⟩
  | 125 => ⟨S100000x40, .f32⟩
  | 126 => ⟨S100000x40, .f32⟩
  | 127 => ⟨S_, .f32⟩
  | _ => ⟨S100000x128, .f32⟩

abbrev hbmTy0_1 (i : Nat) : BufTy := match i % 128 with
  | 0 => ⟨S100000, .f32⟩
  | 1 => ⟨S_, .f32⟩
  | 2 => ⟨S100000, .f32⟩
  | 3 => ⟨S100000, .f32⟩
  | 4 => ⟨S100000x1, .f32⟩
  | 5 => ⟨S100000x40, .f32⟩
  | 6 => ⟨S100000x40, .f32⟩
  | 7 => ⟨S100000x40, .f32⟩
  | 8 => ⟨S_, .f32⟩
  | 9 => ⟨S100000, .f32⟩
  | 10 => ⟨S100000x1, .f32⟩
  | 11 => ⟨S100000x1, .f32⟩
  | 12 => ⟨S100000x40, .f32⟩
  | 13 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_6 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_9 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_c_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_17 : Ref sig .tc := ⟨.hbm, 109, rfl⟩
abbrev main_v82 : Ref sig .tc := ⟨.hbm, 110, rfl⟩
abbrev main_v83 : Ref sig .tc := ⟨.hbm, 111, rfl⟩
abbrev main_c_18 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_19 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_call3_cst : Ref sig .tc := ⟨.hbm, 127, rfl⟩
abbrev main_call3_v0 : Ref sig .tc := ⟨.hbm, 128, rfl⟩
abbrev main_call3_cst_0 : Ref sig .tc := ⟨.hbm, 129, rfl⟩
abbrev main_call3_v1 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_call3_v5 : Ref sig .tc := ⟨.hbm, 134, rfl⟩
abbrev main_call3_v6 : Ref sig .tc := ⟨.hbm, 135, rfl⟩
abbrev main_call3_cst_1 : Ref sig .tc := ⟨.hbm, 136, rfl⟩
abbrev main_call3_v7 : Ref sig .tc := ⟨.hbm, 137, rfl⟩
abbrev main_call3_v8 : Ref sig .tc := ⟨.hbm, 138, rfl⟩
abbrev main_call3_v9 : Ref sig .tc := ⟨.hbm, 139, rfl⟩
abbrev main_call3_v10 : Ref sig .tc := ⟨.hbm, 140, rfl⟩
abbrev main_v97 : Ref sig .tc := ⟨.hbm, 141, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x16_S100000x16_1_0_0_1_n_n_wf : DotDims.WF S100000x128 S128x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KTerms.lean ====
/-
  The host-side terms of the factored network, named: what the program's host operations between its four kernel
  regions compute, each as ONE function of the arrays it reads, for any float instance. The edge list's two rows as
  vectors (`srcT`, `dstT`); the degree by a scatter of ones at the targets, plus one (`degT`); the normalising
  factors as a column (`dcolT`); the source indices normalised for a take (`wrapT`); the aggregation — rows taken at
  the sources, scattered with addition at the targets, the node's own row added (`aggT16`, `aggT40`); a bias vector
  as a row (`browT16`, `browT40`).
-/
import proofs.«409407_j84181359001627_4_alg».proof.Proof.Gen.KernelIdeal

noncomputable section

namespace Cert.KernelIdeal.Terms

open Idealize.ShloMosaic Cert.KernelIdeal Cert.KernelIdeal.Gen

variable {F : FTy → Type} [FloatOps F]

/-- The sources of the edges. -/
def srcT (e1 : (⟨S2x3200000, .i32⟩ : BufTy).Contents (Elt F)) : (⟨S3200000, .i32⟩ : BufTy).Contents (Elt F) :=
  shapeCast S3200000 (extractStridedSlice S1x3200000 ![0, 0] e1 slices_S2x3200000_S1x3200000_0_0) shapeCasts_S1x3200000_S3200000
/-- The targets of the edges. -/
def dstT (e1 : (⟨S2x3200000, .i32⟩ : BufTy).Contents (Elt F)) : (⟨S3200000, .i32⟩ : BufTy).Contents (Elt F) :=
  shapeCast S3200000 (extractStridedSlice S1x3200000 ![1, 0] e1 slices_S2x3200000_S1x3200000_1_0) shapeCasts_S1x3200000_S3200000
/-- The degrees: ones scattered with addition at the targets into zeros, plus one. -/
def degT (e1 : (⟨S2x3200000, .i32⟩ : BufTy).Contents (Elt F)) : (⟨S100000, .f32⟩ : BufTy).Contents (Elt F) :=
  addf (Host.scatterAdd scatter_S100000_S3200000x1_S3200000_n_0_0_1
      (broadcastInDim S100000 ![] bcast_S_S100000 (constant (F := F) S_ .f32 0x00000000#32))
      (broadcastInDim S3200000x1 ![0] bcast_S3200000_S3200000x1_0 (dstT (F := F) e1))
      (broadcastInDim S3200000 ![] bcast_S_S3200000 (constant (F := F) S_ .f32 0x3F800000#32)))
    (broadcastInDim S100000 ![] bcast_S_S100000 (constant (F := F) S_ .f32 0x3F800000#32))
/-- The normalising factors, as a column: the inverse square root of the degree where it is positive, else zero. -/
def dcolT (e1 : (⟨S2x3200000, .i32⟩ : BufTy).Contents (Elt F)) : (⟨S100000x1, .f32⟩ : BufTy).Contents (Elt F) :=
  shapeCast S100000x1 (select (cmpf (F := F) .ogt (degT (F := F) e1) (broadcastInDim S100000 ![] bcast_S_S100000 (constant (F := F) S_ .f32 0x00000000#32)))
      (Host.rsqrt (degT (F := F) e1)) (broadcastInDim S100000 ![] bcast_S_S100000 (constant (F := F) S_ .f32 0x00000000#32))) shapeCasts_S100000_S100000x1
/-- Index words normalised for a take: a negative word moved up by the node count. -/
def wrapT (sv : (⟨S3200000, .i32⟩ : BufTy).Contents (Elt F)) : (⟨S3200000, .i32⟩ : BufTy).Contents (Elt F) :=
  select (cmpi .slt sv (broadcastInDim S3200000 ![] bcast_S_S3200000 (constantI S_ 32 0#32)))
    (addi sv (broadcastInDim S3200000 ![] bcast_S_S3200000 (constantI S_ 32 100000#32))) sv
/-- The aggregation over the edges and the self loop, 16 columns. -/
def aggT16 (s : (⟨S100000x16, .f32⟩ : BufTy).Contents (Elt F)) (sv dv : (⟨S3200000, .i32⟩ : BufTy).Contents (Elt F)) :
    (⟨S100000x16, .f32⟩ : BufTy).Contents (Elt F) :=
  addf (Host.scatterAdd scatter_S100000x16_S3200000x1_S3200000x16_1_0_0_1
      (broadcastInDim S100000x16 ![] bcast_S_S100000x16 (constant (F := F) S_ .f32 0x00000000#32))
      (broadcastInDim S3200000x1 ![0] bcast_S3200000_S3200000x1_0 dv)
      (Host.gather gather_S100000x16_S3200000x1_S3200000x16_1_0_n_n_0_1_116 s
        (broadcastInDim S3200000x1 ![0] bcast_S3200000_S3200000x1_0 (wrapT (F := F) sv)))) s
/-- The aggregation over the edges and the self loop, 40 columns. -/
def aggT40 (s : (⟨S100000x40, .f32⟩ : BufTy).Contents (Elt F)) (sv dv : (⟨S3200000, .i32⟩ : BufTy).Contents (Elt F)) :
    (⟨S100000x40, .f32⟩ : BufTy).Contents (Elt F) :=
  addf (Host.scatterAdd scatter_S100000x40_S3200000x1_S3200000x40_1_0_0_1
      (broadcastInDim S100000x40 ![] bcast_S_S100000x40 (constant (F := F) S_ .f32 0x00000000#32))
      (broadcastInDim S3200000x1 ![0] bcast_S3200000_S3200000x1_0 dv)
      (Host.gather gather_S100000x40_S3200000x1_S3200000x40_1_0_n_n_0_1_140 s
        (broadcastInDim S3200000x1 ![0] bcast_S3200000_S3200000x1_0 (wrapT (F := F) sv)))) s
/-- A bias vector as a row. -/
def browT16 (b : (⟨S16, .f32⟩ : BufTy).Contents (Elt F)) : (⟨S1x16, .f32⟩ : BufTy).Contents (Elt F) :=
  shapeCast S1x16 b shapeCasts_S16_S1x16
def browT40 (b : (⟨S40, .f32⟩ : BufTy).Contents (Elt F)) : (⟨S1x40, .f32⟩ : BufTy).Contents (Elt F) :=
  shapeCast S1x40 b shapeCasts_S40_S1x40

end Cert.KernelIdeal.Terms

end
-- ==== Proof.KHost.lean ====
/-
  The buffer contents of the factored program at the boundaries of its four kernel regions, for any float instance:
  which buffers each stretch of host operations and each region leaves alone, and what each stretch writes into the
  buffers the next region reads — the host-side terms of `KTerms` of the contents the stretch starts from.
-/
import proofs.«409407_j84181359001627_4_alg».proof.Proof.Gen.KernelIdeal.Frame
import proofs.«409407_j84181359001627_4_alg».proof.Proof.KTerms
import Idealize.ShloMosaic.Lib.StableHlo.Run

set_option maxRecDepth 16384

noncomputable section

namespace Cert.KernelIdeal.Gen

open Idealize.ShloMosaic Idealize.ShloMosaic.TcCoe Idealize.ShloMosaic.Tactic Idealize.SL.Sem Idealize.ShloMosaic.StableHlo
open Idealize.ShloMosaic.Pipeline (Dat Cfg Window)
open Cert.KernelIdeal.Terms

variable {F : FTy → Type} [FloatOps F]
variable (m : (ℓ : Loc nD τ sig) → Buf (Elt F) ℓ) (ρ : Dev nD → PrngReg)

/-- No operation of the stretch writes the buffer. -/
local macro "keeps" : tactic => `(tactic|
  (refine StableHlo.after_of_forall_not_mem _ _ (List.forall_iff_forall_mem.mp ?_)
   simp only [hostOps0, hostOps0_1, hostOps0_2, hostOps1, hostOps3, List.flatten_cons, List.flatten_nil, List.append_nil, List.cons_append,
     List.nil_append, List.Forall, StableHlo.nullary_writes, StableHlo.unary_writes, StableHlo.binary_writes, StableHlo.ternary_writes, StableHlo.quaternary_writes, StableHlo.reshape_writes, StableHlo.binaryIndexed_writes, Finset.mem_singleton]
   repeat' apply And.intro
   all_goals exact StableHlo.devRef_ne_of_ne (by decide)))

/-! ## Before the first region -/

theorem W3_main_arg0 (c : Dev nD) : W3 m ρ c (Proc.devRef .tc main_arg0) = m ((c : Thread nD τ).loc main_arg0) := by
  refine Eq.trans (b := W2 m ρ c (Proc.devRef .tc main_arg0)) (by keeps) (Eq.trans (b := W1 m ρ c (Proc.devRef .tc main_arg0)) (by keeps) (Eq.trans (b := W0 m ρ c (Proc.devRef .tc main_arg0)) (by keeps) rfl))
theorem W3_main_arg2 (c : Dev nD) : W3 m ρ c (Proc.devRef .tc main_arg2) = m ((c : Thread nD τ).loc main_arg2) := by
  refine Eq.trans (b := W2 m ρ c (Proc.devRef .tc main_arg2)) (by keeps) (Eq.trans (b := W1 m ρ c (Proc.devRef .tc main_arg2)) (by keeps) (Eq.trans (b := W0 m ρ c (Proc.devRef .tc main_arg2)) (by keeps) rfl))
theorem W3_main_arg3 (c : Dev nD) : W3 m ρ c (Proc.devRef .tc main_arg3) = m ((c : Thread nD τ).loc main_arg3) := by
  refine Eq.trans (b := W2 m ρ c (Proc.devRef .tc main_arg3)) (by keeps) (Eq.trans (b := W1 m ρ c (Proc.devRef .tc main_arg3)) (by keeps) (Eq.trans (b := W0 m ρ c (Proc.devRef .tc main_arg3)) (by keeps) rfl))
theorem W3_main_arg4 (c : Dev nD) : W3 m ρ c (Proc.devRef .tc main_arg4) = m ((c : Thread nD τ).loc main_arg4) := by
  refine Eq.trans (b := W2 m ρ c (Proc.devRef .tc main_arg4)) (by keeps) (Eq.trans (b := W1 m ρ c (Proc.devRef .tc main_arg4)) (by keeps) (Eq.trans (b := W0 m ρ c (Proc.devRef .tc main_arg4)) (by keeps) rfl))
theorem W3_main_arg5 (c : Dev nD) : W3 m ρ c (Proc.devRef .tc main_arg5) = m ((c : Thread nD τ).loc main_arg5) := by
  refine Eq.trans (b := W2 m ρ c (Proc.devRef .tc main_arg5)) (by keeps) (Eq.trans (b := W1 m ρ c (Proc.devRef .tc main_arg5)) (by keeps) (Eq.trans (b := W0 m ρ c (Proc.devRef .tc main_arg5)) (by keeps) rfl))

/-- The sources, the targets and the normalising column as the first stretches leave them. -/
theorem W3_main_v1 (c : Dev nD) : W3 m ρ c (Proc.devRef .tc main_v1) = srcT (F := F) (m ((c : Thread nD τ).loc main_arg1)) := by
  show StableHlo.after hostOps0_2 (StableHlo.after hostOps0_1 (StableHlo.after hostOps0 (W0 m ρ c))) (Proc.devRef .tc main_v1) = _
  after_results
  rfl
theorem W3_main_v3 (c : Dev nD) : W3 m ρ c (Proc.devRef .tc main_v3) = dstT (F := F) (m ((c : Thread nD τ).loc main_arg1)) := by
  show StableHlo.after hostOps0_2 (StableHlo.after hostOps0_1 (StableHlo.after hostOps0 (W0 m ρ c))) (Proc.devRef .tc main_v3) = _
  after_results
  rfl
theorem W3_main_v15 (c : Dev nD) : W3 m ρ c (Proc.devRef .tc main_v15) = dcolT (F := F) (m ((c : Thread nD τ).loc main_arg1)) := by
  show StableHlo.after hostOps0_2 (StableHlo.after hostOps0_1 (StableHlo.after hostOps0 (W0 m ρ c))) (Proc.devRef .tc main_v15) = _
  after_results
  rfl

/-! ## Across the first region -/

theorem W4_main_v1 (c : Dev nD) : W4 m ρ c (Proc.devRef .tc main_v1) = W3 m ρ c (Proc.devRef .tc main_v1) := W4_of_ne m ρ c main_v1 (by decide)
theorem W4_main_v3 (c : Dev nD) : W4 m ρ c (Proc.devRef .tc main_v3) = W3 m ρ c (Proc.devRef .tc main_v3) := W4_of_ne m ρ c main_v3 (by decide)
theorem W4_main_arg3 (c : Dev nD) : W4 m ρ c (Proc.devRef .tc main_arg3) = W3 m ρ c (Proc.devRef .tc main_arg3) := W4_of_ne m ρ c main_arg3 (by decide)
theorem W4_main_arg4 (c : Dev nD) : W4 m ρ c (Proc.devRef .tc main_arg4) = W3 m ρ c (Proc.devRef .tc main_arg4) := W4_of_ne m ρ c main_arg4 (by decide)
theorem W4_main_arg5 (c : Dev nD) : W4 m ρ c (Proc.devRef .tc main_arg5) = W3 m ρ c (Proc.devRef .tc main_arg5) := W4_of_ne m ρ c main_arg5 (by decide)
theorem W4_main_v15 (c : Dev nD) : W4 m ρ c (Proc.devRef .tc main_v15) = W3 m ρ c (Proc.devRef .tc main_v15) :=
  (W4_arr m ρ c 2).trans (((dat0 (V3 m ρ) c).arrAt_in 2 rfl _).trans (A_eq0 (V3 m ρ) c 2))
theorem W4_main_v16 (c : Dev nD) : W4 m ρ c (Proc.devRef .tc main_v16) = (dat0 (V3 m ρ) c).arrAt 3 cfg0.N := W4_arr m ρ c 3

/-! ## The stretch before the second region -/

theorem W5_main_v15 (c : Dev nD) : W5 m ρ c (Proc.devRef .tc main_v15) = W4 m ρ c (Proc.devRef .tc main_v15) := by keeps
theorem W5_main_v1 (c : Dev nD) : W5 m ρ c (Proc.devRef .tc main_v1) = W4 m ρ c (Proc.devRef .tc main_v1) := by keeps
theorem W5_main_v3 (c : Dev nD) : W5 m ρ c (Proc.devRef .tc main_v3) = W4 m ρ c (Proc.devRef .tc main_v3) := by keeps
theorem W5_main_arg4 (c : Dev nD) : W5 m ρ c (Proc.devRef .tc main_arg4) = W4 m ρ c (Proc.devRef .tc main_arg4) := by keeps
theorem W5_main_arg5 (c : Dev nD) : W5 m ρ c (Proc.devRef .tc main_arg5) = W4 m ρ c (Proc.devRef .tc main_arg5) := by keeps
theorem W5_main_v27 (c : Dev nD) : W5 m ρ c (Proc.devRef .tc main_v27)
    = aggT16 (F := F) (W4 m ρ c (Proc.devRef .tc main_v16)) (W4 m ρ c (Proc.devRef .tc main_v1)) (W4 m ρ c (Proc.devRef .tc main_v3)) := by
  show StableHlo.after hostOps1 (W4 m ρ c) (Proc.devRef .tc main_v27) = _
  generalize W4 m ρ c = W
  after_results_simp
  rfl
theorem W5_main_v28 (c : Dev nD) : W5 m ρ c (Proc.devRef .tc main_v28) = browT16 (F := F) (W4 m ρ c (Proc.devRef .tc main_arg3)) := by
  show StableHlo.after hostOps1 (W4 m ρ c) (Proc.devRef .tc main_v28) = _
  generalize W4 m ρ c = W
  after_results_simp
  rfl

/-! ## Across the second and the third region -/

theorem W6_main_v1 (c : Dev nD) : W6 m ρ c (Proc.devRef .tc main_v1) = W5 m ρ c (Proc.devRef .tc main_v1) := W6_of_ne m ρ c main_v1 (by decide)
theorem W6_main_v3 (c : Dev nD) : W6 m ρ c (Proc.devRef .tc main_v3) = W5 m ρ c (Proc.devRef .tc main_v3) := W6_of_ne m ρ c main_v3 (by decide)
theorem W6_main_arg4 (c : Dev nD) : W6 m ρ c (Proc.devRef .tc main_arg4) = W5 m ρ c (Proc.devRef .tc main_arg4) := W6_of_ne m ρ c main_arg4 (by decide)
theorem W6_main_arg5 (c : Dev nD) : W6 m ρ c (Proc.devRef .tc main_arg5) = W5 m ρ c (Proc.devRef .tc main_arg5) := W6_of_ne m ρ c main_arg5 (by decide)
theorem W6_main_v15 (c : Dev nD) : W6 m ρ c (Proc.devRef .tc main_v15) = W5 m ρ c (Proc.devRef .tc main_v15) :=
  (W6_arr m ρ c 1).trans (((dat1 (V5 m ρ) c).arrAt_in 1 rfl _).trans (A_eq1 (V5 m ρ) c 1))
theorem W6_main_v29 (c : Dev nD) : W6 m ρ c (Proc.devRef .tc main_v29) = (dat1 (V5 m ρ) c).arrAt 3 cfg1.N := W6_arr m ρ c 3
theorem W7_main_v1 (c : Dev nD) : W7 m ρ c (Proc.devRef .tc main_v1) = W6 m ρ c (Proc.devRef .tc main_v1) := W7_of_ne m ρ c main_v1 (by decide)
theorem W7_main_v3 (c : Dev nD) : W7 m ρ c (Proc.devRef .tc main_v3) = W6 m ρ c (Proc.devRef .tc main_v3) := W7_of_ne m ρ c main_v3 (by decide)
theorem W7_main_arg5 (c : Dev nD) : W7 m ρ c (Proc.devRef .tc main_arg5) = W6 m ρ c (Proc.devRef .tc main_arg5) := W7_of_ne m ρ c main_arg5 (by decide)
theorem W7_main_v15 (c : Dev nD) : W7 m ρ c (Proc.devRef .tc main_v15) = W6 m ρ c (Proc.devRef .tc main_v15) :=
  (W7_arr m ρ c 2).trans (((dat2 (V6 m ρ) c).arrAt_in 2 rfl _).trans (A_eq2 (V6 m ρ) c 2))
theorem W7_main_v30 (c : Dev nD) : W7 m ρ c (Proc.devRef .tc main_v30) = (dat2 (V6 m ρ) c).arrAt 3 cfg2.N := W7_arr m ρ c 3

/-! ## The stretch before the last region, and the last region -/

theorem W8_main_v15 (c : Dev nD) : W8 m ρ c (Proc.devRef .tc main_v15) = W7 m ρ c (Proc.devRef .tc main_v15) := by keeps
theorem W8_main_v41 (c : Dev nD) : W8 m ρ c (Proc.devRef .tc main_v41)
    = aggT40 (F := F) (W7 m ρ c (Proc.devRef .tc main_v30)) (W7 m ρ c (Proc.devRef .tc main_v1)) (W7 m ρ c (Proc.devRef .tc main_v3)) := by
  show StableHlo.after hostOps3 (W7 m ρ c) (Proc.devRef .tc main_v41) = _
  generalize W7 m ρ c = W
  after_results_simp
  rfl
theorem W8_main_v42 (c : Dev nD) : W8 m ρ c (Proc.devRef .tc main_v42) = browT40 (F := F) (W7 m ρ c (Proc.devRef .tc main_arg5)) := by
  show StableHlo.after hostOps3 (W7 m ρ c) (Proc.devRef .tc main_v42) = _
  generalize W7 m ρ c = W
  after_results_simp
  rfl
theorem W9_main_v43 (c : Dev nD) : W9 m ρ c (Proc.devRef .tc main_v43) = (dat3 (V8 m ρ) c).arrAt 3 cfg3.N := W9_arr m ρ c 3

end Cert.KernelIdeal.Gen

end
-- ==== Proof.Spec.lean ====
/-
  The mathematics of the two-layer graph convolution, apart from any program.

  The graph has 100000 nodes and 3200000 directed edges given as two rows of 32-bit words (sources, targets).
  A take `a[w]` by a word reads the row `rowOf w`: a negative word is first moved up by the node count, and the
  result is clamped into the node range.  A scatter-add drops every update whose target word, read signed, is no node
  (`lands`).  One convolution sends node features `h` to
      out[n] = Σ_{edges e landing at n} dinv[src e] · dinv[n] · h[src e]  +  dinv[n] · dinv[n] · h[n]  +  b,
  with `dinv = deg^(-1/2)` and `deg` the number of edges landing at a node plus one for its self loop.

  Two arrangements of that sum are stated here.  `convR` is the arrangement of the plain formula: one sum over the
  3300000 edges of the graph WITH self loops (the 3200000 given edges followed by one loop per node), each term
  carrying both normalising factors.  `convK` is the factored arrangement: the features are scaled by `dinv` at the
  source first, the given edges and the self loop are added, and the result is scaled by `dinv` at the target.
  They agree (`convR_eq_convK`) because `dinv` at a node is a non-negative finite number, so multiplying by it
  distributes over any sum of extended reals.
-/
import Mathlib.Algebra.BigOperators.Fin
import Mathlib.Data.EReal.Operations
import Idealize.ShloMosaic.PureOps.Ideal
import Idealize.ShloMosaic.PureOps.Ideal.Laws
import Idealize.ShloMosaic.Lib.ValueIdx

noncomputable section

open scoped BigOperators

namespace Cert.Gcn

open Idealize.ShloMosaic Idealize.ShloMosaic.ValueIdx

/-- The edge list: row 0 the sources, row 1 the targets. -/
abbrev Edges := IVec (⟨2, ![2, 3200000]⟩ : Shape) 32
/-- A matrix of extended reals. -/
abbrev Mat (a b : ℕ) := FVec Ideal (⟨2, ![a, b]⟩ : Shape) .f32
/-- A vector of extended reals. -/
abbrev Vec1 (a : ℕ) := FVec Ideal (⟨1, ![a]⟩ : Shape) .f32

/-- The float word 1.0 as an extended real (never evaluated: the same word on both sides). The word 0.0 is the
    number 0 (`Ideal.ofBits_zero_f32`), and is written so here. -/
abbrev f1 : EReal := Ideal.ofBits .f32 0x3F800000#32

def src (ei : Edges) (e : Fin 3200000) : BitVec 32 := ei (ix2 (0 : Fin 2) e)
def dst (ei : Edges) (e : Fin 3200000) : BitVec 32 := ei (ix2 (1 : Fin 2) e)

/-- A word list followed by the node numbers 0 … 99999: the edges with one self loop per node appended. -/
def ext (v : Fin 3200000 → BitVec 32) (e : Fin 3300000) : BitVec 32 :=
  if h : e.val < 3200000 then v ⟨e.val, h⟩ else BitVec.ofNat 32 (e.val - 3200000)

/-- A take's index normalisation: a negative word is moved up by the node count. -/
def wrapIdx (w : BitVec 32) : BitVec 32 := Scalar.select (IntOp.cmpi .slt w 0#32) (IntOp.addi w 100000#32) w
/-- The row a take by the word `w` reads: normalised, read signed, clamped into the node range. -/
def rowOf (w : BitVec 32) : Fin 100000 := ⟨min (wrapIdx w).toInt.toNat (100000 - 1), by omega⟩
/-- A scatter's update with target word `w` lands at node `n`. -/
abbrev lands (w : BitVec 32) (n : Fin 100000) : Prop := w.toInt = (n.val : ℤ)

/-- Degree, factored arrangement: the given edges landing at `n`, then one more. -/
def degK (ei : Edges) (n : Fin 100000) : EReal := (∑ e : Fin 3200000, if lands (dst ei e) n then f1 else 0) + f1
/-- Degree, plain arrangement: the edges with self loops landing at `n`. -/
def degR (ei : Edges) (n : Fin 100000) : EReal := ∑ e : Fin 3300000, if lands (ext (dst ei) e) n then f1 else 0
/-- The normalising factor of a degree: its inverse square root where the degree is positive, else zero. -/
def dinvOf (d : EReal) : EReal := Scalar.select (Ideal.cmp .ogt d 0) (Ideal.rsqrt d) 0
def dinvK (ei : Edges) (n : Fin 100000) : EReal := dinvOf (degK ei n)
def dinvR (ei : Edges) (n : Fin 100000) : EReal := dinvOf (degR ei n)

/-- One convolution, factored arrangement. -/
def convK {K : ℕ} (ei : Edges) (h : Mat 100000 K) (b : Vec1 K) (n : Fin 100000) (k : Fin K) : EReal :=
  dinvK ei n * ((∑ e : Fin 3200000, if lands (dst ei e) n then
      dinvK ei (rowOf (src ei e)) * h (ix2 (rowOf (src ei e)) k) else 0) + dinvK ei n * h (ix2 n k)) + b (ix1 k)

/-- One convolution, plain arrangement. -/
def convR {K : ℕ} (ei : Edges) (h : Mat 100000 K) (b : Vec1 K) (n : Fin 100000) (k : Fin K) : EReal :=
  (∑ e : Fin 3300000, if lands (ext (dst ei) e) n then
      (dinvR ei (rowOf (ext (src ei) e)) * dinvR ei (rowOf (ext (dst ei) e))) * h (ix2 (rowOf (ext (src ei) e)) k) else 0)
    + b (ix1 k)

/-- A matrix product read at an entry. -/
def mm {a K b : ℕ} (x : Mat a K) (w : Mat K b) : Mat a b := fun i => ∑ j : Fin K, x (ix2 (i 0) j) * w (ix2 j (i 1))

/-- The largest entry of row `n`, from −∞. -/
def rowMax {a b : ℕ} (z : Mat a b) (n : Fin a) : EReal :=
  (Finset.univ : Finset (Fin b)).fold max (Ideal.ofBits .f32 0xFF800000#32) (fun k => z (ix2 n k))
/-- The logarithm of the soft maximum along rows, in its shifted form. -/
def logSoftmax {a b : ℕ} (z : Mat a b) : Mat a b := fun i =>
  (z (ix2 (i 0) (i 1)) - rowMax z (i 0)) - Ideal.log (∑ j : Fin b, Ideal.exp (z (ix2 (i 0) j) - rowMax z (i 0)))

/-- A convolution as a matrix. -/
def convKM {K : ℕ} (ei : Edges) (h : Mat 100000 K) (b : Vec1 K) : Mat 100000 K := fun i => convK (K := K) ei h b (i 0) (i 1)
def convRM {K : ℕ} (ei : Edges) (h : Mat 100000 K) (b : Vec1 K) : Mat 100000 K := fun i => convR (K := K) ei h b (i 0) (i 1)
/-- The positive part, entry by entry. -/
def reluM {a b : ℕ} (z : Mat a b) : Mat a b := fun i => max (z i) 0

/-- The whole network, factored arrangement. -/
def outK (ei : Edges) (x : Mat 100000 128) (W1 : Mat 128 16) (b1 : Vec1 16) (W2 : Mat 16 40) (b2 : Vec1 40) : Mat 100000 40 :=
  logSoftmax (convKM ei (mm (reluM (convKM ei (mm x W1) b1)) W2) b2)
/-- The whole network, plain arrangement. -/
def outR (ei : Edges) (x : Mat 100000 128) (W1 : Mat 128 16) (b1 : Vec1 16) (W2 : Mat 16 40) (b2 : Vec1 40) : Mat 100000 40 :=
  logSoftmax (convRM ei (mm (reluM (convRM ei (mm x W1) b1)) W2) b2)

/-! ## The factored arrangement, stage by stage

The factored network is computed in six stages: a matrix product scaled row by row (`scaleMM`), the aggregation over
the edges and the self loop (`aggM`), and a closing stage that scales by the target's factor, adds the bias and applies
the positive part (`finRelu`) or the logarithm of the soft maximum (`finLogSoftmax`); then the same three again. -/

/-- The normalising factors as a column. -/
def dcol (ei : Edges) : Mat 100000 1 := fun i => dinvK ei (i 0)
/-- A bias vector as a row. -/
def brow {K : ℕ} (b : Vec1 K) : Mat 1 K := fun i => b (ix1 (i 1))
/-- Rows of a product scaled by a column. -/
def scaleMM {K C : ℕ} (x : Mat 100000 K) (w : Mat K C) (d : Mat 100000 1) : Mat 100000 C :=
  fun i => d (ix2 (i 0) (0 : Fin 1)) * mm x w i
/-- Every node's row plus the rows of the sources of the edges landing at it. -/
def aggM {K : ℕ} (ei : Edges) (s : Mat 100000 K) : Mat 100000 K :=
  fun i => (∑ e : Fin 3200000, if lands (dst ei e) (i 0) then s (ix2 (rowOf (src ei e)) (i 1)) else 0) + s i
/-- Scale by the column, add the bias row. -/
def affine {K : ℕ} (acc : Mat 100000 K) (d : Mat 100000 1) (b : Mat 1 K) : Mat 100000 K :=
  fun i => d (ix2 (i 0) (0 : Fin 1)) * acc i + b (ix2 (0 : Fin 1) (i 1))
def finRelu {K : ℕ} (acc : Mat 100000 K) (d : Mat 100000 1) (b : Mat 1 K) : Mat 100000 K := reluM (affine acc d b)
def finLogSoftmax {K : ℕ} (acc : Mat 100000 K) (d : Mat 100000 1) (b : Mat 1 K) : Mat 100000 K := logSoftmax (affine acc d b)

/-- The factored network as its six stages. -/
def chainK (ei : Edges) (x : Mat 100000 128) (W1 : Mat 128 16) (b1 : Vec1 16) (W2 : Mat 16 40) (b2 : Vec1 40) : Mat 100000 40 :=
  finLogSoftmax (aggM ei (scaleMM (finRelu (aggM ei (scaleMM x W1 (dcol ei))) (dcol ei) (brow b1)) W2 (dcol ei))) (dcol ei) (brow b2)

end Cert.Gcn

end
-- ==== Proof.LibScatter.lean ====
/-
  The host's scatter read at one index.

  A scatter whose body adds in a commutative monoid leaves, at each operand index, the operand's element plus the sum of
  the updates that land there, whatever the order of the fold (general lemma, any dimension numbers). For the
  two families of dimension numbers of a histogram (operand [N], indices [K,1], updates [K]) and of a row
  scatter-add (operand [R,C], indices [K,1], updates [K,C]) the landing index is computed in closed form: update
  e lands in row "the e-th index read signed", and is dropped when that is outside the operand.
-/
import Mathlib.Data.BitVec
import Mathlib.Algebra.BigOperators.Fin
import Idealize.ShloMosaic.Lib.ValueIdxRank1

open scoped BigOperators

namespace Cert.LibScatter

open Idealize.ShloMosaic Idealize.ShloMosaic.ValueIdx

/-! ## Any scatter whose body adds in a commutative monoid -/

section General
variable {α : Type} [AddCommMonoid α] {s si u : Shape} {w : Nat}

/-- The scatter's fold over ANY list of update positions, read at operand index i: the start value there plus the
    sum, over the list, of the updates whose landing index is i. -/
theorem foldl_add_apply (d : ScatterDims s si u) (idx : IVec si w) (upd : u.Idx → α) (i : s.Idx) :
    ∀ (l : List (Fin u.numel)) (x : s.Idx → α),
      (l.foldl (fun r n =>
          match d.resultIdx? (u.rowMajor.symm n) idx with
          | some k => fun i' => if i' = k then r k + upd (u.rowMajor.symm n) else r i'
          | none => r) x) i
        = x i + (l.map fun n => if d.resultIdx? (u.rowMajor.symm n) idx = some i then upd (u.rowMajor.symm n) else 0).sum := by
  intro l
  induction l with
  | nil => intro x; simp
  | cons n l ih =>
    intro x
    rw [List.foldl_cons, ih, List.map_cons, List.sum_cons, ← add_assoc]
    congr 1
    cases hk : d.resultIdx? (u.rowMajor.symm n) idx with
    | none => simp
    | some k =>
      by_cases hik : i = k
      · subst hik; simp
      · have : ¬ (some k = some i) := fun h => hik (Option.some.inj h).symm
        simp [hik, this]

/-- A scatter with an adding body, read at operand index i: the operand's element plus the sum of all updates
    whose landing index is i. -/
theorem scatter_add_apply (d : ScatterDims s si u) (x : s.Idx → α) (idx : IVec si w) (upd : u.Idx → α) (i : s.Idx) :
    Host.scatter d (fun a b => a + b) x idx upd i
      = x i + ∑ j : u.Idx, if d.resultIdx? j idx = some i then upd j else 0 := by
  unfold Host.scatter
  refine (foldl_add_apply d idx upd i (List.finRange u.numel) x).trans ?_
  rw [← Fin.sum_univ_def]
  congr 1
  exact Equiv.sum_comp u.rowMajor.symm (fun j => if d.resultIdx? j idx = some i then upd j else 0)

end General

/-! ## Row scatter: operand [R,C], indices [K,1], updates [K,C] -/

section Row

/-- The dimension numbers of a row scatter (every update row added to the operand row its index names): the updates' axis 1 is the window, it goes to
    the operand's axis 1; the operand's axis 0 is indexed by the one component of each index vector. -/
abbrev rowDims (R K C : Nat) (wf : ScatterDims.WF ⟨2, ![R, C]⟩ ⟨2, ![K, 1]⟩ ⟨2, ![K, C]⟩ [1] [0] [0] 1) :
    ScatterDims ⟨2, ![R, C]⟩ ⟨2, ![K, 1]⟩ ⟨2, ![K, C]⟩ where
  updateWindowDims := [1]
  insertedWindowDims := [0]
  scatterDimsToOperandDims := [0]
  indexVectorDim := 1
  wf := wf

variable {R K C w : Nat} (wf : ScatterDims.WF ⟨2, ![R, C]⟩ ⟨2, ![K, 1]⟩ ⟨2, ![K, C]⟩ [1] [0] [0] 1)

/-- On the operand's row axis the window starts at the update's row's index, read signed. -/
theorem rowDims_start0 (j : (⟨2, ![K, C]⟩ : Shape).Idx) (idx : IVec ⟨2, ![K, 1]⟩ w) :
    (rowDims R K C wf).start j idx 0 = (idx (ix2 (j 0) 0)).toInt := by
  unfold ScatterDims.start
  rw [dif_pos (show (0 : Fin 2) ∈ (rowDims R K C wf).scatterDimsToOperandDims from List.mem_singleton.mpr rfl)]
  have hsi : (rowDims R K C wf).siIdx j ⟨List.idxOf (0 : Fin 2) (rowDims R K C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the operand's column axis the window starts at 0. -/
theorem rowDims_start1 (j : (⟨2, ![K, C]⟩ : Shape).Idx) (idx : IVec ⟨2, ![K, 1]⟩ w) :
    (rowDims R K C wf).start j idx 1 = 0 := by
  unfold ScatterDims.start
  rw [dif_neg (show (1 : Fin 2) ∉ (rowDims R K C wf).scatterDimsToOperandDims from
    fun h => Nat.one_ne_zero (congrArg Fin.val (List.mem_singleton.mp h)))]

/-- The operand's axes that are not inserted: the column axis alone. -/
theorem rowDims_sKept : (rowDims R K C wf).sKept = [1] := rfl

/-- The row axis is inserted: no window coordinate. -/
theorem rowDims_window0 (j : (⟨2, ![K, C]⟩ : Shape).Idx) : (rowDims R K C wf).window j 0 = 0 := by
  unfold ScatterDims.window
  rw [dif_neg (show (0 : Fin 2) ∉ (rowDims R K C wf).sKept from
    fun h => Nat.one_ne_zero (congrArg Fin.val (List.mem_singleton.mp (rowDims_sKept wf ▸ h))).symm)]

/-- The column axis carries the update's column. -/
theorem rowDims_window1 (j : (⟨2, ![K, C]⟩ : Shape).Idx) : (rowDims R K C wf).window j 1 = (j 1).val := by
  unfold ScatterDims.window
  rw [dif_pos (show (1 : Fin 2) ∈ (rowDims R K C wf).sKept from rowDims_sKept wf ▸ List.mem_singleton.mpr rfl)]
  rfl

/-- WHERE AN UPDATE LANDS: update (e, c) lands at (row, c), row the e-th index read signed, when that row is in
    the operand; it is dropped otherwise. -/
theorem rowDims_resultIdx? (e : Fin K) (c : Fin C) (idx : IVec ⟨2, ![K, 1]⟩ w) :
    (rowDims R K C wf).resultIdx? (ix2 e c) idx
      = if h : 0 ≤ (idx (ix2 e 0)).toInt ∧ (idx (ix2 e 0)).toInt < (R : ℤ) then
          some (ix2 ⟨(idx (ix2 e 0)).toInt.toNat, by omega⟩ c)
        else none := by
  have h0 : (rowDims R K C wf).start (ix2 e c) idx 0 + ((rowDims R K C wf).window (ix2 e c) 0 : ℤ)
      = (idx (ix2 e 0)).toInt := by
    rw [rowDims_start0, rowDims_window0]; simp; rfl
  have h1 : (rowDims R K C wf).start (ix2 e c) idx 1 + ((rowDims R K C wf).window (ix2 e c) 1 : ℤ) = (c.val : ℤ) := by
    rw [rowDims_start1, rowDims_window1]; simp; rfl
  unfold ScatterDims.resultIdx?
  by_cases h : 0 ≤ (idx (ix2 e 0)).toInt ∧ (idx (ix2 e 0)).toInt < (R : ℤ)
  · have hall : ∀ a : Fin 2, 0 ≤ (rowDims R K C wf).start (ix2 e c) idx a + ((rowDims R K C wf).window (ix2 e c) a : ℤ)
        ∧ (rowDims R K C wf).start (ix2 e c) idx a + ((rowDims R K C wf).window (ix2 e c) a : ℤ)
          < ((⟨2, ![R, C]⟩ : Shape).size a : ℤ) := by
      intro a
      match a with
      | ⟨0, _⟩ =>
        show 0 ≤ (rowDims R K C wf).start (ix2 e c) idx 0 + ((rowDims R K C wf).window (ix2 e c) 0 : ℤ)
          ∧ (rowDims R K C wf).start (ix2 e c) idx 0 + ((rowDims R K C wf).window (ix2 e c) 0 : ℤ) < (R : ℤ)
        rw [h0]; exact h
      | ⟨1, _⟩ =>
        show 0 ≤ (rowDims R K C wf).start (ix2 e c) idx 1 + ((rowDims R K C wf).window (ix2 e c) 1 : ℤ)
          ∧ (rowDims R K C wf).start (ix2 e c) idx 1 + ((rowDims R K C wf).window (ix2 e c) 1 : ℤ) < (C : ℤ)
        rw [h1]; exact ⟨Int.natCast_nonneg _, Int.ofNat_lt.mpr c.isLt⟩
    rw [dif_pos hall, dif_pos h]
    congr 1
    funext a
    refine Fin.ext ?_
    match a with
    | ⟨0, _⟩ => show ((rowDims R K C wf).start (ix2 e c) idx 0 + ((rowDims R K C wf).window (ix2 e c) 0 : ℤ)).toNat = _
                rw [h0]
    | ⟨1, _⟩ => show ((rowDims R K C wf).start (ix2 e c) idx 1 + ((rowDims R K C wf).window (ix2 e c) 1 : ℤ)).toNat = _
                rw [h1]; rfl
  · rw [dif_neg h, dif_neg]
    intro hall
    have := hall 0
    rw [h0] at this
    exact h this

/-- The form sums use: update (e, c) lands at (i, c') exactly when the e-th index reads i and the columns agree. -/
theorem rowDims_resultIdx?_eq_some_iff (e : Fin K) (c c' : Fin C) (i : Fin R) (idx : IVec ⟨2, ![K, 1]⟩ w) :
    (rowDims R K C wf).resultIdx? (ix2 e c) idx = some (ix2 i c')
      ↔ (idx (ix2 e 0)).toInt = (i.val : ℤ) ∧ c = c' := by
  rw [rowDims_resultIdx?]
  by_cases h : 0 ≤ (idx (ix2 e 0)).toInt ∧ (idx (ix2 e 0)).toInt < (R : ℤ)
  · rw [dif_pos h]
    constructor
    · intro heq
      have heq := Option.some.inj heq
      have e0 : (idx (ix2 e 0)).toInt.toNat = i.val := congrArg Fin.val (congrFun heq 0)
      have e1 : c = c' := congrFun heq 1
      exact ⟨by omega, e1⟩
    · rintro ⟨ht, rfl⟩
      congr 2
      exact Fin.ext (by show (idx (ix2 e 0)).toInt.toNat = i.val; omega)
  · rw [dif_neg h]
    constructor
    · intro heq; cases heq
    · rintro ⟨ht, -⟩
      exact absurd ⟨by omega, by have := i.isLt; omega⟩ h

end Row

/-! ## Histogram: operand [N], indices [K,1], updates [K] -/

section Hist

/-- The dimension numbers of a histogram (every update added to the operand element its index names): the updates
    have no window axis; the operand's one axis is inserted and indexed by the one component of each index vector. -/
abbrev histDims (N K : Nat) (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

variable {N K w : Nat} (wf : ScatterDims.WF ⟨1, ![N]⟩ ⟨2, ![K, 1]⟩ ⟨1, ![K]⟩ [] [0] [0] 1)

/-- The window starts at the update's index, read signed. -/
theorem histDims_start0 (j : (⟨1, ![K]⟩ : Shape).Idx) (idx : IVec ⟨2, ![K, 1]⟩ w) :
    (histDims N K wf).start j idx 0 = (idx (ix2 (j 0) 0)).toInt := by
  unfold ScatterDims.start
  rw [dif_pos (show (0 : Fin 1) ∈ (histDims N K wf).scatterDimsToOperandDims from List.mem_singleton.mpr rfl)]
  have hsi : (histDims N K wf).siIdx j ⟨List.idxOf (0 : Fin 1) (histDims N K wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is inserted: no axis is kept, … -/
theorem histDims_sKept : (histDims N K wf).sKept = [] := rfl

/-- … so there is no window coordinate. -/
theorem histDims_window0 (j : (⟨1, ![K]⟩ : Shape).Idx) : (histDims N K wf).window j 0 = 0 := by
  unfold ScatterDims.window
  rw [dif_neg (show (0 : Fin 1) ∉ (histDims N K wf).sKept from fun h => List.not_mem_nil (histDims_sKept wf ▸ h))]

/-- WHERE AN UPDATE LANDS: update e lands at the e-th index read signed, when that is in the operand; it is
    dropped otherwise. -/
theorem histDims_resultIdx? (e : Fin K) (idx : IVec ⟨2, ![K, 1]⟩ w) :
    (histDims N K wf).resultIdx? (ix1 e) idx
      = if h : 0 ≤ (idx (ix2 e 0)).toInt ∧ (idx (ix2 e 0)).toInt < (N : ℤ) then
          some (ix1 ⟨(idx (ix2 e 0)).toInt.toNat, by omega⟩)
        else none := by
  have h0 : (histDims N K wf).start (ix1 e) idx 0 + ((histDims N K wf).window (ix1 e) 0 : ℤ)
      = (idx (ix2 e 0)).toInt := by
    rw [histDims_start0, histDims_window0]; simp; rfl
  unfold ScatterDims.resultIdx?
  by_cases h : 0 ≤ (idx (ix2 e 0)).toInt ∧ (idx (ix2 e 0)).toInt < (N : ℤ)
  · have hall : ∀ a : Fin 1, 0 ≤ (histDims N K wf).start (ix1 e) idx a + ((histDims N K wf).window (ix1 e) a : ℤ)
        ∧ (histDims N K wf).start (ix1 e) idx a + ((histDims N K wf).window (ix1 e) a : ℤ)
          < ((⟨1, ![N]⟩ : Shape).size a : ℤ) := by
      intro a
      match a with
      | ⟨0, _⟩ =>
        show 0 ≤ (histDims N K wf).start (ix1 e) idx 0 + ((histDims N K wf).window (ix1 e) 0 : ℤ)
          ∧ (histDims N K wf).start (ix1 e) idx 0 + ((histDims N K wf).window (ix1 e) 0 : ℤ) < (N : ℤ)
        rw [h0]; exact h
    rw [dif_pos hall, dif_pos h]
    congr 1
    funext a
    refine Fin.ext ?_
    match a with
    | ⟨0, _⟩ => show ((histDims N K wf).start (ix1 e) idx 0 + ((histDims N K wf).window (ix1 e) 0 : ℤ)).toNat = _
                rw [h0]
  · rw [dif_neg h, dif_neg]
    intro hall
    have := hall 0
    rw [h0] at this
    exact h this

/-- The form sums use: update e lands at v exactly when the e-th index reads v. -/
theorem histDims_resultIdx?_eq_some_iff (e : Fin K) (v : Fin N) (idx : IVec ⟨2, ![K, 1]⟩ w) :
    (histDims N K wf).resultIdx? (ix1 e) idx = some (ix1 v) ↔ (idx (ix2 e 0)).toInt = (v.val : ℤ) := by
  rw [histDims_resultIdx?]
  by_cases h : 0 ≤ (idx (ix2 e 0)).toInt ∧ (idx (ix2 e 0)).toInt < (N : ℤ)
  · rw [dif_pos h]
    constructor
    · intro heq
      have heq := Option.some.inj heq
      have e0 : (idx (ix2 e 0)).toInt.toNat = v.val := congrArg Fin.val (congrFun heq 0)
      omega
    · intro ht
      congr 2
      exact Fin.ext (by show (idx (ix2 e 0)).toInt.toNat = v.val; omega)
  · rw [dif_neg h]
    constructor
    · intro heq; cases heq
    · intro ht
      exact absurd ⟨by omega, by have := v.isLt; omega⟩ h

end Hist

/-! ## The two scatters read at an index, as sums over the update rows -/

section Sums

/-- THE ROW SCATTER-ADD AT (i, c), exact arithmetic: the operand's element plus the sum, over the update rows whose
    index reads i, of the row's element in column c. -/
theorem rowDims_scatterAdd_apply {R K C w : Nat} {φ : FTy}
    (wf : ScatterDims.WF ⟨2, ![R, C]⟩ ⟨2, ![K, 1]⟩ ⟨2, ![K, C]⟩ [1] [0] [0] 1)
    (x : FVec Ideal ⟨2, ![R, C]⟩ φ) (idx : IVec ⟨2, ![K, 1]⟩ w) (upd : FVec Ideal ⟨2, ![K, C]⟩ φ) (i : Fin R) (c : Fin C) :
    Host.scatterAdd (rowDims R K C wf) x idx upd (ix2 i c)
      = x (ix2 i c) + ∑ e : Fin K, if (idx (ix2 e 0)).toInt = (i.val : ℤ) then upd (ix2 e c) else 0 := by
  show x (ix2 i c) + ∑ j ∈ Finset.univ.filter (fun j => (rowDims R K C wf).resultIdx? j idx = some (ix2 i c)), upd j = _
  congr 1
  rw [Finset.sum_filter, sum_idx2]
  refine Finset.sum_congr rfl fun e _ => ?_
  simp only [rowDims_resultIdx?_eq_some_iff]
  by_cases ht : (idx (ix2 e 0)).toInt = (i.val : ℤ)
  · simp [ht]
  · simp [ht]

/-- A sum of 32-bit words, each present or absent, is the word of the sum of their values. -/
theorem sum_ite_word {ι : Type} (S : Finset ι) (p : ι → Prop) [DecidablePred p] (f : ι → BitVec 32) :
    (∑ e ∈ S, if p e then f e else 0) = BitVec.ofNat 32 (∑ e ∈ S, if p e then (f e).toNat else 0) := by
  rw [← BitVec.natCast_eq_ofNat, Nat.cast_sum]
  refine Finset.sum_congr rfl fun e _ => ?_
  split_ifs
  · rw [BitVec.natCast_eq_ofNat, BitVec.ofNat_toNat, BitVec.setWidth_eq]
  · simp

/-- THE HISTOGRAM AT v, 32-bit words added with wrap-around: the operand's element plus the word of the sum, over the
    updates whose index reads v, of the update's value. -/
theorem histDims_scatter_apply {N K w : Nat}
    (wf : ScatterDims.WF ⟨1, ![N]⟩ ⟨2, ![K, 1]⟩ ⟨1, ![K]⟩ [] [0] [0] 1)
    (x : IVec ⟨1, ![N]⟩ 32) (idx : IVec ⟨2, ![K, 1]⟩ w) (upd : IVec ⟨1, ![K]⟩ 32) (v : Fin N) :
    Host.scatter (histDims N K wf) IntOp.addi x idx upd (ix1 v)
      = x (ix1 v) + BitVec.ofNat 32 (∑ e : Fin K, if (idx (ix2 e 0)).toInt = (v.val : ℤ) then (upd (ix1 e)).toNat else 0) := by
  have hadd : (IntOp.addi : BitVec 32 → BitVec 32 → BitVec 32) = fun a b => a + b := rfl
  rw [hadd, scatter_add_apply, ← sum_ite_word]
  congr 1
  rw [← Equiv.sum_comp (idxEquiv1 (n := K)).symm]
  refine Finset.sum_congr rfl fun e _ => ?_
  show (if (histDims N K wf).resultIdx? (ix1 e) idx = some (ix1 v) then upd (ix1 e) else 0) = _
  simp only [histDims_resultIdx?_eq_some_iff]

end Sums

end Cert.LibScatter
-- ==== Proof.LibTakeRows.lean ====
/-
  A row take read at an index.  `x[idx]` of a matrix `x : [N, W]` at a vector of row numbers lowers to a
  `stablehlo.gather` whose start indices are laid out as a column `[E, 1]`: offset axis 1, collapsed axis 0,
  start index map `[0]`, index vector axis 1, slices of one whole row.  Result element `(e, k)` is the
  operand at column `k` of the row `idx[e, 0]`, read as a signed integer and clamped into `[0, N − 1]`.
-/
import Idealize.ShloMosaic.Lib.ValueIdx

noncomputable section

namespace Cert.LibTakeRows

open Idealize.ShloMosaic Idealize.ShloMosaic.ValueIdx

variable {α : Type}

/-- The dimension numbers of a row take, for an operand `[N, W]`, start indices `[E, 1]` and a result `[E, W]`;
    their conditions `wf` are decided on a program's literal shapes. -/
abbrev rowDims (N W E : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- THE ROW TAKE READ AT `(e, k)`: column `k` of the row the start index `idx[e, 0]` names, read signed and
    clamped into `[0, N − 1]`. -/
theorem gather_rows_apply {N W E w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (k : Fin W) :
    Host.gather (rowDims N W E wf) x idx (ix2 e k)
      = x (ix2 (⟨min (idx (ix2 e (0 : Fin 1))).toInt.toNat (N - 1), by omega⟩ : Fin N) k) := by
  unfold Host.gather
  congr 1
  funext a
  refine Fin.ext ?_
  match a with
  | ⟨0, _⟩ =>
    -- axis 0 is collapsed and named by the start index map: the clamped start index, no batch or offset part
    show (rowDims N W E wf).start (ix2 e k) idx 0 + (rowDims N W E wf).batchCoord (ix2 e k) 0
      + (rowDims N W E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N W E wf).startIndexMap from List.mem_singleton.mpr rfl)]
    have hsi : (rowDims N W E wf).siIdx (ix2 e k) ⟨List.idxOf (0 : Fin 2) (rowDims N W E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1 is kept whole: start 0 (not in the start index map), no batch part, offset the result's column
    show (rowDims N W E wf).start (ix2 e k) idx 1 + (rowDims N W E wf).batchCoord (ix2 e k) 1
      + (rowDims N W E wf).offCoord (ix2 e k) 1 = _
    rw [GatherDims.batchCoord_eq_zero _ _ _ List.not_mem_nil]
    unfold GatherDims.start
    have h10 : ¬ (1 : Fin 2) = 0 := by decide
    rw [dif_neg (show (1 : Fin 2) ∉ (rowDims N W E wf).startIndexMap from fun h => h10 (List.mem_singleton.mp h))]
    have hk : (1 : Fin 2) ∈ (rowDims N W E wf).sKept :=
      (GatherDims.mem_sKept _ _).mpr ⟨fun h => h10 (List.mem_singleton.mp h), List.not_mem_nil⟩
    unfold GatherDims.offCoord
    rw [dif_pos hk]
    simp only [Nat.zero_add, Nat.add_zero]
    rfl

end Cert.LibTakeRows

end
-- ==== Proof.HostAgg.lean ====
/-
  The aggregation step of the factored arrangement, as the host computes it: rows of `s` taken at the normalised source
  words, scattered with addition into a zero matrix at the target words, and `s` itself added (the self loops). Read
  index by index it is `aggM`: every node's row plus the rows of the sources of the edges landing at it.
  Likewise a reshaped bias vector is `brow`.
-/
import proofs.«409407_j84181359001627_4_alg».proof.Proof.Spec
import proofs.«409407_j84181359001627_4_alg».proof.Proof.LibScatter
import proofs.«409407_j84181359001627_4_alg».proof.Proof.LibTakeRows
import Idealize.ShloMosaic.Lib.Pipeline.Value
import Idealize.ShloMosaic.Lib.ValueIdx
import Idealize.ShloMosaic.PureOps.Ideal.Laws

noncomputable section

open scoped BigOperators

namespace Cert.Gcn

open Idealize.ShloMosaic Idealize.ShloMosaic.ValueIdx

/-- Take the rows at the normalised source words, scatter-add them at the target words into zeros, add `s`. -/
theorem agg_eq {K : ℕ}
    (wfS : ScatterDims.WF ⟨2, ![100000, K]⟩ ⟨2, ![3200000, 1]⟩ ⟨2, ![3200000, K]⟩ [1] [0] [0] 1)
    (wfG : GatherDims.WF ⟨2, ![100000, K]⟩ ⟨2, ![3200000, 1]⟩ ⟨2, ![3200000, K]⟩ [1] [0] [] [0] [] 1 ![1, K])
    (ei : Edges) (s zer : Mat 100000 K) (hz : ∀ i, zer i = 0)
    (idxS idxG : IVec ⟨2, ![3200000, 1]⟩ 32)
    (hS : ∀ e : Fin 3200000, idxS (ix2 e (0 : Fin 1)) = dst ei e)
    (hG : ∀ e : Fin 3200000, idxG (ix2 e (0 : Fin 1)) = wrapIdx (src ei e)) :
    addf (Host.scatterAdd (Cert.LibScatter.rowDims 100000 3200000 K wfS) zer idxS
        (Host.gather (Cert.LibTakeRows.rowDims 100000 K 3200000 wfG) s idxG)) s = aggM ei s := by
  funext i
  obtain ⟨n, k, rfl⟩ : ∃ (n : Fin 100000) (k : Fin K), i = ix2 n k := ⟨i 0, i 1, eq_ix2 i⟩
  have hrow : ∀ e : Fin 3200000,
      (⟨min (idxG (ix2 e (0 : Fin 1))).toInt.toNat (100000 - 1), by omega⟩ : Fin 100000) = rowOf (src ei e) :=
    fun e => Fin.ext (by
      show min (idxG (ix2 e (0 : Fin 1))).toInt.toNat (100000 - 1) = min (wrapIdx (src ei e)).toInt.toNat (100000 - 1)
      rw [hG e])
  show Host.scatterAdd (Cert.LibScatter.rowDims 100000 3200000 K wfS) zer idxS
      (Host.gather (Cert.LibTakeRows.rowDims 100000 K 3200000 wfG) s idxG) (ix2 n k) + s (ix2 n k)
    = (∑ e : Fin 3200000, if lands (dst ei e) n then s (ix2 (rowOf (src ei e)) k) else 0) + s (ix2 n k)
  rw [Cert.LibScatter.rowDims_scatterAdd_apply, hz, zero_add]
  refine congrArg (· + s (ix2 n k)) (Finset.sum_congr rfl fun e _ => ?_)
  rw [hS e]
  refine if_congr Iff.rfl ?_ rfl
  exact (Cert.LibTakeRows.gather_rows_apply (by decide) wfG s idxG e k).trans (congrArg (fun r => s (ix2 r k)) (hrow e))

end Cert.Gcn

end
-- ==== Proof.LibGraphOps.lean ====
/-
  Three host operations of graph code read at an index, for any extents.

  * A histogram of float updates (operand [N], indices [K,1], updates [K], an adding body), at exact arithmetic: the
    operand's element plus the sum of the updates whose index, read signed, names it.
  * A take `a[idx]` of a vector [N] by a column of indices [K,1] (a `stablehlo.gather` collapsing the one axis): entry
    `e` is the operand at the index `idx[e,0]`, read signed and clamped into [0, N − 1].
  * Two vectors joined end to end, read at a position: the first below its length, the second after it.
-/
import proofs.«409407_j84181359001627_4_alg».proof.Proof.LibScatter
import Idealize.ShloMosaic.Lib.Pipeline.Value
import Idealize.ShloMosaic.Lib.ValueIdx
import Idealize.ShloMosaic.Lib.ValueIdxRank1

noncomputable section

open scoped BigOperators

namespace Cert.LibGraphOps

open Idealize.ShloMosaic Idealize.ShloMosaic.ValueIdx Cert.LibScatter

/-- THE FLOAT HISTOGRAM AT v, exact arithmetic: the operand's element plus the sum, over the updates whose index
    reads v, of the update. -/
theorem histDims_scatterAdd_apply {N K w : Nat} {φ : FTy}
    (wf : ScatterDims.WF ⟨1, ![N]⟩ ⟨2, ![K, 1]⟩ ⟨1, ![K]⟩ [] [0] [0] 1)
    (x : FVec Ideal ⟨1, ![N]⟩ φ) (idx : IVec ⟨2, ![K, 1]⟩ w) (upd : FVec Ideal ⟨1, ![K]⟩ φ) (v : Fin N) :
    Host.scatterAdd (histDims N K wf) x idx upd (ix1 v)
      = x (ix1 v) + ∑ e : Fin K, if (idx (ix2 e (0 : Fin 1))).toInt = (v.val : ℤ) then upd (ix1 e) else 0 := by
  show x (ix1 v) + ∑ j ∈ Finset.univ.filter (fun j => (histDims N K wf).resultIdx? j idx = some (ix1 v)), upd j = _
  congr 1
  rw [Finset.sum_filter, ← Equiv.sum_comp (idxEquiv1 (n := K)).symm]
  refine Finset.sum_congr rfl fun e _ => ?_
  show (if (histDims N K wf).resultIdx? (ix1 e) idx = some (ix1 v) then upd (ix1 e) else 0) = _
  simp only [histDims_resultIdx?_eq_some_iff]

variable {α : Type}

/-- The dimension numbers of a take of a vector `[N]` by a column of indices `[K, 1]`. -/
abbrev take1Dims (N K : Nat) (wf : GatherDims.WF ⟨1, ![N]⟩ ⟨2, ![K, 1]⟩ ⟨1, ![K]⟩ [] [0] [] [0] [] 1 ![1]) :
    GatherDims ⟨1, ![N]⟩ ⟨2, ![K, 1]⟩ ⟨1, ![K]⟩ where
  offsetDims := []
  collapsedSliceDims := [0]
  operandBatchingDims := []
  startIndicesBatchingDims := []
  startIndexMap := [0]
  indexVectorDim := 1
  sliceSizes := ![1]
  wf := wf

/-- THE TAKE READ AT `e`: the operand at the index `idx[e, 0]`, read signed and clamped into `[0, N − 1]`. -/
theorem gather_take1_apply {N K w : Nat} (hN : 0 < N)
    (wf : GatherDims.WF ⟨1, ![N]⟩ ⟨2, ![K, 1]⟩ ⟨1, ![K]⟩ [] [0] [] [0] [] 1 ![1])
    (x : (⟨1, ![N]⟩ : Shape).Idx → α) (idx : IVec ⟨2, ![K, 1]⟩ w) (e : Fin K) :
    Host.gather (take1Dims N K wf) x idx (ix1 e)
      = x (ix1 (⟨min (idx (ix2 e (0 : Fin 1))).toInt.toNat (N - 1), by omega⟩ : Fin N)) := by
  unfold Host.gather
  congr 1
  funext a
  obtain rfl : a = 0 := Subsingleton.elim _ _
  refine Fin.ext ?_
  show (take1Dims N K wf).start (ix1 e) idx 0 + (take1Dims N K wf).batchCoord (ix1 e) 0
    + (take1Dims N K wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (take1Dims N K wf).startIndexMap from List.mem_singleton.mpr rfl)]
  have hsi : (take1Dims N K wf).siIdx (ix1 e) ⟨List.idxOf (0 : Fin 1) (take1Dims N K wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- TWO VECTORS JOINED END TO END, read at position `e`: the first vector below its length `a`, the second, at the
    position less `a`, from there on. -/
theorem concatenate_pair1_apply {a b c : Nat} (hc : a + b = c)
    (x₁ : (⟨1, ![a]⟩ : Shape).Idx → α) (x₂ : (⟨1, ![b]⟩ : Shape).Idx → α)
    (h : Shape.Concatenates [(⟨1, ![a]⟩ : Shape), (⟨1, ![b]⟩ : Shape)] (⟨1, ![c]⟩ : Shape) (0 : Fin 1)) (e : Fin c) :
    concatenate (⟨1, ![c]⟩ : Shape) (0 : Fin 1) [⟨(⟨1, ![a]⟩ : Shape), x₁⟩, ⟨(⟨1, ![b]⟩ : Shape), x₂⟩] h (ix1 e)
      = if hlt : e.val < a then x₁ (ix1 ⟨e.val, hlt⟩) else x₂ (ix1 ⟨e.val - a, by have := e.isLt; omega⟩) := by
  by_cases hlt : e.val < a
  · rw [dif_pos hlt]
    exact concatenate_pair_apply_left (0 : Fin 1) x₁ x₂ h (ix1 e) rfl (ix1 ⟨e.val, hlt⟩) (fun b => by
      match b with
      | ⟨0, _⟩ => rfl)
  · rw [dif_neg hlt]
    exact concatenate_pair_apply_right (0 : Fin 1) x₁ x₂ h (ix1 e) rfl rfl (ix1 ⟨e.val - a, by have := e.isLt; omega⟩)
      (fun b hb => by
        match b with
        | ⟨0, _⟩ => exact absurd rfl hb)
      (by show (e.val - a) + a = e.val; omega)

end Cert.LibGraphOps

end
-- ==== Proof.LibKeepdims.lean ====
/-
  Row-wise reductions with a kept unit axis, read at an index: the column forms a `jnp.mean(x, axis=-1, keepdims=True)`
  inside a kernel body goes through, which the value library's list of layout lemmas does not carry — a vector `[a]`
  cast to a column `[a, 1]`, a column `[a, 1]` broadcast along rows to `[a, b]`, a lane sum of `[a, b]` over its second
  axis read as the sum over that axis's coordinate — and a matrix product `[n, K] × [K, m]` into a zero accumulator
  read as the sum over the contracted coordinate, for any dimension record whose operand indices are the plain ones.
  All statements are over indices built from coordinates of literal `Fin` types (`ix1`, `ix2`).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Idealize.ShloMosaic.Keepdims

open Idealize.ShloMosaic Idealize.ShloMosaic.ValueIdx

variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of `[a, b]` over its second axis, at the ideal values, read at row `p`: the sum over the row. -/
theorem multiReduction_add_rows {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax
  match ax with
  | ⟨0, _⟩ => rfl
  | ⟨1, _⟩ => rfl

/-- A matrix product `[n, K] × [K, m]` into the zero accumulator, at the ideal values, read at `(p, h)`: the sum over the
    contracted coordinate — for any dimension record contracting the left operand's second axis with the right
    operand's first (the four coordinate facts `hl0 … hr1` are `fun _ _ => rfl` at a literal record). -/
theorem matmul_zero_apply {n K m : ℕ} {φ₁ φ₂ : FTy}
    (d : DotDims (⟨2, ![n, K]⟩ : Shape) (⟨2, ![K, m]⟩ : Shape) (⟨2, ![n, m]⟩ : Shape))
    (hr : d.contr.rank = 1) (hs : d.contr.size ⟨0, by omega⟩ = K)
    (hl0 : ∀ (j : (⟨2, ![n, m]⟩ : Shape).Idx) (k : d.contr.Idx), (d.lhsIdx j k 0).val = (j 0).val)
    (hl1 : ∀ (j : (⟨2, ![n, m]⟩ : Shape).Idx) (k : d.contr.Idx), (d.lhsIdx j k 1).val = (k ⟨0, by omega⟩).val)
    (hr0 : ∀ (j : (⟨2, ![n, m]⟩ : Shape).Idx) (k : d.contr.Idx), (d.rhsIdx j k 0).val = (k ⟨0, by omega⟩).val)
    (hr1 : ∀ (j : (⟨2, ![n, m]⟩ : Shape).Idx) (k : d.contr.Idx), (d.rhsIdx j k 1).val = (j 1).val)
    (prec : Option ContractPrecision) (lhs : FVec Ideal (⟨2, ![n, K]⟩ : Shape) φ₁) (rhs : FVec Ideal (⟨2, ![K, m]⟩ : Shape) φ₂)
    (p : Fin n) (h : Fin m) :
    FloatOps.matmul d prec lhs rhs (constant (⟨2, ![n, m]⟩ : Shape) .f32 0x00000000#32) (ix2 p h)
      = ∑ k : Fin K, lhs (ix2 p k) * rhs (ix2 k h) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p h) ((contrEquiv1 d K hr hs).symm k) = ix2 p k := funext fun ax => Fin.ext (by
    match ax with
    | ⟨0, _⟩ => exact hl0 _ _
    | ⟨1, _⟩ => exact (hl1 _ _).trans hk)
  have er : d.rhsIdx (ix2 p h) ((contrEquiv1 d K hr hs).symm k) = ix2 k h := funext fun ax => Fin.ext (by
    match ax with
    | ⟨0, _⟩ => exact (hr0 _ _).trans hk
    | ⟨1, _⟩ => exact hr1 _ _)
  rw [el, er]

end Idealize.ShloMosaic.Keepdims

end
-- ==== Proof.KTermsIdeal.lean ====
/-
  The host-side terms of the factored network (`KTerms`), read index by index at exact arithmetic: they are the
  stages of `Spec`'s six-stage chain. The normalising column is `dcol` of the edge list; the aggregation terms are
  `aggM`; a reshaped bias vector is `brow`.
-/
import proofs.«409407_j84181359001627_4_alg».proof.Proof.KTerms
import proofs.«409407_j84181359001627_4_alg».proof.Proof.Spec
import proofs.«409407_j84181359001627_4_alg».proof.Proof.HostAgg
import proofs.«409407_j84181359001627_4_alg».proof.Proof.LibScatter
import proofs.«409407_j84181359001627_4_alg».proof.Proof.LibTakeRows
import proofs.«409407_j84181359001627_4_alg».proof.Proof.LibGraphOps
import proofs.«409407_j84181359001627_4_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Terms

open Idealize.ShloMosaic Idealize.ShloMosaic.ValueIdx Cert.KernelIdeal Cert.KernelIdeal.Gen Cert.Gcn

/-! ## The layout operations, read at an index -/

/-- The sources of the edges are row 0 of the edge list. -/
theorem srcT_apply (e1 : (⟨S2x3200000, .i32⟩ : BufTy).Contents (Elt Ideal)) (e : Fin 3200000) :
    srcT (F := Ideal) e1 (ix1 e) = src e1 e := by
  unfold srcT
  refine (shapeCast_apply _ shapeCasts_S1x3200000_S3200000 (ix1 e) (ix2 (0 : Fin 1) e) ?_).trans ?_
  · rw [Shape.rowMajor_val_two, Shape.rowMajor_val_one]
    show 0 * 3200000 + e.val = e.val
    omega
  · exact extractStridedSlice_apply ![0, 0] e1 slices_S2x3200000_S1x3200000_0_0 (ix2 (0 : Fin 1) e) (ix2 (0 : Fin 2) e)
      (fun a => match a with
        | ⟨0, _⟩ => by show (0 : ℕ) = 0 + 0; rfl
        | ⟨1, _⟩ => by show e.val = 0 + e.val; omega)

/-- The targets of the edges are row 1 of the edge list. -/
theorem dstT_apply (e1 : (⟨S2x3200000, .i32⟩ : BufTy).Contents (Elt Ideal)) (e : Fin 3200000) :
    dstT (F := Ideal) e1 (ix1 e) = dst e1 e := by
  unfold dstT
  refine (shapeCast_apply _ shapeCasts_S1x3200000_S3200000 (ix1 e) (ix2 (0 : Fin 1) e) ?_).trans ?_
  · rw [Shape.rowMajor_val_two, Shape.rowMajor_val_one]
    show 0 * 3200000 + e.val = e.val
    omega
  · exact extractStridedSlice_apply ![1, 0] e1 slices_S2x3200000_S1x3200000_1_0 (ix2 (0 : Fin 1) e) (ix2 (1 : Fin 2) e)
      (fun a => match a with
        | ⟨0, _⟩ => by show (1 : ℕ) = 1 + 0; rfl
        | ⟨1, _⟩ => by show e.val = 0 + e.val; omega)

/-- A word vector over the edges made a column reads, at `(e, 0)`, the vector at `e`. -/
theorem colE_apply (v : (⟨S3200000, .i32⟩ : BufTy).Contents (Elt Ideal)) (e : Fin 3200000) :
    broadcastInDim S3200000x1 ![0] bcast_S3200000_S3200000x1_0 v (ix2 e (0 : Fin 1)) = v (ix1 e) :=
  broadcastInDim_apply _ bcast_S3200000_S3200000x1_0 v (ix2 e (0 : Fin 1)) (ix1 e) (fun a => match a with
    | ⟨0, _⟩ => by
      show e.val = if (3200000 : Nat) = 1 then 0 else e.val
      rw [if_neg (by decide)])

/-- The normalised source words, at an edge. -/
theorem wrapT_apply (sv : (⟨S3200000, .i32⟩ : BufTy).Contents (Elt Ideal)) (i : S3200000.Idx) :
    wrapT (F := Ideal) sv i = wrapIdx (sv i) := rfl

/-- A vector `[a]` cast to a row `[1, a]` reads, at `(u, q)`, the vector at `q`. -/
theorem shapeCast_a_1a_apply {α : Type} {a : ℕ} (x : (⟨1, ![a]⟩ : Shape).Idx → α)
    (h : (⟨1, ![a]⟩ : Shape).ShapeCasts ⟨2, ![1, a]⟩) (u : Fin 1) (q : Fin a) :
    shapeCast ⟨2, ![1, a]⟩ x h (ix2 u q) = x (ix1 q) :=
  shapeCast_apply x h _ _ (by
    have hu : u.val = 0 := by omega
    rw [Shape.rowMajor_val_two, Shape.rowMajor_val_one]
    show q.val = u.val * a + q.val
    rw [hu, Nat.zero_mul, Nat.zero_add])

/-- A scalar constant spread over a shape reads, at every index, the constant's number. -/
theorem bcastConst_apply {t : Shape} (dims : Fin S_.rank → Fin t.rank) (h : S_.BroadcastsInDim t dims) (w : BitVec 32)
    (j : t.Idx) : broadcastInDim t dims h (constant (F := Ideal) S_ .f32 w) j = Ideal.ofBits .f32 w := rfl

/-- A sum of two arrays, at an index. -/
theorem addf_apply {s : Shape} (x y : FVec Ideal s .f32) (i : s.Idx) : addf x y i = x i + y i := rfl

/-- A choice between two arrays, at an index. -/
theorem select_apply {s : Shape} {α : Type} (c : IVec s 1) (a b : s.Idx → α) (i : s.Idx) :
    select c a b i = Scalar.select (c i) (a i) (b i) := rfl
/-- A comparison of two arrays, at an index. -/
theorem cmpf_apply {s : Shape} (p : CmpFPredicate) (x y : FVec Ideal s .f32) (i : s.Idx) :
    cmpf p x y i = Ideal.cmp p (x i) (y i) := rfl
/-- The inverse square root of an array, at an index. -/
theorem hostRsqrt_apply {s : Shape} (x : FVec Ideal s .f32) (i : s.Idx) : Host.rsqrt x i = Ideal.rsqrt (x i) := rfl

/-! ## The degrees and the normalising column -/

/-- A histogram of one constant over the targets, into zeros: the sum of the constant over the edges landing. -/
theorem hist_apply (wf : ScatterDims.WF ⟨1, ![100000]⟩ ⟨2, ![3200000, 1]⟩ ⟨1, ![3200000]⟩ [] [0] [0] 1)
    (zer : FVec Ideal ⟨1, ![100000]⟩ .f32) (idx : IVec ⟨2, ![3200000, 1]⟩ 32) (upd : FVec Ideal ⟨1, ![3200000]⟩ .f32)
    (c : EReal) (e1 : Edges) (hz : ∀ i, zer i = 0) (hi : ∀ e : Fin 3200000, idx (ix2 e (0 : Fin 1)) = dst e1 e)
    (hu : ∀ i, upd i = c) (n : Fin 100000) :
    Host.scatterAdd (Cert.LibScatter.histDims 100000 3200000 wf) zer idx upd (ix1 n)
      = ∑ e : Fin 3200000, if lands (dst e1 e) n then c else 0 := by
  rw [Cert.LibGraphOps.histDims_scatterAdd_apply, hz, zero_add]
  refine Finset.sum_congr rfl fun e _ => ?_
  rw [hi e, hu]

/-- The degree term at a node is the degree of the factored arrangement. -/
theorem degT_apply (e1 : (⟨S2x3200000, .i32⟩ : BufTy).Contents (Elt Ideal)) (n : Fin 100000) :
    degT (F := Ideal) e1 (ix1 n) = degK e1 n := by
  have hz : ∀ i, broadcastInDim S100000 ![] bcast_S_S100000 (constant (F := Ideal) S_ .f32 0x00000000#32) i = 0 :=
    fun i => (bcastConst_apply _ _ _ i).trans Ideal.ofBits_zero_f32
  have hi : ∀ e : Fin 3200000,
      broadcastInDim S3200000x1 ![0] bcast_S3200000_S3200000x1_0 (dstT (F := Ideal) e1) (ix2 e (0 : Fin 1)) = dst e1 e :=
    fun e => (colE_apply _ e).trans (dstT_apply e1 e)
  have hu : ∀ i, broadcastInDim S3200000 ![] bcast_S_S3200000 (constant (F := Ideal) S_ .f32 0x3F800000#32) i = f1 :=
    fun i => bcastConst_apply _ _ _ i
  have wf : ScatterDims.WF ⟨1, ![100000]⟩ ⟨2, ![3200000, 1]⟩ ⟨1, ![3200000]⟩ [] [0] [0] 1 :=
    scatter_S100000_S3200000x1_S3200000_n_0_0_1.wf
  have hrec : scatter_S100000_S3200000x1_S3200000_n_0_0_1 = Cert.LibScatter.histDims 100000 3200000 wf := rfl
  unfold degT degK
  rw [addf_apply, bcastConst_apply, hrec, hist_apply wf _ _ _ f1 e1 hz hi hu]

theorem dcolT_eq (e1 : (⟨S2x3200000, .i32⟩ : BufTy).Contents (Elt Ideal)) : dcolT (F := Ideal) e1 = dcol e1 := by
  funext i
  obtain ⟨n, u, rfl⟩ : ∃ (n : Fin 100000) (u : Fin 1), i = ix2 n u := ⟨i 0, i 1, eq_ix2 i⟩
  unfold dcolT
  refine (Keepdims.shapeCast_a_a1_apply _ shapeCasts_S100000_S100000x1 n u).trans ?_
  rw [select_apply, cmpf_apply, hostRsqrt_apply, degT_apply, bcastConst_apply, Ideal.ofBits_zero_f32]
  rfl

/-! ## The aggregation terms -/

theorem aggT16_eq (e1 : (⟨S2x3200000, .i32⟩ : BufTy).Contents (Elt Ideal)) (s : (⟨S100000x16, .f32⟩ : BufTy).Contents (Elt Ideal)) :
    aggT16 (F := Ideal) s (srcT (F := Ideal) e1) (dstT (F := Ideal) e1) = aggM e1 s := by
  have wfS : ScatterDims.WF ⟨2, ![100000, 16]⟩ ⟨2, ![3200000, 1]⟩ ⟨2, ![3200000, 16]⟩ [1] [0] [0] 1 :=
    scatter_S100000x16_S3200000x1_S3200000x16_1_0_0_1.wf
  have wfG : GatherDims.WF ⟨2, ![100000, 16]⟩ ⟨2, ![3200000, 1]⟩ ⟨2, ![3200000, 16]⟩ [1] [0] [] [0] [] 1 ![1, 16] :=
    gather_S100000x16_S3200000x1_S3200000x16_1_0_n_n_0_1_116.wf
  have hrS : scatter_S100000x16_S3200000x1_S3200000x16_1_0_0_1 = Cert.LibScatter.rowDims 100000 3200000 16 wfS := rfl
  have hrG : gather_S100000x16_S3200000x1_S3200000x16_1_0_n_n_0_1_116 = Cert.LibTakeRows.rowDims 100000 16 3200000 wfG := rfl
  have hz : ∀ i, broadcastInDim S100000x16 ![] bcast_S_S100000x16 (constant (F := Ideal) S_ .f32 0x00000000#32) i = 0 :=
    fun i => (bcastConst_apply _ _ _ i).trans Ideal.ofBits_zero_f32
  have hS : ∀ e : Fin 3200000,
      broadcastInDim S3200000x1 ![0] bcast_S3200000_S3200000x1_0 (dstT (F := Ideal) e1) (ix2 e (0 : Fin 1)) = dst e1 e :=
    fun e => (colE_apply _ e).trans (dstT_apply e1 e)
  have hG : ∀ e : Fin 3200000,
      broadcastInDim S3200000x1 ![0] bcast_S3200000_S3200000x1_0 (wrapT (F := Ideal) (srcT (F := Ideal) e1)) (ix2 e (0 : Fin 1))
        = wrapIdx (src e1 e) :=
    fun e => (colE_apply (wrapT (F := Ideal) (srcT (F := Ideal) e1)) e).trans
      ((wrapT_apply (srcT (F := Ideal) e1) (ix1 e)).trans (congrArg wrapIdx (srcT_apply e1 e)))
  unfold aggT16
  rw [hrS, hrG]
  exact agg_eq wfS wfG e1 s _ hz _ _ hS hG

theorem aggT40_eq (e1 : (⟨S2x3200000, .i32⟩ : BufTy).Contents (Elt Ideal)) (s : (⟨S100000x40, .f32⟩ : BufTy).Contents (Elt Ideal)) :
    aggT40 (F := Ideal) s (srcT (F := Ideal) e1) (dstT (F := Ideal) e1) = aggM e1 s := by
  have wfS : ScatterDims.WF ⟨2, ![100000, 40]⟩ ⟨2, ![3200000, 1]⟩ ⟨2, ![3200000, 40]⟩ [1] [0] [0] 1 :=
    scatter_S100000x40_S3200000x1_S3200000x40_1_0_0_1.wf
  have wfG : GatherDims.WF ⟨2, ![100000, 40]⟩ ⟨2, ![3200000, 1]⟩ ⟨2, ![3200000, 40]⟩ [1] [0] [] [0] [] 1 ![1, 40] :=
    gather_S100000x40_S3200000x1_S3200000x40_1_0_n_n_0_1_140.wf
  have hrS : scatter_S100000x40_S3200000x1_S3200000x40_1_0_0_1 = Cert.LibScatter.rowDims 100000 3200000 40 wfS := rfl
  have hrG : gather_S100000x40_S3200000x1_S3200000x40_1_0_n_n_0_1_140 = Cert.LibTakeRows.rowDims 100000 40 3200000 wfG := rfl
  have hz : ∀ i, broadcastInDim S100000x40 ![] bcast_S_S100000x40 (constant (F := Ideal) S_ .f32 0x00000000#32) i = 0 :=
    fun i => (bcastConst_apply _ _ _ i).trans Ideal.ofBits_zero_f32
  have hS : ∀ e : Fin 3200000,
      broadcastInDim S3200000x1 ![0] bcast_S3200000_S3200000x1_0 (dstT (F := Ideal) e1) (ix2 e (0 : Fin 1)) = dst e1 e :=
    fun e => (colE_apply _ e).trans (dstT_apply e1 e)
  have hG : ∀ e : Fin 3200000,
      broadcastInDim S3200000x1 ![0] bcast_S3200000_S3200000x1_0 (wrapT (F := Ideal) (srcT (F := Ideal) e1)) (ix2 e (0 : Fin 1))
        = wrapIdx (src e1 e) :=
    fun e => (colE_apply (wrapT (F := Ideal) (srcT (F := Ideal) e1)) e).trans
      ((wrapT_apply (srcT (F := Ideal) e1) (ix1 e)).trans (congrArg wrapIdx (srcT_apply e1 e)))
  unfold aggT40
  rw [hrS, hrG]
  exact agg_eq wfS wfG e1 s _ hz _ _ hS hG

/-! ## The bias rows -/

theorem browT16_eq (b : (⟨S16, .f32⟩ : BufTy).Contents (Elt Ideal)) : browT16 (F := Ideal) b = brow b := by
  funext i
  obtain ⟨u, q, rfl⟩ : ∃ (u : Fin 1) (q : Fin 16), i = ix2 u q := ⟨i 0, i 1, eq_ix2 i⟩
  exact shapeCast_a_1a_apply b shapeCasts_S16_S1x16 u q

theorem browT40_eq (b : (⟨S40, .f32⟩ : BufTy).Contents (Elt Ideal)) : browT40 (F := Ideal) b = brow b := by
  funext i
  obtain ⟨u, q, rfl⟩ : ∃ (u : Fin 1) (q : Fin 40), i = ix2 u q := ⟨i 0, i 1, eq_ix2 i⟩
  exact shapeCast_a_1a_apply b shapeCasts_S40_S1x40 u q

end Cert.KernelIdeal.Terms

end
-- ==== Proof.KReg0.lean ====
/-
  Rows of a matrix product scaled by a column, block by block.

  The product x·W of a 100000×128 matrix with a 128×16 matrix is computed 2000 rows at a time: step t reads rows
  2000t … 2000t+1999 of x, all of W, and the same rows of the column d, and writes the same rows of the result,
      out[r, h] = d[r, 0] · Σ_k x[r, k] · W[k, h].
  Proved here: what one step leaves at an entry of its block (`body_apply`), that this is the block of the one
  whole-array function `Cert.Gcn.scaleMM` (`flushed_eq`), that the 50 blocks cover every row — row r lies in the block of
  step r / 2000 — (`cover`), and so the whole result (`final`).
-/
import proofs.«409407_j84181359001627_4_alg».proof.Proof.Gen.KernelIdeal.Frame
import proofs.«409407_j84181359001627_4_alg».proof.Proof.Spec
import proofs.«409407_j84181359001627_4_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open scoped BigOperators

/-- The zero offsets of a whole-block access, however spelt. -/
theorem hz : (![0, 0] : Fin 2 → Nat) = fun _ => 0 := funext fun a => by fin_cases a <;> rfl

/-! ## The product's operand indices, axis by axis

The product contracts the left operand's second axis with the right operand's first: at result entry `(r, h)` and
contraction position `k` it reads the left operand at `(r, k)` and the right at `(k, h)`. -/

theorem lhs_row (i : S2000x16.Idx) (q : dot_S2000x128_S128x16_S2000x16_1_0_0_1_n_n.contr.Idx) :
    (dot_S2000x128_S128x16_S2000x16_1_0_0_1_n_n.lhsIdx i q 0).val = (i 0).val := by
  unfold DotDims.lhsIdx
  rw [dif_neg (show ¬(0 : Fin S2000x128.rank) ∈ dot_S2000x128_S128x16_S2000x16_1_0_0_1_n_n.lhsBatch by decide), dif_pos (show (0 : Fin S2000x128.rank) ∈ dot_S2000x128_S128x16_S2000x16_1_0_0_1_n_n.lhsNonContracting by decide)]
  rfl
theorem lhs_col (i : S2000x16.Idx) (q : dot_S2000x128_S128x16_S2000x16_1_0_0_1_n_n.contr.Idx) :
    (dot_S2000x128_S128x16_S2000x16_1_0_0_1_n_n.lhsIdx i q 1).val = (q ⟨0, by decide⟩).val :=
  dot_S2000x128_S128x16_S2000x16_1_0_0_1_n_n.lhsIdx_val_of_single rfl i q
theorem rhs_row (i : S2000x16.Idx) (q : dot_S2000x128_S128x16_S2000x16_1_0_0_1_n_n.contr.Idx) :
    (dot_S2000x128_S128x16_S2000x16_1_0_0_1_n_n.rhsIdx i q 0).val = (q ⟨0, by decide⟩).val :=
  dot_S2000x128_S128x16_S2000x16_1_0_0_1_n_n.rhsIdx_val_of_single rfl i q
theorem rhs_col (i : S2000x16.Idx) (q : dot_S2000x128_S128x16_S2000x16_1_0_0_1_n_n.contr.Idx) :
    (dot_S2000x128_S128x16_S2000x16_1_0_0_1_n_n.rhsIdx i q 1).val = (i 1).val := by
  unfold DotDims.rhsIdx
  rw [dif_neg (show ¬(1 : Fin S128x16.rank) ∈ dot_S2000x128_S128x16_S2000x16_1_0_0_1_n_n.rhsBatch by decide), dif_pos (show (1 : Fin S128x16.rank) ∈ dot_S2000x128_S128x16_S2000x16_1_0_0_1_n_n.rhsNonContracting by decide)]
  rfl

/-! ## One step at an entry of its block -/

/-- Entry `(p, q)` of what a step computes from its blocks `x0` (rows of x), `x1` (W) and `x2` (rows of the column):
    the column's entry of the row times the row's product with column `q` of W. The change of number format before the
    product is the identity on the extended reals, and the product starts from the zero accumulator. -/
theorem body_apply (x0 : FVec Ideal S2000x128 .f32) (x1 : FVec Ideal S128x16 .f32) (x2 : FVec Ideal S2000x1 .f32)
    (p : Fin 2000) (q : Fin 16) :
    k0_pay1 (F := Ideal) x0 x1 x2 (ix2 p q) = x2 (ix2 p (0 : Fin 1)) * ∑ k : Fin 128, x0 (ix2 p k) * x1 (ix2 k q) := by
  unfold k0_pay1
  rw [mulf_apply, shapeCast_self, Keepdims.broadcastTo_a1_ab_apply]
  refine congrArg (x2 (ix2 p (0 : Fin 1)) * ·) ?_
  exact Keepdims.matmul_zero_apply dot_S2000x128_S128x16_S2000x16_1_0_0_1_n_n rfl rfl lhs_row lhs_col rhs_row rhs_col none
    (truncf .bf16 x0 bitsLt_bf16_f32) (truncf .bf16 x1 bitsLt_bf16_f32) p q

/-! ## The blocks -/

/-- The scaled product at an entry: the column's entry of the row times the row's product with the column of W. -/
theorem scaleMM_apply (X : Cert.Gcn.Mat 100000 128) (W : Cert.Gcn.Mat 128 16) (D : Cert.Gcn.Mat 100000 1) (r : Fin 100000) (q : Fin 16) :
    Cert.Gcn.scaleMM X W D (ix2 r q) = D (ix2 r (0 : Fin 1)) * ∑ k : Fin 128, X (ix2 r k) * W (ix2 k q) := rfl

variable (V : (c : Dev nD) → (b : Ref sig .tc) → Buf (Elt Ideal) ((c : Thread nD τ).loc b))

/-- Where each step's blocks sit, decided over the 50 steps: step `t` takes block `t` along the rows of x, of the column
    and of the result, and the one block of W. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What step `t` writes back is block `t` of the scaled product of the arrays as the steps find them: entry `(p, q)` of
    the block is entry `(2000 t + p, q)` of the result, and it is computed from row `2000 t + p` of x and of the column
    and from column `q` of W. -/
theorem flushed_eq (c : Dev nD) (t : Fin cfg0.N) :
    (dat0 (F := Ideal) V c).flushed 3 t
      = ((cfg0.win 3).blk t).view.read (Elt Ideal) (Cert.Gcn.scaleMM (V c main_arg0) (V c main_arg2) (V c main_v15)) := by
  show (cfg0.win 3).cut (grid0.coords t) ((dat0 (F := Ideal) V c).after 3 t) = _
  rw [after0_3]
  unfold out0_3
  rw [View.canon_unit_zero hz]
  simp only [View.ld_unit_zero (S := S2000x128) hz, View.ld_unit_zero (S := S128x16) hz, View.ld_unit_zero (S := S2000x1) hz]
  obtain ⟨e00, e01, e10, e11, e20, e21, e30, e31⟩ := idx_facts t
  have hN : cfg0.N = 50 := N_0
  have ht : t.val < 50 := hN ▸ t.isLt
  funext j
  obtain ⟨p, q, rfl⟩ : ∃ (p : Fin 2000) (q : Fin 16), j = ix2 p q := ⟨j 0, j 1, eq_ix2 j⟩
  show k0_pay1 (F := Ideal) (iblk0 V c 0 t) (iblk0 V c 1 t) (iblk0 V c 2 t) (ix2 p q)
    = Cert.Gcn.scaleMM (V c main_arg0) (V c main_arg2) (V c main_v15) (((cfg0.win 3).blk t).view.emb (ix2 p q))
  refine (body_apply _ _ _ p q).trans ?_
  have hp : p.val < 2000 := p.isLt
  have hr : t.val * 2000 + p.val < 100000 := by omega
  have ei : ((cfg0.win 3).blk t).view.emb (ix2 p q) = ix2 (⟨t.val * 2000 + p.val, hr⟩ : Fin 100000) q := funext fun a => Fin.ext (by
    match a with
    | ⟨0, _⟩ => show win0_3.index t (0 : Fin 2) * 2000 + 1 * p.val = t.val * 2000 + p.val; omega
    | ⟨1, _⟩ => show win0_3.index t (1 : Fin 2) * 16 + 1 * q.val = q.val; omega)
  have e0 : ∀ k : Fin 128, iblk0 V c 0 t (ix2 p k) = V c main_arg0 (ix2 (⟨t.val * 2000 + p.val, hr⟩ : Fin 100000) k) := fun k => by
    show V c main_arg0 (((cfg0.win 0).blk t).view.emb (ix2 p k)) = _
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  have e1 : ∀ k : Fin 128, iblk0 V c 1 t (ix2 k q) = V c main_arg2 (ix2 k q) := fun k => by
    show V c main_arg2 (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 16 + 1 * q.val = q.val; omega
  have e2 : iblk0 V c 2 t (ix2 p (0 : Fin 1)) = V c main_v15 (ix2 (⟨t.val * 2000 + p.val, hr⟩ : Fin 100000) (0 : Fin 1)) := by
    show V c main_v15 (((cfg0.win 2).blk t).view.emb (ix2 p (0 : Fin 1))) = _
    refine congrArg _ (funext fun a => Fin.ext ?_)
    match a with
    | ⟨0, _⟩ => show win0_2.index t (0 : Fin 2) * 2000 + 1 * p.val = t.val * 2000 + p.val; omega
    | ⟨1, _⟩ => show win0_2.index t (1 : Fin 2) * 1 + 1 * 0 = 0; omega
  rw [ei, e2]
  refine Eq.trans ?_ (scaleMM_apply (V c main_arg0) (V c main_arg2) (V c main_v15) _ q).symm
  refine congrArg _ (Finset.sum_congr rfl fun k _ => ?_)
  rw [e0 k, e1 k]

/-- An index of the result is in step `t`'s block iff each coordinate is in the block's range on its axis. -/
theorem mem_blk (t : Fin cfg0.N) (i : S100000x16.Idx) :
    i ∈ ((cfg0.win 3).blk t).view.set ↔ ∀ a : Fin 2, win0_3.index t a * S2000x16.size a ≤ (i a).val ∧ (i a).val < win0_3.index t a * S2000x16.size a + S2000x16.size a := by
  show i ∈ ((View.whole main_v16).slice (win0_3.rect t)).set ↔ _
  rw [View.set_slice_whole, Rect.mem_set_unit]
  exact Iff.rfl

/-- Every entry of the result is written back by some step: row `r` by step `r / 2000`. -/
theorem cover (i : S100000x16.Idx) : ∃ t : Fin cfg0.N, (cfg0.win 3).flush t = true ∧ i ∈ ((cfg0.win 3).blk t).view.set := by
  have hi0 : (i 0).val < 100000 := (i 0).isLt
  have hi1 : (i 1).val < 16 := (i 1).isLt
  have hN : cfg0.N = 50 := N_0
  have hq : (i 0).val / 2000 < cfg0.N := by rw [hN]; omega
  obtain ⟨-, -, -, -, -, -, e30, e31⟩ := idx_facts ⟨(i 0).val / 2000, hq⟩
  refine ⟨⟨(i 0).val / 2000, hq⟩, flush0_3 _, ?_⟩
  rw [mem_blk]
  intro a
  match a with
  | ⟨0, _⟩ =>
    show win0_3.index ⟨(i 0).val / 2000, hq⟩ (0 : Fin 2) * 2000 ≤ (i 0).val ∧ (i 0).val < win0_3.index ⟨(i 0).val / 2000, hq⟩ (0 : Fin 2) * 2000 + 2000
    rw [e30]; show (i 0).val / 2000 * 2000 ≤ (i 0).val ∧ (i 0).val < (i 0).val / 2000 * 2000 + 2000; omega
  | ⟨1, _⟩ =>
    show win0_3.index ⟨(i 0).val / 2000, hq⟩ (1 : Fin 2) * 16 ≤ (i 1).val ∧ (i 1).val < win0_3.index ⟨(i 0).val / 2000, hq⟩ (1 : Fin 2) * 16 + 16
    rw [e31]; omega

/-- The result after the 50 steps: the rows of the product scaled by the column. -/
theorem final (c : Dev nD) :
    (dat0 (F := Ideal) V c).arrAt 3 cfg0.N = Cert.Gcn.scaleMM (V c main_arg0) (V c main_arg2) (V c main_v15) :=
  (dat0 (F := Ideal) V c).arrAt_eq_of_cover 3 _ (fun t _ => flushed_eq V c t) cover

end Cert.KernelIdeal.Reg0

end
-- ==== Proof.KReg1.lean ====
/-
  The closing stage of the first convolution: each block of 2000 accumulated rows is scaled row by row by the
  normalising column, the bias row is added, and the positive part is taken; the 50 blocks tile the 100000 rows, so
  the whole array is the specification's `finRelu` of the accumulated rows, the column and the bias row.
-/
import proofs.«409407_j84181359001627_4_alg».proof.Proof.Gen.KernelIdeal.Frame
import proofs.«409407_j84181359001627_4_alg».proof.Proof.Spec
import proofs.«409407_j84181359001627_4_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-- The block's arithmetic at row `p`, column `q`: the column's entry times the accumulated entry, plus the bias
    entry, its positive part. -/
theorem body_apply (d : Vec Ideal S2000x1 .f32) (acc : Vec Ideal S2000x16 .f32) (b : Vec Ideal S1x16 .f32)
    (p : Fin 2000) (q : Fin 16) :
    k1_pay1 (F := Ideal) d acc b (ix2 p q) = max (d (ix2 p (0 : Fin 1)) * acc (ix2 p q) + b (ix2 (0 : Fin 1) q)) 0 := by
  unfold k1_pay1
  simp only [shapeCast_self]
  rw [maximumf_apply, addf_apply, mulf_apply, broadcast_apply, Keepdims.broadcastTo_a1_ab_apply, broadcastTo_1b_ab_apply]
  exact congrArg _ Ideal.ofBits_zero_f32

/-- The same, against the whole arrays: where the block's entries are the arrays' entries at an index `i`, the
    block's result is the specification's at `i`. -/
theorem body_at (d : Vec Ideal S2000x1 .f32) (acc : Vec Ideal S2000x16 .f32) (b : Vec Ideal S1x16 .f32)
    (A : Cert.Gcn.Mat 100000 16) (D : Cert.Gcn.Mat 100000 1) (B : Cert.Gcn.Mat 1 16)
    (j : S2000x16.Idx) (i : S100000x16.Idx)
    (hd : d (ix2 (j 0) (0 : Fin 1)) = D (ix2 (i 0) (0 : Fin 1))) (ha : acc j = A i)
    (hb : b (ix2 (0 : Fin 1) (j 1)) = B (ix2 (0 : Fin 1) (i 1))) :
    k1_pay1 (F := Ideal) d acc b j = Cert.Gcn.finRelu A D B i := by
  obtain ⟨p, q, rfl⟩ : ∃ (p : Fin 2000) (q : Fin 16), j = ix2 p q := ⟨j 0, j 1, eq_ix2 j⟩
  rw [body_apply]
  show _ = max (D (ix2 (i 0) (0 : Fin 1)) * A i + B (ix2 (0 : Fin 1) (i 1))) 0
  rw [← hd, ← ha, ← hb]

/-- The windows' block indices, decided over the grid: the three row-blocked windows move together along the rows,
    the bias row stays. -/
theorem idx_facts : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- What point `t` writes back is block `t` of the specification's array. -/
theorem flushed_eq (c : Dev nD) (t : Fin cfg1.N) :
    (dat1 (F := Ideal) V c).flushed 3 t
      = ((cfg1.win 3).blk t).view.read (Elt Ideal) (Cert.Gcn.finRelu (V c main_v27) (V c main_v15) (V c main_v28)) := by
  show (cfg1.win 3).cut (grid1.coords t) ((dat1 (F := Ideal) V c).after 3 t) = _
  rw [after1_3]
  unfold out1_3
  rw [View.canon_unit_zero zeroOffsets]
  simp only [View.ld_unit_zero (S := S2000x16) zeroOffsets, View.ld_unit_zero (S := S2000x1) zeroOffsets,
    View.ld_unit_zero (S := S1x16) zeroOffsets]
  obtain ⟨e00, e01, e10, e11, e20, e21, e30, e31⟩ := idx_facts t
  funext j
  refine body_at _ _ _ (V c main_v27) (V c main_v15) (V c main_v28) j (((cfg1.win 3).blk t).view.emb j) ?_ ?_ ?_
  · show V c main_v15 (((cfg1.win 1).blk t).view.emb (ix2 (j 0) (0 : Fin 1))) = _
    refine congrArg (V c main_v15) ?_
    funext a; apply Fin.ext
    match a with
    | ⟨0, _⟩ => show win1_1.index t (0 : Fin 2) * 2000 + 1 * (j 0).val = win1_3.index t (0 : Fin 2) * 2000 + 1 * (j 0).val; omega
    | ⟨1, _⟩ => show win1_1.index t (1 : Fin 2) * 1 + 1 * 0 = 0; omega
  · show V c main_v27 (((cfg1.win 0).blk t).view.emb j) = _
    refine congrArg (V c main_v27) ?_
    funext a; apply Fin.ext
    match a with
    | ⟨0, _⟩ => show win1_0.index t (0 : Fin 2) * 2000 + 1 * (j 0).val = win1_3.index t (0 : Fin 2) * 2000 + 1 * (j 0).val; omega
    | ⟨1, _⟩ => show win1_0.index t (1 : Fin 2) * 16 + 1 * (j 1).val = win1_3.index t (1 : Fin 2) * 16 + 1 * (j 1).val; omega
  · show V c main_v28 (((cfg1.win 2).blk t).view.emb (ix2 (0 : Fin 1) (j 1))) = _
    refine congrArg (V c main_v28) ?_
    funext a; apply Fin.ext
    match a with
    | ⟨0, _⟩ => show win1_2.index t (0 : Fin 2) * 1 + 1 * 0 = 0; omega
    | ⟨1, _⟩ => show win1_2.index t (1 : Fin 2) * 16 + 1 * (j 1).val = win1_3.index t (1 : Fin 2) * 16 + 1 * (j 1).val; omega

/-- An index of the array is in point `t`'s block iff each coordinate is in the block's range on its axis. -/
theorem mem_blk (t : Fin cfg1.N) (i : S100000x16.Idx) :
    i ∈ ((cfg1.win 3).blk t).view.set ↔ ∀ a : Fin 2, win1_3.index t a * S2000x16.size a ≤ (i a).val ∧ (i a).val < win1_3.index t a * S2000x16.size a + S2000x16.size a := by
  show i ∈ ((View.whole main_v29).slice (win1_3.rect t)).set ↔ _
  rw [View.set_slice_whole, Rect.mem_set_unit]
  exact Iff.rfl

/-- Every index is in the block of the point its row falls in. -/
theorem cover (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  have hN : cfg1.N = 50 := by decide
  let t : Fin cfg1.N := ⟨(i 0).val / 2000, by rw [hN]; omega⟩
  obtain ⟨e00, e01, e10, e11, e20, e21, e30, e31⟩ := idx_facts t
  have ht : t.val = (i 0).val / 2000 := rfl
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 16 ≤ (i 1).val ∧ (i 1).val < win1_3.index t (1 : Fin 2) * 16 + 16; omega

theorem final (c : Dev nD) :
    (dat1 (F := Ideal) V c).arrAt 3 cfg1.N = Cert.Gcn.finRelu (V c main_v27) (V c main_v15) (V c main_v28) :=
  (dat1 (F := Ideal) V c).arrAt_eq_of_cover 3 (Cert.Gcn.finRelu (V c main_v27) (V c main_v15) (V c main_v28))
    (fun t _ => flushed_eq V c t) cover

end Cert.KernelIdeal.Reg1

end
-- ==== Proof.KReg2.lean ====
/-
  Rows of the second matrix product scaled by a column, block by block.

  The product h·W of a 100000×16 matrix with a 16×40 matrix is computed 2000 rows at a time: step t reads rows
  2000t … 2000t+1999 of h, all of W, and the same rows of the column d, and writes the same rows of the result,
      out[r, c] = d[r, 0] · Σ_k h[r, k] · W[k, c].
  Proved here: what one step leaves at an entry of its block (`body_apply`), that this is the block of the one
  whole-array function `Cert.Gcn.scaleMM` (`flushed_eq`), that the 50 blocks cover every row — row r lies in the block of
  step r / 2000 — (`cover`), and so the whole result (`final`).
-/
import proofs.«409407_j84181359001627_4_alg».proof.Proof.Gen.KernelIdeal.Frame
import proofs.«409407_j84181359001627_4_alg».proof.Proof.Spec
import proofs.«409407_j84181359001627_4_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Idealize.ShloMosaic Idealize.ShloMosaic.TcCoe Idealize.ShloMosaic.ValueIdx
open Idealize.SL.Sem
open Idealize.ShloMosaic.Pipeline (Dat Cfg Window)
open Cert.KernelIdeal Cert.KernelIdeal.Gen
open scoped BigOperators

/-- The zero offsets of a whole-block access, however spelt. -/
theorem hz : (![0, 0] : Fin 2 → Nat) = fun _ => 0 := funext fun a => by fin_cases a <;> rfl

/-! ## The product's operand indices, axis by axis

The product contracts the left operand's second axis with the right operand's first: at result entry `(r, c)` and
contraction position `k` it reads the left operand at `(r, k)` and the right at `(k, c)`. -/

theorem lhs_row (i : S2000x40.Idx) (q : dot_S2000x16_S16x40_S2000x40_1_0_0_1_n_n.contr.Idx) :
    (dot_S2000x16_S16x40_S2000x40_1_0_0_1_n_n.lhsIdx i q 0).val = (i 0).val := by
  unfold DotDims.lhsIdx
  rw [dif_neg (show ¬(0 : Fin S2000x16.rank) ∈ dot_S2000x16_S16x40_S2000x40_1_0_0_1_n_n.lhsBatch by decide), dif_pos (show (0 : Fin S2000x16.rank) ∈ dot_S2000x16_S16x40_S2000x40_1_0_0_1_n_n.lhsNonContracting by decide)]
  rfl
theorem lhs_col (i : S2000x40.Idx) (q : dot_S2000x16_S16x40_S2000x40_1_0_0_1_n_n.contr.Idx) :
    (dot_S2000x16_S16x40_S2000x40_1_0_0_1_n_n.lhsIdx i q 1).val = (q ⟨0, by decide⟩).val :=
  dot_S2000x16_S16x40_S2000x40_1_0_0_1_n_n.lhsIdx_val_of_single rfl i q
theorem rhs_row (i : S2000x40.Idx) (q : dot_S2000x16_S16x40_S2000x40_1_0_0_1_n_n.contr.Idx) :
    (dot_S2000x16_S16x40_S2000x40_1_0_0_1_n_n.rhsIdx i q 0).val = (q ⟨0, by decide⟩).val :=
  dot_S2000x16_S16x40_S2000x40_1_0_0_1_n_n.rhsIdx_val_of_single rfl i q
theorem rhs_col (i : S2000x40.Idx) (q : dot_S2000x16_S16x40_S2000x40_1_0_0_1_n_n.contr.Idx) :
    (dot_S2000x16_S16x40_S2000x40_1_0_0_1_n_n.rhsIdx i q 1).val = (i 1).val := by
  unfold DotDims.rhsIdx
  rw [dif_neg (show ¬(1 : Fin S16x40.rank) ∈ dot_S2000x16_S16x40_S2000x40_1_0_0_1_n_n.rhsBatch by decide), dif_pos (show (1 : Fin S16x40.rank) ∈ dot_S2000x16_S16x40_S2000x40_1_0_0_1_n_n.rhsNonContracting by decide)]
  rfl

/-! ## One step at an entry of its block -/

/-- Entry `(p, q)` of what a step computes from its blocks `x0` (rows of h), `x1` (W) and `x2` (rows of the column):
    the column's entry of the row times the row's product with column `q` of W. The change of number format before the
    product is the identity on the extended reals, and the product starts from the zero accumulator. -/
theorem body_apply (x0 : FVec Ideal S2000x16 .f32) (x1 : FVec Ideal S16x40 .f32) (x2 : FVec Ideal S2000x1 .f32)
    (p : Fin 2000) (q : Fin 40) :
    k2_pay1 (F := Ideal) x0 x1 x2 (ix2 p q) = x2 (ix2 p (0 : Fin 1)) * ∑ k : Fin 16, x0 (ix2 p k) * x1 (ix2 k q) := by
  unfold k2_pay1
  rw [mulf_apply, shapeCast_self, shapeCast_self, Keepdims.broadcastTo_a1_ab_apply]
  refine congrArg (x2 (ix2 p (0 : Fin 1)) * ·) ?_
  exact Keepdims.matmul_zero_apply dot_S2000x16_S16x40_S2000x40_1_0_0_1_n_n rfl rfl lhs_row lhs_col rhs_row rhs_col none
    (truncf .bf16 x0 bitsLt_bf16_f32) (truncf .bf16 x1 bitsLt_bf16_f32) p q

/-! ## The blocks -/

/-- The scaled product at an entry: the column's entry of the row times the row's product with the column of W. -/
theorem scaleMM_apply (X : Cert.Gcn.Mat 100000 16) (W : Cert.Gcn.Mat 16 40) (D : Cert.Gcn.Mat 100000 1) (r : Fin 100000) (q : Fin 40) :
    Cert.Gcn.scaleMM X W D (ix2 r q) = D (ix2 r (0 : Fin 1)) * ∑ k : Fin 16, X (ix2 r k) * W (ix2 k q) := rfl

variable (V : (c : Dev nD) → (b : Ref sig .tc) → Buf (Elt Ideal) ((c : Thread nD τ).loc b))

/-- Where each step's blocks sit, decided over the 50 steps: step `t` takes block `t` along the rows of h, of the column
    and of the result, and the one block of W. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What step `t` writes back is block `t` of the scaled product of the arrays as the steps find them: entry `(p, q)` of
    the block is entry `(2000 t + p, q)` of the result, and it is computed from row `2000 t + p` of h and of the column
    and from column `q` of W. -/
theorem flushed_eq (c : Dev nD) (t : Fin cfg2.N) :
    (dat2 (F := Ideal) V c).flushed 3 t
      = ((cfg2.win 3).blk t).view.read (Elt Ideal) (Cert.Gcn.scaleMM (V c main_v29) (V c main_arg4) (V c main_v15)) := by
  show (cfg2.win 3).cut (grid2.coords t) ((dat2 (F := Ideal) V c).after 3 t) = _
  rw [after2_3]
  unfold out2_3
  rw [View.canon_unit_zero hz]
  simp only [View.ld_unit_zero (S := S2000x16) hz, View.ld_unit_zero (S := S16x40) hz, View.ld_unit_zero (S := S2000x1) hz]
  obtain ⟨e00, e01, e10, e11, e20, e21, e30, e31⟩ := idx_facts t
  have hN : cfg2.N = 50 := N_2
  have ht : t.val < 50 := hN ▸ t.isLt
  funext j
  obtain ⟨p, q, rfl⟩ : ∃ (p : Fin 2000) (q : Fin 40), j = ix2 p q := ⟨j 0, j 1, eq_ix2 j⟩
  show k2_pay1 (F := Ideal) (iblk2 V c 0 t) (iblk2 V c 1 t) (iblk2 V c 2 t) (ix2 p q)
    = Cert.Gcn.scaleMM (V c main_v29) (V c main_arg4) (V c main_v15) (((cfg2.win 3).blk t).view.emb (ix2 p q))
  refine (body_apply _ _ _ p q).trans ?_
  have hp : p.val < 2000 := p.isLt
  have hr : t.val * 2000 + p.val < 100000 := by omega
  have ei : ((cfg2.win 3).blk t).view.emb (ix2 p q) = ix2 (⟨t.val * 2000 + p.val, hr⟩ : Fin 100000) q := funext fun a => Fin.ext (by
    match a with
    | ⟨0, _⟩ => show win2_3.index t (0 : Fin 2) * 2000 + 1 * p.val = t.val * 2000 + p.val; omega
    | ⟨1, _⟩ => show win2_3.index t (1 : Fin 2) * 40 + 1 * q.val = q.val; omega)
  have e0 : ∀ k : Fin 16, iblk2 V c 0 t (ix2 p k) = V c main_v29 (ix2 (⟨t.val * 2000 + p.val, hr⟩ : Fin 100000) k) := fun k => by
    show V c main_v29 (((cfg2.win 0).blk t).view.emb (ix2 p k)) = _
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 16 + 1 * k.val = k.val; omega
  have e1 : ∀ k : Fin 16, iblk2 V c 1 t (ix2 k q) = V c main_arg4 (ix2 k q) := fun k => by
    show V c main_arg4 (((cfg2.win 1).blk t).view.emb (ix2 k q)) = _
    refine congrArg _ (funext fun a => Fin.ext ?_)
    match a with
    | ⟨0, _⟩ => show win2_1.index t (0 : Fin 2) * 16 + 1 * k.val = k.val; omega
    | ⟨1, _⟩ => show win2_1.index t (1 : Fin 2) * 40 + 1 * q.val = q.val; omega
  have e2 : iblk2 V c 2 t (ix2 p (0 : Fin 1)) = V c main_v15 (ix2 (⟨t.val * 2000 + p.val, hr⟩ : Fin 100000) (0 : Fin 1)) := by
    show V c main_v15 (((cfg2.win 2).blk t).view.emb (ix2 p (0 : Fin 1))) = _
    refine congrArg _ (funext fun a => Fin.ext ?_)
    match a with
    | ⟨0, _⟩ => show win2_2.index t (0 : Fin 2) * 2000 + 1 * p.val = t.val * 2000 + p.val; omega
    | ⟨1, _⟩ => show win2_2.index t (1 : Fin 2) * 1 + 1 * 0 = 0; omega
  rw [ei, e2]
  refine Eq.trans ?_ (scaleMM_apply (V c main_v29) (V c main_arg4) (V c main_v15) _ q).symm
  refine congrArg _ (Finset.sum_congr rfl fun k _ => ?_)
  rw [e0 k, e1 k]

/-- An index of the result is in step `t`'s block iff each coordinate is in the block's range on its axis. -/
theorem mem_blk (t : Fin cfg2.N) (i : S100000x40.Idx) :
    i ∈ ((cfg2.win 3).blk t).view.set ↔ ∀ a : Fin 2, win2_3.index t a * S2000x40.size a ≤ (i a).val ∧ (i a).val < win2_3.index t a * S2000x40.size a + S2000x40.size a := by
  show i ∈ ((View.whole main_v30).slice (win2_3.rect t)).set ↔ _
  rw [View.set_slice_whole, Rect.mem_set_unit]
  exact Iff.rfl

/-- Every entry of the result is written back by some step: row `r` by step `r / 2000`. -/
theorem cover (i : S100000x40.Idx) : ∃ t : Fin cfg2.N, (cfg2.win 3).flush t = true ∧ i ∈ ((cfg2.win 3).blk t).view.set := by
  have hi0 : (i 0).val < 100000 := (i 0).isLt
  have hi1 : (i 1).val < 40 := (i 1).isLt
  have hN : cfg2.N = 50 := N_2
  have hq : (i 0).val / 2000 < cfg2.N := by rw [hN]; omega
  obtain ⟨-, -, -, -, -, -, e30, e31⟩ := idx_facts ⟨(i 0).val / 2000, hq⟩
  refine ⟨⟨(i 0).val / 2000, hq⟩, flush2_3 _, ?_⟩
  rw [mem_blk]
  intro a
  match a with
  | ⟨0, _⟩ =>
    show win2_3.index ⟨(i 0).val / 2000, hq⟩ (0 : Fin 2) * 2000 ≤ (i 0).val ∧ (i 0).val < win2_3.index ⟨(i 0).val / 2000, hq⟩ (0 : Fin 2) * 2000 + 2000
    rw [e30]; show (i 0).val / 2000 * 2000 ≤ (i 0).val ∧ (i 0).val < (i 0).val / 2000 * 2000 + 2000; omega
  | ⟨1, _⟩ =>
    show win2_3.index ⟨(i 0).val / 2000, hq⟩ (1 : Fin 2) * 40 ≤ (i 1).val ∧ (i 1).val < win2_3.index ⟨(i 0).val / 2000, hq⟩ (1 : Fin 2) * 40 + 40
    rw [e31]; omega

/-- The result after the 50 steps: the rows of the product scaled by the column. -/
theorem final (c : Dev nD) :
    (dat2 (F := Ideal) V c).arrAt 3 cfg2.N = Cert.Gcn.scaleMM (V c main_v29) (V c main_arg4) (V c main_v15) :=
  (dat2 (F := Ideal) V c).arrAt_eq_of_cover 3 _ (fun t _ => flushed_eq V c t) cover

end Cert.KernelIdeal.Reg2

end
-- ==== Proof.KReg3.lean ====
/-
  The closing stage of the second convolution: each block of 2000 accumulated rows is scaled row by row by the
  normalising column, the bias row is added, and the logarithm of the soft maximum is taken along each row (the row's
  largest entry from −∞, subtracted; the exponentials summed; the logarithm of that sum subtracted); a row of the
  result depends on that row alone, and the 50 blocks tile the 100000 rows, so the whole array is the specification's
  `finLogSoftmax` of the accumulated rows, the column and the bias row.
-/
import proofs.«409407_j84181359001627_4_alg».proof.Proof.Gen.KernelIdeal.Frame
import proofs.«409407_j84181359001627_4_alg».proof.Proof.Spec
import proofs.«409407_j84181359001627_4_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg3

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeroOffsets : (![0, 0] : Fin 2 → Nat) = fun _ => 0 := funext fun a => by fin_cases a <;> rfl

/-! ## The block's arithmetic in two steps: the scaled rows plus the bias, then the rows' log-soft-maximum -/

/-- The block scaled row by row by the column, plus the bias row. -/
def affineB (d : Vec Ideal S2000x1 .f32) (acc : Vec Ideal S2000x40 .f32) (b : Vec Ideal S1x40 .f32) : FVec Ideal S2000x40 .f32 :=
  addf (mulf (broadcastTo S2000x40 (shapeCast S2000x1 d shapeCasts_S2000x1_S2000x1) broadcasts_S2000x1_S2000x40)
      (shapeCast S2000x40 acc shapeCasts_S2000x40_S2000x40))
    (broadcastTo S2000x40 (shapeCast S1x40 b shapeCasts_S1x40_S1x40) broadcasts_S1x40_S2000x40)

/-- The rows' largest entries, from −∞. -/
def rowMaxB (z : FVec Ideal S2000x40 .f32) : FVec Ideal S2000 .f32 :=
  multiReduction (F := Ideal) .maximumf [1] S2000 z 0xFF800000#32 reduces_S2000x40_S2000 (.inl rfl) rfl

/-- The rows' sums. -/
def rowSumB (x : FVec Ideal S2000x40 .f32) : FVec Ideal S2000 .f32 :=
  multiReduction (F := Ideal) .add [1] S2000 x 0x00000000#32 reduces_S2000x40_S2000 (.inl rfl) rfl

/-- A block with its rows' largest entries subtracted. -/
def shiftB (z : FVec Ideal S2000x40 .f32) : FVec Ideal S2000x40 .f32 :=
  subf z (broadcastTo S2000x40 (shapeCast S2000x1 (rowMaxB z) shapeCasts_S2000_S2000x1) broadcasts_S2000x1_S2000x40)

/-- The logarithm of the soft maximum along the rows of a block. -/
def logSoftmaxB (z : FVec Ideal S2000x40 .f32) : FVec Ideal S2000x40 .f32 :=
  subf (shiftB z)
    (broadcastTo S2000x40 (log (shapeCast S2000x1 (rowSumB (exp (shiftB z))) shapeCasts_S2000_S2000x1)) broadcasts_S2000x1_S2000x40)

/-- The body's arithmetic is those two steps. -/
theorem body_eq (d : Vec Ideal S2000x1 .f32) (acc : Vec Ideal S2000x40 .f32) (b : Vec Ideal S1x40 .f32) :
    k3_pay1 (F := Ideal) d acc b = logSoftmaxB (affineB d acc b) := rfl

theorem exp_apply (x : FVec Ideal S2000x40 .f32) (i : S2000x40.Idx) : exp x i = Ideal.exp (x i) := rfl
theorem log_apply (x : FVec Ideal S2000x1 .f32) (i : S2000x1.Idx) : log x i = Ideal.log (x i) := rfl

/-- The first step at row `p`, column `q`. -/
theorem affineB_apply (d : Vec Ideal S2000x1 .f32) (acc : Vec Ideal S2000x40 .f32) (b : Vec Ideal S1x40 .f32)
    (p : Fin 2000) (q : Fin 40) :
    affineB d acc b (ix2 p q) = d (ix2 p (0 : Fin 1)) * acc (ix2 p q) + b (ix2 (0 : Fin 1) q) := by
  unfold affineB
  simp only [shapeCast_self]
  rw [addf_apply, mulf_apply, Keepdims.broadcastTo_a1_ab_apply, broadcastTo_1b_ab_apply]

/-- A row's largest entry: the fold of `max` from −∞ over the row. -/
theorem rowMaxB_apply (z : FVec Ideal S2000x40 .f32) (p : Fin 2000) :
    rowMaxB z (ix1 p) = (Finset.univ : Finset (Fin 40)).fold max (Ideal.ofBits .f32 0xFF800000#32) (fun k => z (ix2 p k)) := by
  unfold rowMaxB
  refine (Ideal.multiReduction_maximumf_single z 0xFF800000#32 reduces_S2000x40_S2000 (.inl rfl) rfl (ix1 p)).trans ?_
  have e : (z ∘ reduces_S2000x40_S2000.lift (ix1 p)) = fun k : Fin 40 => z (ix2 p k) := by
    funext k
    refine congrArg z ?_
    funext ax
    match ax with
    | ⟨0, _⟩ => rfl
    | ⟨1, _⟩ => rfl
  rw [e]
  rfl

/-- A row's sum. -/
theorem rowSumB_apply (x : FVec Ideal S2000x40 .f32) (p : Fin 2000) :
    rowSumB x (ix1 p) = ∑ k : Fin 40, x (ix2 p k) :=
  Keepdims.multiReduction_add_rows x 0x00000000#32 reduces_S2000x40_S2000 (.inl rfl) rfl p

/-- The shifted block at row `p`, column `q`. -/
theorem shiftB_apply (z : FVec Ideal S2000x40 .f32) (p : Fin 2000) (q : Fin 40) :
    shiftB z (ix2 p q) = z (ix2 p q) - (Finset.univ : Finset (Fin 40)).fold max (Ideal.ofBits .f32 0xFF800000#32) (fun k => z (ix2 p k)) := by
  unfold shiftB
  rw [subf_apply, Keepdims.broadcastTo_a1_ab_apply, Keepdims.shapeCast_a_a1_apply, rowMaxB_apply]

/-- The second step at row `p`, column `q`. -/
theorem logSoftmaxB_apply (z : FVec Ideal S2000x40 .f32) (p : Fin 2000) (q : Fin 40) :
    logSoftmaxB z (ix2 p q)
      = (z (ix2 p q) - (Finset.univ : Finset (Fin 40)).fold max (Ideal.ofBits .f32 0xFF800000#32) (fun k => z (ix2 p k)))
        - Ideal.log (∑ j : Fin 40, Ideal.exp (z (ix2 p j)
            - (Finset.univ : Finset (Fin 40)).fold max (Ideal.ofBits .f32 0xFF800000#32) (fun k => z (ix2 p k)))) := by
  unfold logSoftmaxB
  rw [subf_apply, Keepdims.broadcastTo_a1_ab_apply, log_apply, Keepdims.shapeCast_a_a1_apply, rowSumB_apply, shiftB_apply]
  simp only [exp_apply, shiftB_apply]

/-- Against the whole arrays: where row `p` of the block is row `n` of the arrays (the column's entry, the accumulated
    row, the bias row), the block's result at `(p, q)` is the specification's at `(n, q)`. -/
theorem body_row (d : Vec Ideal S2000x1 .f32) (acc : Vec Ideal S2000x40 .f32) (b : Vec Ideal S1x40 .f32)
    (A : Cert.Gcn.Mat 100000 40) (D : Cert.Gcn.Mat 100000 1) (B : Cert.Gcn.Mat 1 40)
    (p : Fin 2000) (q : Fin 40) (n : Fin 100000)
    (hd : d (ix2 p (0 : Fin 1)) = D (ix2 n (0 : Fin 1))) (ha : ∀ k : Fin 40, acc (ix2 p k) = A (ix2 n k))
    (hb : ∀ k : Fin 40, b (ix2 (0 : Fin 1) k) = B (ix2 (0 : Fin 1) k)) :
    k3_pay1 (F := Ideal) d acc b (ix2 p q) = Cert.Gcn.finLogSoftmax A D B (ix2 n q) := by
  have hz : ∀ k : Fin 40, affineB d acc b (ix2 p k) = Cert.Gcn.affine A D B (ix2 n k) := fun k => by
    rw [affineB_apply, hd, ha, hb]
    rfl
  rw [body_eq, logSoftmaxB_apply]
  simp only [hz]
  rfl

/-- The same at any index `j` of the block and `i` of the array with the same column. -/
theorem body_at (d : Vec Ideal S2000x1 .f32) (acc : Vec Ideal S2000x40 .f32) (b : Vec Ideal S1x40 .f32)
    (A : Cert.Gcn.Mat 100000 40) (D : Cert.Gcn.Mat 100000 1) (B : Cert.Gcn.Mat 1 40)
    (j : S2000x40.Idx) (i : S100000x40.Idx)
    (hd : d (ix2 (j 0) (0 : Fin 1)) = D (ix2 (i 0) (0 : Fin 1)))
    (ha : ∀ k : Fin 40, acc (ix2 (j 0) k) = A (ix2 (i 0) k))
    (hb : ∀ k : Fin 40, b (ix2 (0 : Fin 1) k) = B (ix2 (0 : Fin 1) k))
    (hq : (i 1).val = (j 1).val) :
    k3_pay1 (F := Ideal) d acc b j = Cert.Gcn.finLogSoftmax A D B i := by
  obtain ⟨p, q, rfl⟩ : ∃ (p : Fin 2000) (q : Fin 40), j = ix2 p q := ⟨j 0, j 1, eq_ix2 j⟩
  obtain ⟨n, q', rfl⟩ : ∃ (n : Fin 100000) (q' : Fin 40), i = ix2 n q' := ⟨i 0, i 1, eq_ix2 i⟩
  obtain rfl : q' = q := Fin.ext hq
  exact body_row d acc b A D B p q' n hd ha hb

/-! ## From the blocks to the array -/

/-- The windows' block indices, decided over the grid: the three row-blocked windows move together along the rows,
    the bias row stays. -/
theorem idx_facts : ∀ t : Fin cfg3.N, win3_0.index t (0 : Fin 2) = win3_3.index t (0 : Fin 2)
    ∧ win3_0.index t (1 : Fin 2) = 0
    ∧ win3_1.index t (0 : Fin 2) = win3_3.index t (0 : Fin 2)
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- What point `t` writes back is block `t` of the specification's array. -/
theorem flushed_eq (c : Dev nD) (t : Fin cfg3.N) :
    (dat3 (F := Ideal) V c).flushed 3 t
      = ((cfg3.win 3).blk t).view.read (Elt Ideal) (Cert.Gcn.finLogSoftmax (V c main_v41) (V c main_v15) (V c main_v42)) := by
  show (cfg3.win 3).cut (grid3.coords t) ((dat3 (F := Ideal) V c).after 3 t) = _
  rw [after3_3]
  unfold out3_3
  rw [View.canon_unit_zero zeroOffsets]
  simp only [View.ld_unit_zero (S := S2000x40) zeroOffsets, View.ld_unit_zero (S := S2000x1) zeroOffsets,
    View.ld_unit_zero (S := S1x40) zeroOffsets]
  obtain ⟨e00, e01, e10, e11, e20, e21, e30, e31⟩ := idx_facts t
  funext j
  refine body_at _ _ _ (V c main_v41) (V c main_v15) (V c main_v42) j (((cfg3.win 3).blk t).view.emb j) ?_ (fun k => ?_) (fun k => ?_) ?_
  · show V c main_v15 (((cfg3.win 1).blk t).view.emb (ix2 (j 0) (0 : Fin 1))) = _
    refine congrArg (V c main_v15) ?_
    funext a; apply Fin.ext
    match a with
    | ⟨0, _⟩ => show win3_1.index t (0 : Fin 2) * 2000 + 1 * (j 0).val = win3_3.index t (0 : Fin 2) * 2000 + 1 * (j 0).val; omega
    | ⟨1, _⟩ => show win3_1.index t (1 : Fin 2) * 1 + 1 * 0 = 0; omega
  · show V c main_v41 (((cfg3.win 0).blk t).view.emb (ix2 (j 0) k)) = _
    refine congrArg (V c main_v41) ?_
    funext a; apply Fin.ext
    match a with
    | ⟨0, _⟩ => show win3_0.index t (0 : Fin 2) * 2000 + 1 * (j 0).val = win3_3.index t (0 : Fin 2) * 2000 + 1 * (j 0).val; omega
    | ⟨1, _⟩ => show win3_0.index t (1 : Fin 2) * 40 + 1 * k.val = k.val; omega
  · show V c main_v42 (((cfg3.win 2).blk t).view.emb (ix2 (0 : Fin 1) k)) = _
    refine congrArg (V c main_v42) ?_
    funext a; apply Fin.ext
    match a with
    | ⟨0, _⟩ => show win3_2.index t (0 : Fin 2) * 1 + 1 * 0 = 0; omega
    | ⟨1, _⟩ => show win3_2.index t (1 : Fin 2) * 40 + 1 * k.val = k.val; omega
  · show win3_3.index t (1 : Fin 2) * 40 + 1 * (j 1).val = (j 1).val
    omega

/-- An index of the array is in point `t`'s block iff each coordinate is in the block's range on its axis. -/
theorem mem_blk (t : Fin cfg3.N) (i : S100000x40.Idx) :
    i ∈ ((cfg3.win 3).blk t).view.set ↔ ∀ a : Fin 2, win3_3.index t a * S2000x40.size a ≤ (i a).val ∧ (i a).val < win3_3.index t a * S2000x40.size a + S2000x40.size a := by
  show i ∈ ((View.whole main_v43).slice (win3_3.rect t)).set ↔ _
  rw [View.set_slice_whole, Rect.mem_set_unit]
  exact Iff.rfl

/-- Every index is in the block of the point its row falls in. -/
theorem cover (i : S100000x40.Idx) :
    ∃ t : Fin cfg3.N, (cfg3.win 3).flush t = true ∧ i ∈ ((cfg3.win 3).blk t).view.set := by
  have hi0 : (i 0).val < 100000 := (i 0).isLt
  have hi1 : (i 1).val < 40 := (i 1).isLt
  have hN : cfg3.N = 50 := by decide
  let t : Fin cfg3.N := ⟨(i 0).val / 2000, by rw [hN]; omega⟩
  obtain ⟨e00, e01, e10, e11, e20, e21, e30, e31⟩ := idx_facts t
  have ht : t.val = (i 0).val / 2000 := rfl
  refine ⟨t, flush3_3 t, ?_⟩
  rw [mem_blk]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 40 ≤ (i 1).val ∧ (i 1).val < win3_3.index t (1 : Fin 2) * 40 + 40; omega

theorem final (c : Dev nD) :
    (dat3 (F := Ideal) V c).arrAt 3 cfg3.N = Cert.Gcn.finLogSoftmax (V c main_v41) (V c main_v15) (V c main_v42) :=
  (dat3 (F := Ideal) V c).arrAt_eq_of_cover 3 (Cert.Gcn.finLogSoftmax (V c main_v41) (V c main_v15) (V c main_v42))
    (fun t _ => flushed_eq V c t) cover

end Cert.KernelIdeal.Reg3

end
-- ==== Proof.KValue.lean ====
/-
  What the factored program leaves in its result buffer, at exact arithmetic: the six stages of `Spec`'s chain of the
  argument arrays. Each kernel region's output array is its stage function of the arrays it finds (the four region
  modules); each stretch of host operations between them writes the next stage's inputs (`KHost`, read at exact
  arithmetic by `KTermsIdeal`); the edge list, the weights and the biases reach every stage unchanged.
-/
import proofs.«409407_j84181359001627_4_alg».proof.Proof.KHost
import proofs.«409407_j84181359001627_4_alg».proof.Proof.KTermsIdeal
import proofs.«409407_j84181359001627_4_alg».proof.Proof.KReg0
import proofs.«409407_j84181359001627_4_alg».proof.Proof.KReg1
import proofs.«409407_j84181359001627_4_alg».proof.Proof.KReg2
import proofs.«409407_j84181359001627_4_alg».proof.Proof.KReg3

set_option maxRecDepth 16384

noncomputable section

namespace Cert.KernelIdeal.Gen

open Idealize.ShloMosaic Idealize.ShloMosaic.TcCoe Idealize.SL.Sem
open Cert.KernelIdeal.Terms Cert.Gcn

variable (m : (ℓ : Loc nD τ sig) → Buf (Elt Ideal) ℓ) (ρ : Dev nD → PrngReg)

/-- The result buffer after the run holds the six-stage chain of the arguments. -/
theorem value (c : Dev nD) :
    W9 m ρ c (Proc.devRef .tc main_v43)
      = chainK (m ((c : Thread nD τ).loc main_arg1)) (m ((c : Thread nD τ).loc main_arg0)) (m ((c : Thread nD τ).loc main_arg2)) (m ((c : Thread nD τ).loc main_arg3)) (m ((c : Thread nD τ).loc main_arg4)) (m ((c : Thread nD τ).loc main_arg5)) := by
  -- the normalising column, the sources and the targets reach every region unchanged
  have hd3 : W3 m ρ c (Proc.devRef .tc main_v15) = dcol (m ((c : Thread nD τ).loc main_arg1)) := (W3_main_v15 m ρ c).trans (dcolT_eq _)
  have hd5 : W5 m ρ c (Proc.devRef .tc main_v15) = dcol (m ((c : Thread nD τ).loc main_arg1)) := by rw [W5_main_v15, W4_main_v15, hd3]
  have hd6 : W6 m ρ c (Proc.devRef .tc main_v15) = dcol (m ((c : Thread nD τ).loc main_arg1)) := by rw [W6_main_v15, hd5]
  have hd7 : W7 m ρ c (Proc.devRef .tc main_v15) = dcol (m ((c : Thread nD τ).loc main_arg1)) := by rw [W7_main_v15, hd6]
  have hd8 : W8 m ρ c (Proc.devRef .tc main_v15) = dcol (m ((c : Thread nD τ).loc main_arg1)) := by rw [W8_main_v15, hd7]
  have hs4 : W4 m ρ c (Proc.devRef .tc main_v1) = srcT (F := Ideal) (m ((c : Thread nD τ).loc main_arg1)) := by rw [W4_main_v1, W3_main_v1]
  have ht4 : W4 m ρ c (Proc.devRef .tc main_v3) = dstT (F := Ideal) (m ((c : Thread nD τ).loc main_arg1)) := by rw [W4_main_v3, W3_main_v3]
  have hs7 : W7 m ρ c (Proc.devRef .tc main_v1) = srcT (F := Ideal) (m ((c : Thread nD τ).loc main_arg1)) := by rw [W7_main_v1, W6_main_v1, W5_main_v1, hs4]
  have ht7 : W7 m ρ c (Proc.devRef .tc main_v3) = dstT (F := Ideal) (m ((c : Thread nD τ).loc main_arg1)) := by rw [W7_main_v3, W6_main_v3, W5_main_v3, ht4]
  -- first layer: the scaled product, the aggregation, the closing stage
  have h16 : W4 m ρ c (Proc.devRef .tc main_v16) = scaleMM (m ((c : Thread nD τ).loc main_arg0)) (m ((c : Thread nD τ).loc main_arg2)) (dcol (m ((c : Thread nD τ).loc main_arg1))) := by
    rw [W4_main_v16, Reg0.final (V3 m ρ) c]
    show scaleMM (W3 m ρ c (Proc.devRef .tc main_arg0)) (W3 m ρ c (Proc.devRef .tc main_arg2)) (W3 m ρ c (Proc.devRef .tc main_v15)) = _
    rw [W3_main_arg0, W3_main_arg2, hd3]
  have h27 : W5 m ρ c (Proc.devRef .tc main_v27)
      = aggM (m ((c : Thread nD τ).loc main_arg1)) (scaleMM (m ((c : Thread nD τ).loc main_arg0)) (m ((c : Thread nD τ).loc main_arg2)) (dcol (m ((c : Thread nD τ).loc main_arg1)))) := by
    rw [W5_main_v27, h16, hs4, ht4]
    exact aggT16_eq _ _
  have h28 : W5 m ρ c (Proc.devRef .tc main_v28) = brow (m ((c : Thread nD τ).loc main_arg3)) := by
    rw [W5_main_v28, W4_main_arg3, W3_main_arg3]
    exact browT16_eq _
  have h29 : W6 m ρ c (Proc.devRef .tc main_v29)
      = finRelu (aggM (m ((c : Thread nD τ).loc main_arg1)) (scaleMM (m ((c : Thread nD τ).loc main_arg0)) (m ((c : Thread nD τ).loc main_arg2)) (dcol (m ((c : Thread nD τ).loc main_arg1)))))
          (dcol (m ((c : Thread nD τ).loc main_arg1))) (brow (m ((c : Thread nD τ).loc main_arg3))) := by
    rw [W6_main_v29, Reg1.final (V5 m ρ) c]
    show finRelu (W5 m ρ c (Proc.devRef .tc main_v27)) (W5 m ρ c (Proc.devRef .tc main_v15)) (W5 m ρ c (Proc.devRef .tc main_v28)) = _
    rw [h27, hd5, h28]
  -- second layer
  have hw6 : W6 m ρ c (Proc.devRef .tc main_arg4) = (m ((c : Thread nD τ).loc main_arg4)) := by rw [W6_main_arg4, W5_main_arg4, W4_main_arg4, W3_main_arg4]
  have hb7 : W7 m ρ c (Proc.devRef .tc main_arg5) = (m ((c : Thread nD τ).loc main_arg5)) := by rw [W7_main_arg5, W6_main_arg5, W5_main_arg5, W4_main_arg5, W3_main_arg5]
  have h30 : W7 m ρ c (Proc.devRef .tc main_v30)
      = scaleMM (finRelu (aggM (m ((c : Thread nD τ).loc main_arg1)) (scaleMM (m ((c : Thread nD τ).loc main_arg0)) (m ((c : Thread nD τ).loc main_arg2)) (dcol (m ((c : Thread nD τ).loc main_arg1)))))
          (dcol (m ((c : Thread nD τ).loc main_arg1))) (brow (m ((c : Thread nD τ).loc main_arg3)))) (m ((c : Thread nD τ).loc main_arg4)) (dcol (m ((c : Thread nD τ).loc main_arg1))) := by
    rw [W7_main_v30, Reg2.final (V6 m ρ) c]
    show scaleMM (W6 m ρ c (Proc.devRef .tc main_v29)) (W6 m ρ c (Proc.devRef .tc main_arg4)) (W6 m ρ c (Proc.devRef .tc main_v15)) = _
    rw [h29, hw6, hd6]
  have h41 : W8 m ρ c (Proc.devRef .tc main_v41)
      = aggM (m ((c : Thread nD τ).loc main_arg1)) (scaleMM (finRelu (aggM (m ((c : Thread nD τ).loc main_arg1)) (scaleMM (m ((c : Thread nD τ).loc main_arg0)) (m ((c : Thread nD τ).loc main_arg2)) (dcol (m ((c : Thread nD τ).loc main_arg1)))))
          (dcol (m ((c : Thread nD τ).loc main_arg1))) (brow (m ((c : Thread nD τ).loc main_arg3)))) (m ((c : Thread nD τ).loc main_arg4)) (dcol (m ((c : Thread nD τ).loc main_arg1)))) := by
    rw [W8_main_v41, h30, hs7, ht7]
    exact aggT40_eq _ _
  have h42 : W8 m ρ c (Proc.devRef .tc main_v42) = brow (m ((c : Thread nD τ).loc main_arg5)) := by
    rw [W8_main_v42, hb7]
    exact browT40_eq _
  rw [W9_main_v43, Reg3.final (V8 m ρ) c]
  show finLogSoftmax (W8 m ρ c (Proc.devRef .tc main_v41)) (W8 m ρ c (Proc.devRef .tc main_v15)) (W8 m ρ c (Proc.devRef .tc main_v42)) = _
  rw [h41, hd8, h42]
  rfl

end Cert.KernelIdeal.Gen

end
-- ==== Proof.SpecLaws.lean ====
/-
  The laws that join the two arrangements of the graph convolution (`Spec`): the normalising factor of any degree is a
  non-negative finite number, so it distributes over sums of extended reals; the appended self loops contribute one
  unit to the degree and one term to the aggregation; hence the plain and the factored arrangements agree, and the
  six-stage chain is the factored network.
-/
import proofs.«409407_j84181359001627_4_alg».proof.Proof.Spec

noncomputable section

open scoped BigOperators

namespace Cert.Gcn

open Idealize.ShloMosaic Idealize.ShloMosaic.ValueIdx

/-! ## The normalising factor is a non-negative finite number -/

/-- The normalising factor by cases: the inverse square root at a positive degree, zero elsewhere. -/
theorem dinvOf_eq (d : EReal) : dinvOf d = if 0 < d then Ideal.rsqrt d else 0 := by
  unfold dinvOf Scalar.select Ideal.cmp
  by_cases h : (0 : EReal) < d
  · rw [if_pos h, decide_eq_true h]; rfl
  · rw [if_neg h, decide_eq_false h]; rfl

theorem dinvOf_nonneg (d : EReal) : 0 ≤ dinvOf d := by
  rw [dinvOf_eq]
  induction d using EReal.rec with
  | bot => rw [if_neg (not_lt.mpr bot_le)]
  | coe r =>
    by_cases h : (0 : EReal) < (r : EReal)
    · have hr : 0 < r := EReal.coe_pos.mp h
      rw [if_pos h, Ideal.rsqrt_coe, if_neg (not_lt.mpr hr.le), if_neg hr.ne']
      exact EReal.coe_nonneg.mpr (inv_nonneg.mpr (Real.sqrt_nonneg r))
    · rw [if_neg h]
  | top => rw [if_pos EReal.zero_lt_top, Ideal.rsqrt_top]

theorem dinvOf_ne_top (d : EReal) : dinvOf d ≠ ⊤ := by
  rw [dinvOf_eq]
  induction d using EReal.rec with
  | bot => rw [if_neg (not_lt.mpr bot_le)]; exact EReal.zero_ne_top
  | coe r =>
    by_cases h : (0 : EReal) < (r : EReal)
    · have hr : 0 < r := EReal.coe_pos.mp h
      rw [if_pos h, Ideal.rsqrt_coe, if_neg (not_lt.mpr hr.le), if_neg hr.ne']
      exact EReal.coe_ne_top _
    · rw [if_neg h]; exact EReal.zero_ne_top
  | top => rw [if_pos EReal.zero_lt_top, Ideal.rsqrt_top]; exact EReal.zero_ne_top

/-- A non-negative finite factor distributes over a finite sum of extended reals. -/
theorem mul_sum_of_nonneg_of_ne_top {ι : Type} (s : Finset ι) (x : EReal) (hx : 0 ≤ x) (hx' : x ≠ ⊤)
    (f : ι → EReal) : x * ∑ i ∈ s, f i = ∑ i ∈ s, x * f i := by
  classical
  induction s using Finset.induction_on with
  | empty => rw [Finset.sum_empty, Finset.sum_empty, mul_zero]
  | insert a s ha ih =>
    rw [Finset.sum_insert ha, Finset.sum_insert ha, EReal.left_distrib_of_nonneg_of_ne_top hx hx', ih]

/-- A factor moves into the kept branch of a choice whose other branch is zero. -/
theorem mul_ite_zero (p : Prop) [Decidable p] (x a : EReal) :
    x * (if p then a else 0) = if p then x * a else 0 := by
  by_cases h : p
  · rw [if_pos h, if_pos h]
  · rw [if_neg h, if_neg h, mul_zero]

/-! ## Words that name a node -/

/-- The word of a node number, read signed, is that number. -/
theorem toInt_ofNat_node (j : ℕ) (hj : j < 100000) : (BitVec.ofNat 32 j).toInt = (j : ℤ) := by
  have h1 : (BitVec.ofNat 32 j).toNat = j := by
    rw [BitVec.toNat_ofNat]; exact Nat.mod_eq_of_lt (by omega)
  rw [BitVec.toInt_eq_toNat_of_lt (by rw [h1]; omega), h1]

/-- A word that lands at a node is read by a take as that node's row. -/
theorem rowOf_of_lands (w : BitVec 32) (n : Fin 100000) (h : lands w n) : rowOf w = n := by
  have hs : w.slt 0#32 = false := by
    unfold BitVec.slt
    rw [h, BitVec.toInt_zero]
    exact decide_eq_false (by omega)
  have hw : wrapIdx w = w := by
    unfold wrapIdx IntOp.cmpi Scalar.select
    rw [hs]; rfl
  apply Fin.ext
  show min (wrapIdx w).toInt.toNat (100000 - 1) = n.val
  rw [hw, h, Int.toNat_natCast]
  have := n.isLt
  omega

/-- The self loop of node `j` lands at `n` exactly when `j = n`. -/
theorem lands_ofNat_iff (j n : Fin 100000) : lands (BitVec.ofNat 32 j.val) n ↔ j = n := by
  unfold lands
  rw [toInt_ofNat_node j.val j.isLt]
  constructor
  · intro h; exact Fin.ext (by exact_mod_cast h)
  · intro h; rw [h]

/-- A take by the word of a node number reads that node's row. -/
theorem rowOf_ofNat (j : Fin 100000) : rowOf (BitVec.ofNat 32 j.val) = j :=
  rowOf_of_lands _ j (toInt_ofNat_node j.val j.isLt)

/-! ## The edge list with self loops, split -/

/-- A sum over the edges with self loops is the sum over the given edges plus the sum over the loops. -/
theorem sum_ext_split (f : Fin 3300000 → EReal) :
    ∑ e : Fin 3300000, f e
      = (∑ e : Fin 3200000, f ⟨e.val, by omega⟩) + ∑ j : Fin 100000, f ⟨3200000 + j.val, by omega⟩ :=
  Fin.sum_univ_add (a := 3200000) (b := 100000) f

theorem ext_edge (v : Fin 3200000 → BitVec 32) (e : Fin 3200000) (he : e.val < 3300000) :
    ext v ⟨e.val, he⟩ = v e := by
  unfold ext
  rw [dif_pos e.isLt]

theorem ext_loop (v : Fin 3200000 → BitVec 32) (j : Fin 100000) (hj : 3200000 + j.val < 3300000) :
    ext v ⟨3200000 + j.val, hj⟩ = BitVec.ofNat 32 j.val := by
  unfold ext
  rw [dif_neg (by show ¬ (3200000 + j.val < 3200000); omega)]
  show BitVec.ofNat 32 (3200000 + j.val - 3200000) = _
  rw [Nat.add_sub_cancel_left]

/-! ## The two arrangements agree -/

theorem degR_eq_degK (ei : Edges) (n : Fin 100000) : degR ei n = degK ei n := by
  unfold degR degK
  rw [sum_ext_split]
  refine congrArg₂ (· + ·) ?_ ?_
  · refine Finset.sum_congr rfl fun e _ => ?_
    rw [ext_edge]
  · have hl : ∀ j : Fin 100000,
        (if lands (ext (dst ei) ⟨3200000 + j.val, by omega⟩) n then f1 else 0) = if j = n then f1 else 0 := by
      intro j
      rw [ext_loop]
      exact if_congr (lands_ofNat_iff j n) rfl rfl
    rw [Finset.sum_congr rfl fun j _ => hl j, Finset.sum_ite_eq' Finset.univ n (fun _ => f1),
      if_pos (Finset.mem_univ n)]

/-- The two arrangements have the same normalising factors. -/
theorem dinvR_eq_dinvK (ei : Edges) : dinvR ei = dinvK ei := by
  funext m
  unfold dinvR dinvK
  rw [degR_eq_degK]

theorem convR_eq_convK {K : ℕ} (ei : Edges) (h : Mat 100000 K) (b : Vec1 K) (n : Fin 100000) (k : Fin K) :
    convR ei h b n k = convK ei h b n k := by
  have h0 : 0 ≤ dinvK ei n := dinvOf_nonneg _
  have ht : dinvK ei n ≠ ⊤ := dinvOf_ne_top _
  unfold convR convK
  rw [dinvR_eq_dinvK, sum_ext_split]
  refine congrArg (· + b (ix1 k)) ?_
  rw [EReal.left_distrib_of_nonneg_of_ne_top h0 ht, mul_sum_of_nonneg_of_ne_top _ _ h0 ht]
  refine congrArg₂ (· + ·) ?_ ?_
  · refine Finset.sum_congr rfl fun e _ => ?_
    rw [ext_edge, ext_edge, mul_ite_zero]
    by_cases hl : lands (dst ei e) n
    · rw [if_pos hl, if_pos hl, rowOf_of_lands _ n hl,
        mul_comm (dinvK ei (rowOf (src ei e))) (dinvK ei n), mul_assoc]
    · rw [if_neg hl, if_neg hl]
  · have hl : ∀ j : Fin 100000,
        (if lands (ext (dst ei) ⟨3200000 + j.val, by omega⟩) n then
            (dinvK ei (rowOf (ext (src ei) ⟨3200000 + j.val, by omega⟩))
              * dinvK ei (rowOf (ext (dst ei) ⟨3200000 + j.val, by omega⟩)))
              * h (ix2 (rowOf (ext (src ei) ⟨3200000 + j.val, by omega⟩)) k) else 0)
          = if j = n then (dinvK ei j * dinvK ei j) * h (ix2 j k) else 0 := by
      intro j
      rw [ext_loop, ext_loop, rowOf_ofNat]
      exact if_congr (lands_ofNat_iff j n) rfl rfl
    rw [Finset.sum_congr rfl fun j _ => hl j,
      Finset.sum_ite_eq' Finset.univ n (fun j => (dinvK ei j * dinvK ei j) * h (ix2 j k)),
      if_pos (Finset.mem_univ n), mul_assoc]

/-- The two arrangements of one convolution, as matrices. -/
theorem convRM_eq_convKM {K : ℕ} (ei : Edges) (h : Mat 100000 K) (b : Vec1 K) : convRM ei h b = convKM ei h b := by
  funext i
  exact convR_eq_convK ei h b (i 0) (i 1)

theorem outR_eq_outK (ei : Edges) (x : Mat 100000 128) (W1 : Mat 128 16) (b1 : Vec1 16) (W2 : Mat 16 40) (b2 : Vec1 40) :
    outR ei x W1 b1 W2 b2 = outK ei x W1 b1 W2 b2 := by
  unfold outR outK
  rw [convRM_eq_convKM, convRM_eq_convKM]

/-! ## The six stages are the factored network -/

/-- Scaling a product's rows, aggregating, scaling by the target and adding the bias is one convolution. -/
theorem affine_agg_scale {K C : ℕ} (ei : Edges) (x : Mat 100000 K) (w : Mat K C) (b : Vec1 C) :
    affine (aggM ei (scaleMM x w (dcol ei))) (dcol ei) (brow b) = convKM ei (mm x w) b := by
  funext i
  obtain ⟨p, q, rfl⟩ : ∃ p q, i = ix2 p q := ⟨i 0, i 1, eq_ix2 i⟩
  rfl

theorem chainK_eq_outK (ei : Edges) (x : Mat 100000 128) (W1 : Mat 128 16) (b1 : Vec1 16) (W2 : Mat 16 40) (b2 : Vec1 40) :
    chainK ei x W1 b1 W2 b2 = outK ei x W1 b1 W2 b2 := by
  unfold chainK outK finLogSoftmax finRelu
  rw [affine_agg_scale, affine_agg_scale]

end Cert.Gcn

end
-- ==== Proof.LibStretch.lean ====
/-
  A long straight line of host operations read at one buffer, stretch by stretch.

  When each operation of the line writes exactly one buffer, and the list of those result references is known, "no
  operation from position k on writes r" is one membership test in a list of references. A buffer that is not
  written from position k on holds after the whole line what it holds after the first k operations; cutting once
  more at i ≤ k, it holds what the operations i … k-1 leave when run from the contents the first i left. A proof
  reads a long line this way: it names the contents after a prefix, runs a short stretch over them, and reads the
  stretch's inputs back as the whole line's contents (they are not written again either).
-/
import Mathlib.Data.List.Forall2
import Idealize.ShloMosaic.Lib.StableHlo.Run

namespace Cert.LibStretch

open Idealize.ShloMosaic Idealize.ShloMosaic.StableHlo

variable {τ : Topo} {sig : RefSig} {Val : EltTy → Type}

/-- Operation by operation, the line writes exactly the buffers of the references ys. -/
def WritesAre (ops : List (HloOp τ sig Val)) (ys : List (Ref sig .tc)) : Prop :=
  List.Forall₂ (fun op y => op.writes = {Proc.devRef .tc y}) ops ys

/-- A reference outside the list is written by no operation of the line. -/
theorem not_mem_writes {ops : List (HloOp τ sig Val)} {ys : List (Ref sig .tc)} (h : WritesAre ops ys)
    {r : Ref sig .tc} (hr : r ∉ ys) : ∀ op ∈ ops, Proc.devRef (τ := τ) .tc r ∉ op.writes := by
  induction h with
  | nil => intro op hop; exact absurd hop List.not_mem_nil
  | cons hxy _ ih =>
    intro op hop
    rcases List.mem_cons.mp hop with e | hop
    · subst e
      rw [hxy, Finset.mem_singleton]
      exact devRef_ne_of_ne fun e => hr (e ▸ List.mem_cons_self)
    · exact ih (fun hm => hr (List.mem_cons_of_mem _ hm)) op hop

/-- Two lines run one after the other. -/
theorem after_cat : ∀ (l₁ l₂ : List (HloOp τ sig Val)) (W : Valuation τ sig Val),
    after (l₁ ++ l₂) W = after l₂ (after l₁ W)
  | [], _, _ => rfl
  | op :: l₁, l₂, W => by rw [List.cons_append, after_cons, after_cons, after_cat l₁ l₂]

/-- The contents after the first i operations of the line (a name of its own, so that a proof can set the prefix aside
    as one object while it computes with a stretch that follows it). -/
def pre (ops : List (HloOp τ sig Val)) (i : Nat) (W : Valuation τ sig Val) : Valuation τ sig Val := after (ops.take i) W

/-- A buffer no operation from position k on writes holds, after the line, what it holds after the first k. -/
theorem after_eq_take {ops : List (HloOp τ sig Val)} {ys : List (Ref sig .tc)} (h : WritesAre ops ys) (k : Nat)
    (W : Valuation τ sig Val) (r : Ref sig .tc) (hr : r ∉ ys.drop k) :
    after ops W (Proc.devRef .tc r) = after (ops.take k) W (Proc.devRef .tc r) := by
  conv_lhs => rw [← List.take_append_drop k ops]
  rw [after_cat, after_of_forall_not_mem _ _ (not_mem_writes (List.forall₂_drop k h) hr)]

/-- The same, the prefix named. -/
theorem after_eq_pre {ops : List (HloOp τ sig Val)} {ys : List (Ref sig .tc)} (h : WritesAre ops ys) (k : Nat)
    (W : Valuation τ sig Val) (r : Ref sig .tc) (hr : r ∉ ys.drop k) :
    after ops W (Proc.devRef .tc r) = pre ops k W (Proc.devRef .tc r) :=
  after_eq_take h k W r hr

/-- The same, cut once more at i ≤ k: the operations i … k-1 run from what the first i left. -/
theorem after_eq_stretch {ops : List (HloOp τ sig Val)} {ys : List (Ref sig .tc)} (h : WritesAre ops ys) (i k : Nat)
    (hik : i ≤ k) (W : Valuation τ sig Val) (r : Ref sig .tc) (hr : r ∉ ys.drop k) :
    after ops W (Proc.devRef .tc r) = after ((ops.take k).drop i) (pre ops i W) (Proc.devRef .tc r) := by
  rw [after_eq_take h k W r hr]
  conv_lhs => rw [← List.take_append_drop i (ops.take k)]
  rw [after_cat, List.take_take, Nat.min_eq_left hik]
  rfl

end Cert.LibStretch
-- ==== Proof.RefRunBase.lean ====
/-
  The reference program's straight line of 136 host operations, prepared for reading in stretches: the contents after
  the first `k` operations (`P`), the operations `i … k-1` run from what the first `i` left (`P_split`, `after_split`),
  and the fact that no operation writes an argument, so every argument holds its launch contents throughout.
-/
import proofs.«409407_j84181359001627_4_alg».proof.Proof.RefOps
import proofs.«409407_j84181359001627_4_alg».proof.Proof.RefRead
import proofs.«409407_j84181359001627_4_alg».proof.Proof.LibStretch
import Idealize.ShloMosaic.Lib.StableHlo.Run

set_option maxRecDepth 16384

noncomputable section

namespace Cert.ReferenceIdeal.RunValue

open Cert.ReferenceIdeal Cert.ReferenceIdeal.Gen Idealize.ShloMosaic Idealize.ShloMosaic.TcCoe Idealize.SL.Sem Idealize.ShloMosaic.StableHlo
open Cert.ReferenceIdeal.ValueQ Cert.ReferenceIdeal.ReadP

variable {F : FTy → Type} [FloatOps F]
variable (W0 : Valuation τ sig (Elt F))

/-- The contents after the first `k` operations. -/
def P (k : ℕ) : Valuation τ sig (Elt F) := after ((ops (F := F)).take k) W0

/-- The operations `i … k-1` run from what the first `i` left. -/
theorem P_split (i k : ℕ) (hik : i ≤ k) : P W0 k = after (((ops (F := F)).take k).drop i) (P W0 i) := by
  unfold P
  conv_lhs => rw [← List.take_append_drop i ((ops (F := F)).take k)]
  rw [Cert.LibStretch.after_cat, List.take_take, Nat.min_eq_left hik]

/-- The whole line: the operations from `k` on run from what the first `k` left. -/
theorem after_split (k : ℕ) : after (ops (F := F)) W0 = after ((ops (F := F)).drop k) (P W0 k) := by
  unfold P
  conv_lhs => rw [← List.take_append_drop k (ops (F := F))]
  rw [Cert.LibStretch.after_cat]

/-! ## No operation writes an argument -/

set_option maxHeartbeats 2000000 in
theorem not_written_arg0 : ∀ op ∈ (ops (F := F)), (Proc.devRef .tc main_arg0) ∉ op.writes := by
  refine List.forall_iff_forall_mem.mp ?_
  simp only [ops, List.Forall, nullary_writes, unary_writes, binary_writes, ternary_writes, quaternary_writes, reshape_writes, binaryIndexed_writes, Finset.mem_singleton]
  repeat' apply And.intro
  all_goals exact devRef_ne_of_ne (by decide)
theorem P_arg0 (k : ℕ) : P W0 k (Proc.devRef .tc main_arg0) = W0 (Proc.devRef .tc main_arg0) :=
  after_of_forall_not_mem _ _ fun op hop => not_written_arg0 op (List.mem_of_mem_take hop)
theorem after_arg0 : after (ops (F := F)) W0 (Proc.devRef .tc main_arg0) = W0 (Proc.devRef .tc main_arg0) :=
  after_of_forall_not_mem _ _ not_written_arg0
set_option maxHeartbeats 2000000 in
theorem not_written_arg1 : ∀ op ∈ (ops (F := F)), (Proc.devRef .tc main_arg1) ∉ op.writes := by
  refine List.forall_iff_forall_mem.mp ?_
  simp only [ops, List.Forall, nullary_writes, unary_writes, binary_writes, ternary_writes, quaternary_writes, reshape_writes, binaryIndexed_writes, Finset.mem_singleton]
  repeat' apply And.intro
  all_goals exact devRef_ne_of_ne (by decide)
theorem P_arg1 (k : ℕ) : P W0 k (Proc.devRef .tc main_arg1) = W0 (Proc.devRef .tc main_arg1) :=
  after_of_forall_not_mem _ _ fun op hop => not_written_arg1 op (List.mem_of_mem_take hop)
theorem after_arg1 : after (ops (F := F)) W0 (Proc.devRef .tc main_arg1) = W0 (Proc.devRef .tc main_arg1) :=
  after_of_forall_not_mem _ _ not_written_arg1
set_option maxHeartbeats 2000000 in
theorem not_written_arg2 : ∀ op ∈ (ops (F := F)), (Proc.devRef .tc main_arg2) ∉ op.writes := by
  refine List.forall_iff_forall_mem.mp ?_
  simp only [ops, List.Forall, nullary_writes, unary_writes, binary_writes, ternary_writes, quaternary_writes, reshape_writes, binaryIndexed_writes, Finset.mem_singleton]
  repeat' apply And.intro
  all_goals exact devRef_ne_of_ne (by decide)
theorem P_arg2 (k : ℕ) : P W0 k (Proc.devRef .tc main_arg2) = W0 (Proc.devRef .tc main_arg2) :=
  after_of_forall_not_mem _ _ fun op hop => not_written_arg2 op (List.mem_of_mem_take hop)
theorem after_arg2 : after (ops (F := F)) W0 (Proc.devRef .tc main_arg2) = W0 (Proc.devRef .tc main_arg2) :=
  after_of_forall_not_mem _ _ not_written_arg2
set_option maxHeartbeats 2000000 in
theorem not_written_arg3 : ∀ op ∈ (ops (F := F)), (Proc.devRef .tc main_arg3) ∉ op.writes := by
  refine List.forall_iff_forall_mem.mp ?_
  simp only [ops, List.Forall, nullary_writes, unary_writes, binary_writes, ternary_writes, quaternary_writes, reshape_writes, binaryIndexed_writes, Finset.mem_singleton]
  repeat' apply And.intro
  all_goals exact devRef_ne_of_ne (by decide)
theorem P_arg3 (k : ℕ) : P W0 k (Proc.devRef .tc main_arg3) = W0 (Proc.devRef .tc main_arg3) :=
  after_of_forall_not_mem _ _ fun op hop => not_written_arg3 op (List.mem_of_mem_take hop)
theorem after_arg3 : after (ops (F := F)) W0 (Proc.devRef .tc main_arg3) = W0 (Proc.devRef .tc main_arg3) :=
  after_of_forall_not_mem _ _ not_written_arg3
set_option maxHeartbeats 2000000 in
theorem not_written_arg4 : ∀ op ∈ (ops (F := F)), (Proc.devRef .tc main_arg4) ∉ op.writes := by
  refine List.forall_iff_forall_mem.mp ?_
  simp only [ops, List.Forall, nullary_writes, unary_writes, binary_writes, ternary_writes, quaternary_writes, reshape_writes, binaryIndexed_writes, Finset.mem_singleton]
  repeat' apply And.intro
  all_goals exact devRef_ne_of_ne (by decide)
theorem P_arg4 (k : ℕ) : P W0 k (Proc.devRef .tc main_arg4) = W0 (Proc.devRef .tc main_arg4) :=
  after_of_forall_not_mem _ _ fun op hop => not_written_arg4 op (List.mem_of_mem_take hop)
theorem after_arg4 : after (ops (F := F)) W0 (Proc.devRef .tc main_arg4) = W0 (Proc.devRef .tc main_arg4) :=
  after_of_forall_not_mem _ _ not_written_arg4
set_option maxHeartbeats 2000000 in
theorem not_written_arg5 : ∀ op ∈ (ops (F := F)), (Proc.devRef .tc main_arg5) ∉ op.writes := by
  refine List.forall_iff_forall_mem.mp ?_
  simp only [ops, List.Forall, nullary_writes, unary_writes, binary_writes, ternary_writes, quaternary_writes, reshape_writes, binaryIndexed_writes, Finset.mem_singleton]
  repeat' apply And.intro
  all_goals exact devRef_ne_of_ne (by decide)
theorem P_arg5 (k : ℕ) : P W0 k (Proc.devRef .tc main_arg5) = W0 (Proc.devRef .tc main_arg5) :=
  after_of_forall_not_mem _ _ fun op hop => not_written_arg5 op (List.mem_of_mem_take hop)
theorem after_arg5 : after (ops (F := F)) W0 (Proc.devRef .tc main_arg5) = W0 (Proc.devRef .tc main_arg5) :=
  after_of_forall_not_mem _ _ not_written_arg5

/-- Contents moved to a typed reference's buffer and back are the contents. -/
theorem ofBuf_toBuf {T : BufTy} (x : TRef sig T) (v : T.Contents (Elt F)) : x.ofBuf (x.toBuf v) = v := by
  obtain ⟨r, rfl, d, u⟩ := x
  rfl

end Cert.ReferenceIdeal.RunValue

end
-- ==== Proof.RefRunStretches.lean ====
/- The reference's 136 host operations read in eleven stretches: per stretch, the buffers a later stretch reads are the
   stages of the arguments — computed by the stretch from the stages the one before left (the stretch run by
   `after_results_simp`, its inputs rewritten to their stages, the stage's definition unfolding to the same term), or
   carried across a stretch that does not write them. The last stretch gives the result. -/
import proofs.«409407_j84181359001627_4_alg».proof.Proof.RefRunBase

set_option maxRecDepth 16384

noncomputable section

namespace Cert.ReferenceIdeal.RunValue

open Cert.ReferenceIdeal Cert.ReferenceIdeal.Gen Idealize.ShloMosaic Idealize.ShloMosaic.TcCoe Idealize.SL.Sem Idealize.ShloMosaic.StableHlo
open Cert.ReferenceIdeal.ValueQ Cert.ReferenceIdeal.ReadP

variable {F : FTy → Type} [FloatOps F]
variable (W0 : Valuation τ sig (Elt F))

/-- A stretch that does not write the buffer. -/
local macro "stretch_keeps" : tactic => `(tactic|
  (refine after_of_forall_not_mem _ _ (List.forall_iff_forall_mem.mp ?_)
   simp only [ops, List.take_succ_cons, List.take_zero, List.drop_succ_cons, List.drop_zero, List.Forall, nullary_writes, unary_writes, binary_writes, ternary_writes, quaternary_writes, reshape_writes, binaryIndexed_writes, Finset.mem_singleton]
   repeat' apply And.intro
   all_goals exact devRef_ne_of_ne (by decide)))

/-! ## The first four operations: the first product, the node numbers, the sources -/

theorem P4_v0 : P W0 4 (Proc.devRef .tc main_v0) = val_main_v0 (F := F) (W0 (Proc.devRef .tc main_arg0)) (W0 (Proc.devRef .tc main_arg2)) := by
  unfold P
  simp only [ops, List.take_succ_cons, List.take_zero]
  after_results_simp
  rfl
theorem P4_v1 : P W0 4 (Proc.devRef .tc main_v1) = val_main_v1 (F := F) := by
  unfold P
  simp only [ops, List.take_succ_cons, List.take_zero]
  after_results_simp
  rfl
theorem P4_v3 : P W0 4 (Proc.devRef .tc main_v3) = val_main_v3 (F := F) (W0 (Proc.devRef .tc main_arg1)) := by
  unfold P
  simp only [ops, List.take_succ_cons, List.take_zero]
  after_results_simp
  rfl

/-! ## Operations 4 to 6: the sources with the self loops, the targets -/

theorem P7_v0 : P W0 7 (Proc.devRef .tc main_v0) = val_main_v0 (F := F) (W0 (Proc.devRef .tc main_arg0)) (W0 (Proc.devRef .tc main_arg2)) := by
  rw [P_split W0 4 7 (by decide), ← P4_v0 W0]
  stretch_keeps
theorem P7_v1 : P W0 7 (Proc.devRef .tc main_v1) = val_main_v1 (F := F) := by
  rw [P_split W0 4 7 (by decide), ← P4_v1 W0]
  stretch_keeps
set_option maxHeartbeats 4000000 in
theorem P7_v4 : P W0 7 (Proc.devRef .tc main_v4) = val_main_v4 (F := F) (W0 (Proc.devRef .tc main_arg1)) := by
  rw [P_split W0 4 7 (by decide)]
  have h_v1 := P4_v1 W0
  have h_v3 := P4_v3 W0
  generalize P W0 4 = Q at *
  simp only [ops, List.take_succ_cons, List.take_zero, List.drop_succ_cons, List.drop_zero]
  after_results_simp
  rw [h_v1, h_v3]
  rfl
set_option maxHeartbeats 4000000 in
theorem P7_v6 : P W0 7 (Proc.devRef .tc main_v6) = val_main_v6 (F := F) (W0 (Proc.devRef .tc main_arg1)) := by
  rw [P_split W0 4 7 (by decide)]
  have h_a1 := P_arg1 W0 4
  generalize P W0 4 = Q at *
  simp only [ops, List.take_succ_cons, List.take_zero, List.drop_succ_cons, List.drop_zero]
  after_results_simp
  rw [h_a1]
  rfl

/-! ## Operations 7 to 20: the targets with the self loops, the degrees, the normalising factors -/

theorem P21_v0 : P W0 21 (Proc.devRef .tc main_v0) = val_main_v0 (F := F) (W0 (Proc.devRef .tc main_arg0)) (W0 (Proc.devRef .tc main_arg2)) := by
  rw [P_split W0 7 21 (by decide), ← P7_v0 W0]
  stretch_keeps
theorem P21_v4 : P W0 21 (Proc.devRef .tc main_v4) = val_main_v4 (F := F) (W0 (Proc.devRef .tc main_arg1)) := by
  rw [P_split W0 7 21 (by decide), ← P7_v4 W0]
  stretch_keeps
set_option maxHeartbeats 4000000 in
theorem P21_v7 : P W0 21 (Proc.devRef .tc main_v7) = val_main_v7 (F := F) (W0 (Proc.devRef .tc main_arg1)) := by
  rw [P_split W0 7 21 (by decide)]
  have h_v6 := P7_v6 W0
  have h_v1 := P7_v1 W0
  generalize P W0 7 = Q at *
  simp only [ops, List.take_succ_cons, List.take_zero, List.drop_succ_cons, List.drop_zero]
  after_results_simp
  rw [h_v6, h_v1]
  rfl
set_option maxHeartbeats 4000000 in
theorem P21_v16 : P W0 21 (Proc.devRef .tc main_v16) = val_main_v16 (F := F) (W0 (Proc.devRef .tc main_arg1)) := by
  rw [P_split W0 7 21 (by decide)]
  have h_v6 := P7_v6 W0
  have h_v1 := P7_v1 W0
  generalize P W0 7 = Q at *
  simp only [ops, List.take_succ_cons, List.take_zero, List.drop_succ_cons, List.drop_zero]
  after_results_simp
  rw [h_v6, h_v1]
  rfl

/-! ## Operations 21 to 40: the two takes of the factors and their product, as a column -/

theorem P41_v0 : P W0 41 (Proc.devRef .tc main_v0) = val_main_v0 (F := F) (W0 (Proc.devRef .tc main_arg0)) (W0 (Proc.devRef .tc main_arg2)) := by
  rw [P_split W0 21 41 (by decide), ← P21_v0 W0]
  stretch_keeps
theorem P41_v4 : P W0 41 (Proc.devRef .tc main_v4) = val_main_v4 (F := F) (W0 (Proc.devRef .tc main_arg1)) := by
  rw [P_split W0 21 41 (by decide), ← P21_v4 W0]
  stretch_keeps
theorem P41_v7 : P W0 41 (Proc.devRef .tc main_v7) = val_main_v7 (F := F) (W0 (Proc.devRef .tc main_arg1)) := by
  rw [P_split W0 21 41 (by decide), ← P21_v7 W0]
  stretch_keeps
set_option maxHeartbeats 4000000 in
theorem P41_v32 : P W0 41 (Proc.devRef .tc main_v32) = val_main_v32 (F := F) (W0 (Proc.devRef .tc main_arg1)) := by
  rw [P_split W0 21 41 (by decide)]
  have h_v4 := P21_v4 W0
  have h_v7 := P21_v7 W0
  have h_v16 := P21_v16 W0
  generalize P W0 21 = Q at *
  simp only [ops, List.take_succ_cons, List.take_zero, List.drop_succ_cons, List.drop_zero]
  after_results_simp
  rw [h_v4, h_v7, h_v16]
  rfl

/-! ## Operations 41 to 61: the row take, the scatter-add, the bias, the positive part -/

set_option maxHeartbeats 4000000 in
theorem P62_v48 : P W0 62 (Proc.devRef .tc main_v48) = val_main_v48 (F := F) (W0 (Proc.devRef .tc main_arg0)) (W0 (Proc.devRef .tc main_arg1)) (W0 (Proc.devRef .tc main_arg2)) (W0 (Proc.devRef .tc main_arg3)) := by
  rw [P_split W0 41 62 (by decide)]
  have h_v4 := P41_v4 W0
  have h_v0 := P41_v0 W0
  have h_v32 := P41_v32 W0
  have h_v7 := P41_v7 W0
  have h_a3 := P_arg3 W0 41
  generalize P W0 41 = Q at *
  simp only [ops, List.take_succ_cons, List.take_zero, List.drop_succ_cons, List.drop_zero]
  after_results_simp
  rw [h_v4, h_v0, h_v32, h_v7, h_a3]
  rfl

/-! ## Operations 62 to 65: the second product, the node numbers and the sources again -/

set_option maxHeartbeats 4000000 in
theorem P66_v49 : P W0 66 (Proc.devRef .tc main_v49) = val_main_v49 (F := F) (W0 (Proc.devRef .tc main_arg0)) (W0 (Proc.devRef .tc main_arg1)) (W0 (Proc.devRef .tc main_arg2)) (W0 (Proc.devRef .tc main_arg3)) (W0 (Proc.devRef .tc main_arg4)) := by
  rw [P_split W0 62 66 (by decide)]
  have h_v48 := P62_v48 W0
  have h_a4 := P_arg4 W0 62
  generalize P W0 62 = Q at *
  simp only [ops, List.take_succ_cons, List.take_zero, List.drop_succ_cons, List.drop_zero]
  after_results_simp
  rw [h_v48, h_a4]
  rfl
set_option maxHeartbeats 4000000 in
theorem P66_v50 : P W0 66 (Proc.devRef .tc main_v50) = val_main_v50 (F := F) := by
  rw [P_split W0 62 66 (by decide)]
  generalize P W0 62 = Q at *
  simp only [ops, List.take_succ_cons, List.take_zero, List.drop_succ_cons, List.drop_zero]
  after_results_simp
  rfl
set_option maxHeartbeats 4000000 in
theorem P66_v52 : P W0 66 (Proc.devRef .tc main_v52) = val_main_v52 (F := F) (W0 (Proc.devRef .tc main_arg1)) := by
  rw [P_split W0 62 66 (by decide)]
  have h_a1 := P_arg1 W0 62
  generalize P W0 62 = Q at *
  simp only [ops, List.take_succ_cons, List.take_zero, List.drop_succ_cons, List.drop_zero]
  after_results_simp
  rw [h_a1]
  rfl

/-! ## Operations 66 to 68: the sources with the self loops, the targets -/

theorem P69_v49 : P W0 69 (Proc.devRef .tc main_v49) = val_main_v49 (F := F) (W0 (Proc.devRef .tc main_arg0)) (W0 (Proc.devRef .tc main_arg1)) (W0 (Proc.devRef .tc main_arg2)) (W0 (Proc.devRef .tc main_arg3)) (W0 (Proc.devRef .tc main_arg4)) := by
  rw [P_split W0 66 69 (by decide), ← P66_v49 W0]
  stretch_keeps
theorem P69_v50 : P W0 69 (Proc.devRef .tc main_v50) = val_main_v50 (F := F) := by
  rw [P_split W0 66 69 (by decide), ← P66_v50 W0]
  stretch_keeps
set_option maxHeartbeats 4000000 in
theorem P69_v53 : P W0 69 (Proc.devRef .tc main_v53) = val_main_v53 (F := F) (W0 (Proc.devRef .tc main_arg1)) := by
  rw [P_split W0 66 69 (by decide)]
  have h_v52 := P66_v52 W0
  have h_v50 := P66_v50 W0
  generalize P W0 66 = Q at *
  simp only [ops, List.take_succ_cons, List.take_zero, List.drop_succ_cons, List.drop_zero]
  after_results_simp
  rw [h_v52, h_v50]
  rfl
set_option maxHeartbeats 4000000 in
theorem P69_v55 : P W0 69 (Proc.devRef .tc main_v55) = val_main_v55 (F := F) (W0 (Proc.devRef .tc main_arg1)) := by
  rw [P_split W0 66 69 (by decide)]
  have h_a1 := P_arg1 W0 66
  generalize P W0 66 = Q at *
  simp only [ops, List.take_succ_cons, List.take_zero, List.drop_succ_cons, List.drop_zero]
  after_results_simp
  rw [h_a1]
  rfl

/-! ## Operations 69 to 82: the targets with the self loops, the degrees, the factors, recomputed -/

theorem P83_v49 : P W0 83 (Proc.devRef .tc main_v49) = val_main_v49 (F := F) (W0 (Proc.devRef .tc main_arg0)) (W0 (Proc.devRef .tc main_arg1)) (W0 (Proc.devRef .tc main_arg2)) (W0 (Proc.devRef .tc main_arg3)) (W0 (Proc.devRef .tc main_arg4)) := by
  rw [P_split W0 69 83 (by decide), ← P69_v49 W0]
  stretch_keeps
theorem P83_v53 : P W0 83 (Proc.devRef .tc main_v53) = val_main_v53 (F := F) (W0 (Proc.devRef .tc main_arg1)) := by
  rw [P_split W0 69 83 (by decide), ← P69_v53 W0]
  stretch_keeps
set_option maxHeartbeats 4000000 in
theorem P83_v56 : P W0 83 (Proc.devRef .tc main_v56) = val_main_v56 (F := F) (W0 (Proc.devRef .tc main_arg1)) := by
  rw [P_split W0 69 83 (by decide)]
  have h_v55 := P69_v55 W0
  have h_v50 := P69_v50 W0
  generalize P W0 69 = Q at *
  simp only [ops, List.take_succ_cons, List.take_zero, List.drop_succ_cons, List.drop_zero]
  after_results_simp
  rw [h_v55, h_v50]
  rfl
set_option maxHeartbeats 4000000 in
theorem P83_v65 : P W0 83 (Proc.devRef .tc main_v65) = val_main_v65 (F := F) (W0 (Proc.devRef .tc main_arg1)) := by
  rw [P_split W0 69 83 (by decide)]
  have h_v55 := P69_v55 W0
  have h_v50 := P69_v50 W0
  generalize P W0 69 = Q at *
  simp only [ops, List.take_succ_cons, List.take_zero, List.drop_succ_cons, List.drop_zero]
  after_results_simp
  rw [h_v55, h_v50]
  rfl

/-! ## Operations 83 to 102: the two takes of the factors and their product -/

theorem P103_v49 : P W0 103 (Proc.devRef .tc main_v49) = val_main_v49 (F := F) (W0 (Proc.devRef .tc main_arg0)) (W0 (Proc.devRef .tc main_arg1)) (W0 (Proc.devRef .tc main_arg2)) (W0 (Proc.devRef .tc main_arg3)) (W0 (Proc.devRef .tc main_arg4)) := by
  rw [P_split W0 83 103 (by decide), ← P83_v49 W0]
  stretch_keeps
theorem P103_v53 : P W0 103 (Proc.devRef .tc main_v53) = val_main_v53 (F := F) (W0 (Proc.devRef .tc main_arg1)) := by
  rw [P_split W0 83 103 (by decide), ← P83_v53 W0]
  stretch_keeps
theorem P103_v56 : P W0 103 (Proc.devRef .tc main_v56) = val_main_v56 (F := F) (W0 (Proc.devRef .tc main_arg1)) := by
  rw [P_split W0 83 103 (by decide), ← P83_v56 W0]
  stretch_keeps
set_option maxHeartbeats 4000000 in
theorem P103_v81 : P W0 103 (Proc.devRef .tc main_v81) = val_main_v81 (F := F) (W0 (Proc.devRef .tc main_arg1)) := by
  rw [P_split W0 83 103 (by decide)]
  have h_v53 := P83_v53 W0
  have h_v56 := P83_v56 W0
  have h_v65 := P83_v65 W0
  generalize P W0 83 = Q at *
  simp only [ops, List.take_succ_cons, List.take_zero, List.drop_succ_cons, List.drop_zero]
  after_results_simp
  rw [h_v53, h_v56, h_v65]
  rfl

/-! ## Operations 103 to 120: the row take, the scatter-add, the bias -/

set_option maxHeartbeats 4000000 in
theorem P121_v96 : P W0 121 (Proc.devRef .tc main_v96) = val_main_v96 (F := F) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) := by
  rw [P_split W0 103 121 (by decide)]
  have h_v53 := P103_v53 W0
  have h_v49 := P103_v49 W0
  have h_v81 := P103_v81 W0
  have h_v56 := P103_v56 W0
  have h_a5 := P_arg5 W0 103
  generalize P W0 103 = Q at *
  simp only [ops, List.take_succ_cons, List.take_zero, List.drop_succ_cons, List.drop_zero]
  after_results_simp
  rw [h_v53, h_v49, h_v81, h_v56, h_a5]
  rfl

/-! ## Operations 121 to 135: the closing soft maximum -/

set_option maxHeartbeats 4000000 in
theorem result_eq : after (ops (F := F)) W0 (Proc.devRef .tc main_v97) = val_main_v97 (F := F) (W0 (Proc.devRef .tc main_arg0)) (W0 (Proc.devRef .tc main_arg1)) (W0 (Proc.devRef .tc main_arg2)) (W0 (Proc.devRef .tc main_arg3)) (W0 (Proc.devRef .tc main_arg4)) (W0 (Proc.devRef .tc main_arg5)) := by
  rw [after_split W0 121]
  have h_v96 := P121_v96 W0
  generalize P W0 121 = Q at *
  simp only [ops, List.drop_succ_cons, List.drop_zero]
  after_results_simp
  simp only [ofBuf_toBuf]
  rw [h_v96]
  rfl

end Cert.ReferenceIdeal.RunValue

end
-- ==== Proof.RefRunValue.lean ====
/-
  The reference program's run, read over its stages: every weakly fair execution of the reference ends with its result
  buffer at the last stage `val_main_v97` of the argument arrays, the arguments unchanged — the library's run of a
  straight line of host operations, its result read stretch by stretch (`RefRunStretches`), its arguments never
  written (`RefRunBase`).
-/
import proofs.«409407_j84181359001627_4_alg».proof.Proof.RefRunStretches

set_option maxRecDepth 16384

noncomputable section

namespace Cert.ReferenceIdeal.RunValue

open Cert.ReferenceIdeal Cert.ReferenceIdeal.Gen Idealize.ShloMosaic Idealize.ShloMosaic.TcCoe Idealize.SL.Sem Idealize.ShloMosaic.StableHlo
open Cert.ReferenceIdeal.ValueQ Cert.ReferenceIdeal.ReadP

variable {F : FTy → Type} [FloatOps F]

variable (m : (ℓ : Loc nD τ sig) → Buf (Elt F) ℓ) (ρ : Dev nD → PrngReg)

/-- On every device, for any float values, from any memory with zero counters: every weakly fair execution of the
    reference terminates with its result at the last stage of the arguments and the arguments unchanged. -/
theorem run : θ_run defs (onTc (τ := τ) (main (F := F))) ⟨m, fun _ => 0, ρ⟩ fun r => ∀ c : Dev nD,
      r.2.mem ((c.tc : Thread nD τ).loc main_v97) = val_main_v97 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v97).trans (result_eq (launchContents m c)),
      (h c main_arg0).trans (after_arg0 (launchContents m c)),
      (h c main_arg1).trans (after_arg1 (launchContents m c)),
      (h c main_arg2).trans (after_arg2 (launchContents m c)),
      (h c main_arg3).trans (after_arg3 (launchContents m c)),
      (h c main_arg4).trans (after_arg4 (launchContents m c)),
      (h c main_arg5).trans (after_arg5 (launchContents m c))⟩)
    (run_seq scopedRefs_eq scopedSems_eq defs main (fun _ => ops) main_eq (fun _ => ops_sub) m ρ)

end Cert.ReferenceIdeal.RunValue

end
-- ==== Proof.RefLayer1.lean ====
/-
  The reference's first graph convolution, read index by index: its normalising factors are `dinvR` of the edge list,
  and its output after the positive part is the plain arrangement `convRM` of the product of the node features with
  the first weight matrix.
-/
import proofs.«409407_j84181359001627_4_alg».proof.Proof.RefRead
import proofs.«409407_j84181359001627_4_alg».proof.Proof.Spec
import proofs.«409407_j84181359001627_4_alg».proof.Proof.LibScatter
import proofs.«409407_j84181359001627_4_alg».proof.Proof.LibTakeRows
import proofs.«409407_j84181359001627_4_alg».proof.Proof.LibGraphOps
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Cert.ReferenceIdeal.Layer1

open Idealize.ShloMosaic Idealize.ShloMosaic.ValueIdx
open Cert.ReferenceIdeal Cert.ReferenceIdeal.Gen Cert.ReferenceIdeal.ReadP Cert.Gcn

variable (x0 : (⟨S100000x128, .f32⟩ : BufTy).Contents (Elt Ideal)) (x1 : (⟨S2x3200000, .i32⟩ : BufTy).Contents (Elt Ideal))
  (x2 : (⟨S128x16, .f32⟩ : BufTy).Contents (Elt Ideal)) (x3 : (⟨S16, .f32⟩ : BufTy).Contents (Elt Ideal))

/-! ## The two index vectors: a row of the edge list followed by the node numbers -/

/-- The sources' row after the slice and the reshape. -/
theorem v3_apply (p : Fin 3200000) : val_main_v3 (F := Ideal) x1 (ix1 p) = src x1 p := by
  rw [val_main_v3_apply, val_main_v2_apply]
  unfold src
  congr 1
  funext a; refine Fin.ext ?_
  match a with
  | ⟨0, _⟩ => rfl
  | ⟨1, _⟩ => exact Nat.mod_eq_of_lt p.isLt

/-- The targets' row after the slice and the reshape. -/
theorem v6_apply (p : Fin 3200000) : val_main_v6 (F := Ideal) x1 (ix1 p) = dst x1 p := by
  rw [val_main_v6_apply, val_main_v5_apply]
  unfold dst
  congr 1
  funext a; refine Fin.ext ?_
  match a with
  | ⟨0, _⟩ => rfl
  | ⟨1, _⟩ => exact Nat.mod_eq_of_lt p.isLt

/-- The source words of the edges with self loops. -/
theorem v4_apply (e : Fin 3300000) : val_main_v4 (F := Ideal) x1 (ix1 e) = ext (src x1) e := by
  unfold val_main_v4
  refine (Cert.LibGraphOps.concatenate_pair1_apply (a := 3200000) (b := 100000) (c := 3300000) rfl _ _
    concatenates_S3200000_S100000_S3300000_d0 e).trans ?_
  unfold ext
  by_cases h : e.val < 3200000
  · rw [dif_pos h, dif_pos h]; exact v3_apply x1 ⟨e.val, h⟩
  · rw [dif_neg h, dif_neg h]; rfl

/-- The target words of the edges with self loops. -/
theorem v7_apply (e : Fin 3300000) : val_main_v7 (F := Ideal) x1 (ix1 e) = ext (dst x1) e := by
  unfold val_main_v7
  refine (Cert.LibGraphOps.concatenate_pair1_apply (a := 3200000) (b := 100000) (c := 3300000) rfl _ _
    concatenates_S3200000_S100000_S3300000_d0 e).trans ?_
  unfold ext
  by_cases h : e.val < 3200000
  · rw [dif_pos h, dif_pos h]; exact v6_apply x1 ⟨e.val, h⟩
  · rw [dif_neg h, dif_neg h]; rfl

/-! ## The degrees and the normalising factors -/

/-- The histogram's record is the general histogram's at the literal extents. -/
theorem hist_rec : scatter_S100000_S3300000x1_S3300000_n_0_0_1
    = Cert.LibScatter.histDims 100000 3300000 scatter_S100000_S3300000x1_S3300000_n_0_0_1.wf := rfl

/-- The histogram of the target words: the number of edges, self loops included, landing at a node. -/
theorem v11_apply (n : Fin 100000) : val_main_v11 (F := Ideal) x1 (ix1 n) = degR x1 n := by
  unfold val_main_v11
  rw [hist_rec]
  refine (Cert.LibGraphOps.histDims_scatterAdd_apply _ _ _ _ n).trans ?_
  rw [val_main_v9_apply, val_main_cst_0_apply]
  show Ideal.ofBits .f32 0x00000000#32 + _ = _
  rw [Ideal.ofBits_zero_f32, zero_add]
  unfold degR
  refine Finset.sum_congr rfl fun e _ => ?_
  rw [val_main_v10_apply, (show idx_main_v10 (ix2 e (0 : Fin 1)) = ix1 e from
    funext fun a => Fin.ext (by match a with | ⟨0, _⟩ => rfl)), v7_apply, val_main_v8_apply, val_main_cst_apply]
  rfl

/-- The normalising factor at a node. -/
theorem v16_apply (n : Fin 100000) : val_main_v16 (F := Ideal) x1 (ix1 n) = dinvR x1 n := by
  rw [val_main_v16_apply, val_main_v13_apply, val_main_v14_apply, v11_apply, val_main_v12_apply, val_main_cst_1_apply,
    val_main_v15_apply, val_main_cst_2_apply]
  rw [Ideal.cmpf_def, Ideal.hostUnary_rsqrt_def, Ideal.ofBits_def, Ideal.ofBits_zero_f32]
  unfold dinvR dinvOf
  rfl

/-! ## The normalised index words -/

/-- The sources' words as a take normalises them. -/
theorem v21_apply (e : Fin 3300000) : val_main_v21 (F := Ideal) x1 (ix1 e) = wrapIdx (ext (src x1) e) := by
  rw [val_main_v21_apply, val_main_v18_apply, val_main_v20_apply, v4_apply, val_main_v17_apply, val_main_c_apply,
    val_main_v19_apply, val_main_c_3_apply]
  rfl

/-- The targets' words as a take normalises them. -/
theorem v28_apply (e : Fin 3300000) : val_main_v28 (F := Ideal) x1 (ix1 e) = wrapIdx (ext (dst x1) e) := by
  rw [val_main_v28_apply, val_main_v25_apply, val_main_v27_apply, v7_apply, val_main_v24_apply, val_main_c_4_apply,
    val_main_v26_apply, val_main_c_5_apply]
  rfl

/-- The sources' words normalised once more, for the row take. -/
theorem v37_apply (e : Fin 3300000) : val_main_v37 (F := Ideal) x1 (ix1 e) = wrapIdx (ext (src x1) e) := by
  rw [val_main_v37_apply, val_main_v34_apply, val_main_v36_apply, v4_apply, val_main_v33_apply, val_main_c_6_apply,
    val_main_v35_apply, val_main_c_7_apply]
  rfl

/-- The three columns of index words. -/
theorem v22_apply (e : Fin 3300000) : val_main_v22 (F := Ideal) x1 (ix2 e (0 : Fin 1)) = wrapIdx (ext (src x1) e) := by
  rw [val_main_v22_apply, (show idx_main_v22 (ix2 e (0 : Fin 1)) = ix1 e from
    funext fun a => Fin.ext (by match a with | ⟨0, _⟩ => rfl)), v21_apply]

theorem v29_apply (e : Fin 3300000) : val_main_v29 (F := Ideal) x1 (ix2 e (0 : Fin 1)) = wrapIdx (ext (dst x1) e) := by
  rw [val_main_v29_apply, (show idx_main_v29 (ix2 e (0 : Fin 1)) = ix1 e from
    funext fun a => Fin.ext (by match a with | ⟨0, _⟩ => rfl)), v28_apply]

theorem v38_apply (e : Fin 3300000) : val_main_v38 (F := Ideal) x1 (ix2 e (0 : Fin 1)) = wrapIdx (ext (src x1) e) := by
  rw [val_main_v38_apply, (show idx_main_v38 (ix2 e (0 : Fin 1)) = ix1 e from
    funext fun a => Fin.ext (by match a with | ⟨0, _⟩ => rfl)), v37_apply]

theorem v43_apply (e : Fin 3300000) : val_main_v43 (F := Ideal) x1 (ix2 e (0 : Fin 1)) = ext (dst x1) e := by
  rw [val_main_v43_apply, (show idx_main_v43 (ix2 e (0 : Fin 1)) = ix1 e from
    funext fun a => Fin.ext (by match a with | ⟨0, _⟩ => rfl)), v7_apply]

/-! ## The two takes of the normalising factors -/

/-- The take's record is the general take's at the literal extents. -/
theorem take_rec : gather_S100000_S3300000x1_S3300000_n_0_n_n_0_1_1
    = Cert.LibGraphOps.take1Dims 100000 3300000 gather_S100000_S3300000x1_S3300000_n_0_n_n_0_1_1.wf := rfl

/-- The factor at an edge's source. -/
theorem v23_apply (e : Fin 3300000) : val_main_v23 (F := Ideal) x1 (ix1 e) = dinvR x1 (rowOf (ext (src x1) e)) := by
  unfold val_main_v23
  rw [take_rec]
  refine (Cert.LibGraphOps.gather_take1_apply (by decide) _ _ _ e).trans ?_
  refine (congrArg (fun r => val_main_v16 (F := Ideal) x1 (ix1 r)) (Fin.ext ?_)).trans (v16_apply x1 (rowOf (ext (src x1) e)))
  show min (val_main_v22 (F := Ideal) x1 (ix2 e (0 : Fin 1))).toInt.toNat (100000 - 1) = _
  rw [v22_apply]
  rfl

/-- The factor at an edge's target. -/
theorem v30_apply (e : Fin 3300000) : val_main_v30 (F := Ideal) x1 (ix1 e) = dinvR x1 (rowOf (ext (dst x1) e)) := by
  unfold val_main_v30
  rw [take_rec]
  refine (Cert.LibGraphOps.gather_take1_apply (by decide) _ _ _ e).trans ?_
  refine (congrArg (fun r => val_main_v16 (F := Ideal) x1 (ix1 r)) (Fin.ext ?_)).trans (v16_apply x1 (rowOf (ext (dst x1) e)))
  show min (val_main_v29 (F := Ideal) x1 (ix2 e (0 : Fin 1))).toInt.toNat (100000 - 1) = _
  rw [v29_apply]
  rfl

/-! ## The product with the first weight matrix and its row take -/

/-- The matrix product at an entry. -/
theorem v0_apply (r : Fin 100000) (k : Fin 16) : val_main_v0 (F := Ideal) x0 x2 (ix2 r k) = mm x0 x2 (ix2 r k) := by
  rw [val_main_v0_apply]
  unfold mm
  refine Finset.sum_congr rfl fun j _ => ?_
  have hl : lidx_main_v0 (ix2 r k) j = ix2 r j := funext fun a => by match a with | ⟨0, _⟩ => rfl | ⟨1, _⟩ => rfl
  have hr : ridx_main_v0 (ix2 r k) j = ix2 j k := funext fun a => by match a with | ⟨0, _⟩ => rfl | ⟨1, _⟩ => rfl
  rw [hl, hr]

/-- The row take's record is the general row take's at the literal extents. -/
theorem rows_rec : gather_S100000x16_S3300000x1_S3300000x16_1_0_n_n_0_1_116
    = Cert.LibTakeRows.rowDims 100000 16 3300000 gather_S100000x16_S3300000x1_S3300000x16_1_0_n_n_0_1_116.wf := rfl

/-- The product's row at an edge's source. -/
theorem v39_apply (e : Fin 3300000) (k : Fin 16) :
    val_main_v39 (F := Ideal) x0 x1 x2 (ix2 e k) = mm x0 x2 (ix2 (rowOf (ext (src x1) e)) k) := by
  unfold val_main_v39
  rw [rows_rec]
  refine (Cert.LibTakeRows.gather_rows_apply (by decide) _ _ _ e k).trans ?_
  refine (congrArg (fun r => val_main_v0 (F := Ideal) x0 x2 (ix2 r k)) (Fin.ext ?_)).trans
    (v0_apply x0 x2 (rowOf (ext (src x1) e)) k)
  show min (val_main_v38 (F := Ideal) x1 (ix2 e (0 : Fin 1))).toInt.toNat (100000 - 1) = _
  rw [v38_apply]
  rfl

/-- One edge's term: both factors times the product's row at the source. -/
theorem v41_apply (e : Fin 3300000) (k : Fin 16) : val_main_v41 (F := Ideal) x0 x1 x2 (ix2 e k)
    = (dinvR x1 (rowOf (ext (src x1) e)) * dinvR x1 (rowOf (ext (dst x1) e))) * mm x0 x2 (ix2 (rowOf (ext (src x1) e)) k) := by
  rw [val_main_v41_apply, val_main_v40_apply, val_main_v32_apply,
    (show idx_main_v32 (idx_main_v40 (ix2 e k)) = ix1 e from funext fun a => Fin.ext (by match a with | ⟨0, _⟩ => rfl)),
    val_main_v31_apply, v23_apply, v30_apply, v39_apply]
  rfl

/-! ## The scatter-add at the targets, the bias, the positive part -/

/-- The scatter's record is the general row scatter's at the literal extents. -/
theorem scat_rec : scatter_S100000x16_S3300000x1_S3300000x16_1_0_0_1
    = Cert.LibScatter.rowDims 100000 3300000 16 scatter_S100000x16_S3300000x1_S3300000x16_1_0_0_1.wf := rfl

/-- The sum over the edges landing at a node. -/
theorem v44_apply (n : Fin 100000) (k : Fin 16) : val_main_v44 (F := Ideal) x0 x1 x2 (ix2 n k)
    = ∑ e : Fin 3300000, if lands (ext (dst x1) e) n then
        (dinvR x1 (rowOf (ext (src x1) e)) * dinvR x1 (rowOf (ext (dst x1) e))) * mm x0 x2 (ix2 (rowOf (ext (src x1) e)) k)
      else 0 := by
  unfold val_main_v44
  rw [scat_rec]
  refine (Cert.LibScatter.rowDims_scatterAdd_apply _ _ _ _ n k).trans ?_
  rw [val_main_v42_apply, val_main_cst_8_apply, Ideal.ofBits_def, Ideal.ofBits_zero_f32, zero_add]
  refine Finset.sum_congr rfl fun e _ => ?_
  rw [v43_apply, v41_apply]

/-- The first layer's normalising factors. -/
theorem dinv_eq : val_main_v16 (F := Ideal) x1 = fun i => dinvR x1 (i 0) := by
  funext i
  obtain ⟨n, rfl⟩ : ∃ n : Fin 100000, i = ix1 n := ⟨i 0, eq_ix1 i⟩
  exact v16_apply x1 n

/-- The first layer after the positive part. -/
theorem layer_eq : val_main_v48 (F := Ideal) x0 x1 x2 x3 = reluM (convRM x1 (mm x0 x2) x3) := by
  funext i
  obtain ⟨n, k, rfl⟩ : ∃ (n : Fin 100000) (k : Fin 16), i = ix2 n k := ⟨i 0, i 1, eq_ix2 i⟩
  rw [val_main_v48_apply, val_main_v47_apply, v44_apply, val_main_v46_apply, val_main_v45_apply,
    (show idx_main_v45 (idx_main_v46 (ix2 n k)) = ix1 k from funext fun a => Fin.ext (by match a with | ⟨0, _⟩ => rfl)),
    val_main_call1_v0_apply, val_main_call1_cst_apply, Ideal.ofBits_def, Ideal.ofBits_zero_f32]
  rfl

end Cert.ReferenceIdeal.Layer1

end
-- ==== Proof.RefLayer2.lean ====
/-
  The reference's second graph convolution and its closing logarithm of the soft maximum, read index by index, as a
  function of the first layer's output: the plain arrangement `convRM` of the product of that output with the second
  weight matrix, then `logSoftmax`.
-/
import proofs.«409407_j84181359001627_4_alg».proof.Proof.RefRead
import proofs.«409407_j84181359001627_4_alg».proof.Proof.Spec
import proofs.«409407_j84181359001627_4_alg».proof.Proof.LibScatter
import proofs.«409407_j84181359001627_4_alg».proof.Proof.LibTakeRows
import proofs.«409407_j84181359001627_4_alg».proof.Proof.LibGraphOps
import Idealize.ShloMosaic.Lib.Pipeline.Value
import Idealize.ShloMosaic.Lib.ValueIdx
import Idealize.ShloMosaic.PureOps.Ideal.Laws
import Idealize.ShloMosaic.PureOps.Reduce

set_option maxRecDepth 16384

noncomputable section

open scoped BigOperators

namespace Cert.ReferenceIdeal.Layer2

open Idealize.ShloMosaic Idealize.ShloMosaic.ValueIdx
open Cert.ReferenceIdeal Cert.ReferenceIdeal.ReadP Cert.Gcn

variable (x0 : (⟨S100000x128, .f32⟩ : BufTy).Contents (Elt Ideal)) (x1 : (⟨S2x3200000, .i32⟩ : BufTy).Contents (Elt Ideal))
  (x2 : (⟨S128x16, .f32⟩ : BufTy).Contents (Elt Ideal)) (x3 : (⟨S16, .f32⟩ : BufTy).Contents (Elt Ideal))
  (x4 : (⟨S16x40, .f32⟩ : BufTy).Contents (Elt Ideal)) (x5 : (⟨S40, .f32⟩ : BufTy).Contents (Elt Ideal))

/-! ## The two index vectors: a row of the edge list followed by the node numbers -/

/-- Row 0 of the edge list as a vector, at `e`. -/
theorem v52_at (e : Fin 3200000) : val_main_v52 (F := Ideal) x1 (ix1 e) = src x1 e := by
  rw [val_main_v52_apply, val_main_v51_apply]
  unfold src
  refine congrArg x1 (funext fun a => Fin.ext ?_)
  match a with
  | ⟨0, _⟩ => rfl
  | ⟨1, _⟩ => exact Nat.mod_eq_of_lt e.isLt

/-- Row 1 of the edge list as a vector, at `e`. -/
theorem v55_at (e : Fin 3200000) : val_main_v55 (F := Ideal) x1 (ix1 e) = dst x1 e := by
  rw [val_main_v55_apply, val_main_v54_apply]
  unfold dst
  refine congrArg x1 (funext fun a => Fin.ext ?_)
  match a with
  | ⟨0, _⟩ => rfl
  | ⟨1, _⟩ => exact Nat.mod_eq_of_lt e.isLt

/-- The sources followed by the node numbers. -/
theorem v53_at (e : Fin 3300000) : val_main_v53 (F := Ideal) x1 (ix1 e) = ext (src x1) e := by
  unfold val_main_v53
  rw [Cert.LibGraphOps.concatenate_pair1_apply (a := 3200000) (b := 100000) (c := 3300000) rfl]
  unfold ext
  by_cases h : e.val < 3200000
  · rw [dif_pos h, dif_pos h]; exact v52_at x1 ⟨e.val, h⟩
  · rw [dif_neg h, dif_neg h]; rfl

/-- The targets followed by the node numbers. -/
theorem v56_at (e : Fin 3300000) : val_main_v56 (F := Ideal) x1 (ix1 e) = ext (dst x1) e := by
  unfold val_main_v56
  rw [Cert.LibGraphOps.concatenate_pair1_apply (a := 3200000) (b := 100000) (c := 3300000) rfl]
  unfold ext
  by_cases h : e.val < 3200000
  · rw [dif_pos h, dif_pos h]; exact v55_at x1 ⟨e.val, h⟩
  · rw [dif_neg h, dif_neg h]; rfl

/-! ## The degree histogram and the normalising factors -/

/-- The float histogram of the targets (with self loops) at node `n` is the plain degree. -/
theorem v60_at (n : Fin 100000) : val_main_v60 (F := Ideal) x1 (ix1 n) = degR x1 n := by
  unfold val_main_v60
  have hd : scatter_S100000_S3300000x1_S3300000_n_0_0_1
      = Cert.LibScatter.histDims 100000 3300000 Facts₀.scatter_S100000_S3300000x1_S3300000_n_0_0_1_wf := rfl
  rw [hd, Cert.LibGraphOps.histDims_scatterAdd_apply]
  rw [val_main_v58_apply, val_main_cst_10_apply]
  unfold degR
  rw [Ideal.ofBits_def, Ideal.ofBits_zero_f32, zero_add]
  refine Finset.sum_congr rfl fun e _ => ?_
  rw [val_main_v59_apply, val_main_v57_apply, val_main_cst_9_apply]
  have hi : idx_main_v59 (ix2 e (0 : Fin 1)) = ix1 e := funext fun a => Fin.ext (by match a with | ⟨0, _⟩ => rfl)
  rw [hi, v56_at]
  rfl

/-- The second layer's normalising factors (recomputed by the reference: the same function of the edge list). -/
theorem dinv_eq : val_main_v65 (F := Ideal) x1 = fun i => dinvR x1 (i 0) := by
  funext i
  obtain ⟨n, rfl⟩ : ∃ n : Fin 100000, i = ix1 n := ⟨i 0, eq_ix1 i⟩
  rw [val_main_v65_apply, val_main_v62_apply, val_main_v63_apply, val_main_v64_apply, val_main_v61_apply,
    val_main_cst_12_apply, val_main_cst_11_apply, v60_at]
  unfold dinvR dinvOf
  rw [Ideal.ofBits_def, Ideal.ofBits_zero_f32, Ideal.cmpf_def, Ideal.hostUnary_rsqrt_def]

theorem v65_at (n : Fin 100000) : val_main_v65 (F := Ideal) x1 (ix1 n) = dinvR x1 n := by
  rw [dinv_eq]

/-! ## The three takes' index vectors: the normalised words -/

theorem v70_at (e : Fin 3300000) : val_main_v70 (F := Ideal) x1 (ix1 e) = wrapIdx (ext (src x1) e) := by
  rw [val_main_v70_apply, val_main_v67_apply, val_main_v69_apply, val_main_v66_apply, val_main_v68_apply,
    val_main_c_13_apply, val_main_c_14_apply, v53_at]
  rfl

theorem v77_at (e : Fin 3300000) : val_main_v77 (F := Ideal) x1 (ix1 e) = wrapIdx (ext (dst x1) e) := by
  rw [val_main_v77_apply, val_main_v74_apply, val_main_v76_apply, val_main_v73_apply, val_main_v75_apply,
    val_main_c_15_apply, val_main_c_16_apply, v56_at]
  rfl

theorem v86_at (e : Fin 3300000) : val_main_v86 (F := Ideal) x1 (ix1 e) = wrapIdx (ext (src x1) e) := by
  rw [val_main_v86_apply, val_main_v83_apply, val_main_v85_apply, val_main_v82_apply, val_main_v84_apply,
    val_main_c_17_apply, val_main_c_18_apply, v53_at]
  rfl

/-! ## The two takes of the normalising factors and their product -/

theorem take1_rec : gather_S100000_S3300000x1_S3300000_n_0_n_n_0_1_1
    = Cert.LibGraphOps.take1Dims 100000 3300000 Facts₀.gather_S100000_S3300000x1_S3300000_n_0_n_n_0_1_1_wf := rfl

/-- The clamped reading of a normalised word is the row the take reads. -/
theorem clamp_row (w w' : BitVec 32) (hw : w = wrapIdx w') (p : min w.toInt.toNat (100000 - 1) < 100000) :
    (⟨min w.toInt.toNat (100000 - 1), p⟩ : Fin 100000) = rowOf w' := by
  subst hw; rfl

theorem v72_at (e : Fin 3300000) : val_main_v72 (F := Ideal) x1 (ix1 e) = dinvR x1 (rowOf (ext (src x1) e)) := by
  unfold val_main_v72
  rw [take1_rec, Cert.LibGraphOps.gather_take1_apply (show 0 < 100000 by decide), v65_at]
  refine congrArg (dinvR x1) (clamp_row _ _ ?_ _)
  have hi : idx_main_v71 (ix2 e (0 : Fin 1)) = ix1 e := funext fun a => Fin.ext (by match a with | ⟨0, _⟩ => rfl)
  rw [val_main_v71_apply, hi, v70_at]

theorem v79_at (e : Fin 3300000) : val_main_v79 (F := Ideal) x1 (ix1 e) = dinvR x1 (rowOf (ext (dst x1) e)) := by
  unfold val_main_v79
  rw [take1_rec, Cert.LibGraphOps.gather_take1_apply (show 0 < 100000 by decide), v65_at]
  refine congrArg (dinvR x1) (clamp_row _ _ ?_ _)
  have hi : idx_main_v78 (ix2 e (0 : Fin 1)) = ix1 e := funext fun a => Fin.ext (by match a with | ⟨0, _⟩ => rfl)
  rw [val_main_v78_apply, hi, v77_at]

theorem v80_at (e : Fin 3300000) : val_main_v80 (F := Ideal) x1 (ix1 e)
    = dinvR x1 (rowOf (ext (src x1) e)) * dinvR x1 (rowOf (ext (dst x1) e)) := by
  rw [val_main_v80_apply, v72_at, v79_at, Ideal.mulf_def]

theorem v89_at (e : Fin 3300000) (k : Fin 40) : val_main_v89 (F := Ideal) x1 (ix2 e k)
    = dinvR x1 (rowOf (ext (src x1) e)) * dinvR x1 (rowOf (ext (dst x1) e)) := by
  rw [val_main_v89_apply, val_main_v81_apply]
  have hi : idx_main_v81 (idx_main_v89 (ix2 e k)) = ix1 e := funext fun a => Fin.ext (by match a with | ⟨0, _⟩ => rfl)
  rw [hi, v80_at]

/-! ## The product with the second weight matrix, the row take, the scatter-add, the bias -/

theorem v49_eq : val_main_v49 (F := Ideal) x0 x1 x2 x3 x4 = mm (val_main_v48 (F := Ideal) x0 x1 x2 x3) x4 := by
  funext i
  rw [val_main_v49_apply]
  generalize val_main_v48 (F := Ideal) x0 x1 x2 x3 = h1
  unfold mm
  refine Finset.sum_congr rfl fun j _ => ?_
  have hl : lidx_main_v49 i j = ix2 (i 0) j := funext fun a => Fin.ext (by match a with | ⟨0, _⟩ => rfl | ⟨1, _⟩ => rfl)
  have hr : ridx_main_v49 i j = ix2 j (i 1) := funext fun a => Fin.ext (by match a with | ⟨0, _⟩ => rfl | ⟨1, _⟩ => rfl)
  rw [hl, hr] <;> rfl

theorem rows_rec : gather_S100000x40_S3300000x1_S3300000x40_1_0_n_n_0_1_140
    = Cert.LibTakeRows.rowDims 100000 40 3300000 Facts₀.gather_S100000x40_S3300000x1_S3300000x40_1_0_n_n_0_1_140_wf := rfl

theorem v88_at (e : Fin 3300000) (k : Fin 40) : val_main_v88 (F := Ideal) x0 x1 x2 x3 x4 (ix2 e k)
    = mm (val_main_v48 (F := Ideal) x0 x1 x2 x3) x4 (ix2 (rowOf (ext (src x1) e)) k) := by
  unfold val_main_v88
  rw [v49_eq]
  generalize mm (val_main_v48 (F := Ideal) x0 x1 x2 x3) x4 = g
  rw [rows_rec, Cert.LibTakeRows.gather_rows_apply (show 0 < 100000 by decide)]
  refine congrArg (fun r => g (ix2 r k)) (clamp_row _ _ ?_ _)
  have hi : idx_main_v87 (ix2 e (0 : Fin 1)) = ix1 e := funext fun a => Fin.ext (by match a with | ⟨0, _⟩ => rfl)
  rw [val_main_v87_apply, hi, v86_at]

theorem v90_at (e : Fin 3300000) (k : Fin 40) : val_main_v90 (F := Ideal) x0 x1 x2 x3 x4 (ix2 e k)
    = (dinvR x1 (rowOf (ext (src x1) e)) * dinvR x1 (rowOf (ext (dst x1) e)))
      * mm (val_main_v48 (F := Ideal) x0 x1 x2 x3) x4 (ix2 (rowOf (ext (src x1) e)) k) := by
  rw [val_main_v90_apply, v89_at, v88_at, Ideal.mulf_def]

theorem scat_rec : scatter_S100000x40_S3300000x1_S3300000x40_1_0_0_1
    = Cert.LibScatter.rowDims 100000 3300000 40 Facts₀.scatter_S100000x40_S3300000x1_S3300000x40_1_0_0_1_wf := rfl

theorem v93_at (n : Fin 100000) (k : Fin 40) : val_main_v93 (F := Ideal) x0 x1 x2 x3 x4 (ix2 n k)
    = ∑ e : Fin 3300000, if lands (ext (dst x1) e) n then
        (dinvR x1 (rowOf (ext (src x1) e)) * dinvR x1 (rowOf (ext (dst x1) e)))
          * mm (val_main_v48 (F := Ideal) x0 x1 x2 x3) x4 (ix2 (rowOf (ext (src x1) e)) k) else 0 := by
  unfold val_main_v93
  rw [scat_rec, Cert.LibScatter.rowDims_scatterAdd_apply, val_main_v91_apply, val_main_cst_19_apply,
    Ideal.ofBits_def, Ideal.ofBits_zero_f32, zero_add]
  refine Finset.sum_congr rfl fun e _ => ?_
  rw [val_main_v92_apply, v90_at]
  have hi : idx_main_v92 (ix2 e (0 : Fin 1)) = ix1 e := funext fun a => Fin.ext (by match a with | ⟨0, _⟩ => rfl)
  rw [hi, v56_at]

/-- The second convolution before the soft maximum: the plain arrangement over the product. -/
theorem v96_eq : val_main_v96 (F := Ideal) x0 x1 x2 x3 x4 x5
    = convRM x1 (mm (val_main_v48 (F := Ideal) x0 x1 x2 x3) x4) x5 := by
  funext i
  obtain ⟨n, k, rfl⟩ : ∃ (n : Fin 100000) (k : Fin 40), i = ix2 n k := ⟨i 0, i 1, eq_ix2 i⟩
  rw [val_main_v96_apply, v93_at, val_main_v95_apply, val_main_v94_apply, Ideal.addf_def]
  have hi : idx_main_v94 (idx_main_v95 (ix2 n k)) = ix1 k := funext fun a => Fin.ext (by match a with | ⟨0, _⟩ => rfl)
  rw [hi]
  rfl

/-! ## The closing logarithm of the soft maximum -/

/-- A reduced row index with column `k` put back is `(n, k)`. -/
theorem lift_row (h : S100000x40.Reduces [1] S100000) (n : Fin 100000) (k : Fin (S100000x40.size 1)) :
    h.lift (ix1 n) k = ix2 n (⟨k.val, k.isLt⟩ : Fin 40) := by
  funext c; apply Fin.ext
  match c with
  | ⟨0, _⟩ => rfl
  | ⟨1, _⟩ => rfl

/-- The largest entry of a row, from −∞, as the host reduces it. -/
theorem reduceMax_at (z : (⟨S100000x40, .f32⟩ : BufTy).Contents (Elt Ideal)) (n : Fin 100000) :
    Host.reduce (FloatOps.maximumf : Ideal .f32 → Ideal .f32 → Ideal .f32) z (val_main_call3_cst (F := Ideal))
        Gen.reducesTo_S100000x40_S100000_d1 Gen.h_S_ (ix1 n)
      = rowMax z n := by
  have h : S100000x40.Reduces [1] S100000 := by decide
  rw [Host.reduce_eq_fold_single (FloatOps.maximumf : Ideal .f32 → Ideal .f32 → Ideal .f32) z _ Gen.reducesTo_S100000x40_S100000_d1 h Gen.h_S_]
  unfold rowMax
  have hf : (z ∘ h.lift (ix1 n)) = fun k : Fin 40 => z (ix2 n k) := funext fun k => congrArg z (lift_row h n k)
  exact congrArg (fun f => Finset.fold max (Ideal.ofBits .f32 0xFF800000#32) f (Finset.univ : Finset (Fin 40))) hf

theorem negInf_max (y : EReal) : max (Ideal.ofBits .f32 0xFF800000#32) y = y := by
  simp [Ideal.ofBits, Ideal.ieee]

theorem c3v2_at (n : Fin 100000) : val_main_call3_v2 (F := Ideal) x0 x1 x2 x3 x4 x5 (ix1 n)
    = rowMax (val_main_v96 (F := Ideal) x0 x1 x2 x3 x4 x5) n := by
  rw [val_main_call3_v2_apply, val_main_call3_v1_apply, val_main_call3_cst_0_apply]
  unfold val_main_call3_v0
  rw [reduceMax_at, Ideal.ofBits_def, Ideal.maximumf_def, negInf_max]

theorem c3v5_at (n : Fin 100000) (k : Fin 40) : val_main_call3_v5 (F := Ideal) x0 x1 x2 x3 x4 x5 (ix2 n k)
    = val_main_v96 (F := Ideal) x0 x1 x2 x3 x4 x5 (ix2 n k) - rowMax (val_main_v96 (F := Ideal) x0 x1 x2 x3 x4 x5) n := by
  rw [val_main_call3_v5_apply, val_main_call3_v4_apply, val_main_call3_v3_apply]
  have hi : idx_main_call3_v3 (idx_main_call3_v4 (ix2 n k)) = ix1 n := funext fun a => Fin.ext (by match a with | ⟨0, _⟩ => rfl)
  rw [hi, c3v2_at, Ideal.subf_def]

theorem c3v7_at (n : Fin 100000) : val_main_call3_v7 (F := Ideal) x0 x1 x2 x3 x4 x5 (ix1 n)
    = ∑ j : Fin 40, Ideal.exp (val_main_v96 (F := Ideal) x0 x1 x2 x3 x4 x5 (ix2 n j)
        - rowMax (val_main_v96 (F := Ideal) x0 x1 x2 x3 x4 x5) n) := by
  rw [val_main_call3_v7_apply, val_main_call3_cst_1_apply, Ideal.ofBits_def, Ideal.ofBits_zero_f32, zero_add]
  refine Finset.sum_congr rfl fun j _ => ?_
  have hi : idx_main_call3_v7 (ix1 n) j = ix2 n j := funext fun a => Fin.ext (by match a with | ⟨0, _⟩ => rfl | ⟨1, _⟩ => rfl)
  rw [hi, val_main_call3_v6_apply, c3v5_at, Ideal.hostUnary_exp_def]

theorem c3v10_at (n : Fin 100000) (k : Fin 40) : val_main_call3_v10 (F := Ideal) x0 x1 x2 x3 x4 x5 (ix2 n k)
    = Ideal.log (∑ j : Fin 40, Ideal.exp (val_main_v96 (F := Ideal) x0 x1 x2 x3 x4 x5 (ix2 n j)
        - rowMax (val_main_v96 (F := Ideal) x0 x1 x2 x3 x4 x5) n)) := by
  rw [val_main_call3_v10_apply, val_main_call3_v9_apply, val_main_call3_v8_apply]
  have hi : idx_main_call3_v8 (idx_main_call3_v10 (ix2 n k)) = ix1 n := funext fun a => Fin.ext (by match a with | ⟨0, _⟩ => rfl)
  rw [hi, c3v7_at, Ideal.hostUnary_log_def]

theorem v97_eq : val_main_v97 (F := Ideal) x0 x1 x2 x3 x4 x5 = logSoftmax (val_main_v96 (F := Ideal) x0 x1 x2 x3 x4 x5) := by
  funext i
  obtain ⟨n, k, rfl⟩ : ∃ (n : Fin 100000) (k : Fin 40), i = ix2 n k := ⟨i 0, i 1, eq_ix2 i⟩
  rw [val_main_v97_apply, c3v5_at, c3v10_at, Ideal.subf_def]
  rfl

/-- The second layer and the closing soft maximum, over the first layer's output. -/
theorem layer_eq : val_main_v97 (F := Ideal) x0 x1 x2 x3 x4 x5
    = logSoftmax (convRM x1 (mm (val_main_v48 (F := Ideal) x0 x1 x2 x3) x4) x5) := by
  rw [v97_eq, v96_eq]

end Cert.ReferenceIdeal.Layer2

end
-- ==== Proof.RefValue.lean ====
/-
  The reference's result is the plain arrangement of the two-layer network: the two layers' readings joined.
-/
import proofs.«409407_j84181359001627_4_alg».proof.Proof.RefLayer1
import proofs.«409407_j84181359001627_4_alg».proof.Proof.RefLayer2

noncomputable section

namespace Cert.ReferenceIdeal.RefValue

open Idealize.ShloMosaic Cert.ReferenceIdeal Cert.ReferenceIdeal.ReadP Cert.Gcn

theorem result_eq (x0 : (⟨S100000x128, .f32⟩ : BufTy).Contents (Elt Ideal)) (x1 : (⟨S2x3200000, .i32⟩ : BufTy).Contents (Elt Ideal))
    (x2 : (⟨S128x16, .f32⟩ : BufTy).Contents (Elt Ideal)) (x3 : (⟨S16, .f32⟩ : BufTy).Contents (Elt Ideal))
    (x4 : (⟨S16x40, .f32⟩ : BufTy).Contents (Elt Ideal)) (x5 : (⟨S40, .f32⟩ : BufTy).Contents (Elt Ideal)) :
    val_main_v97 (F := Ideal) x0 x1 x2 x3 x4 x5 = outR x1 x0 x2 x3 x4 x5 := by
  rw [Layer2.layer_eq, Layer1.layer_eq]
  rfl

end Cert.ReferenceIdeal.RefValue

end
-- ==== Proof.lean ====
/-
  The certificate of a two-layer graph convolution (symmetric normalisation, positive part, logarithm of the soft
  maximum) written as four kernel regions among host operations, against its plain reference.

  Both programs compute, per layer,  out[n] = Σ_{edges e landing at n} dinv[src e]·dinv[n]·h[src e] + dinv[n]²·h[n] + b,
  with dinv = deg^(-1/2). The reference appends one self loop per node to the edge list and sums once, every term
  carrying both factors. The kernel program scales h by dinv at the source inside its first region, gathers and
  scatter-adds over the given edges on the host, adds the node's own scaled row for the self loop, and scales by dinv at
  the target inside its closing region. The two agree because dinv at a node is a non-negative finite number, so it
  distributes over any sum of extended reals (`SpecLaws`); no finiteness of the inputs is used.
  The kernel program's result is read region by region (`KReg0` … `KReg3`) and stretch by stretch (`KHost`,
  `KTermsIdeal`, `KValue`); the reference's, stretch by stretch over its stages (`RefRunValue`) and operation by operation (`RefLayer1`, `RefLayer2`,
  `RefValue`).
-/
import proofs.«409407_j84181359001627_4_alg».proof.Defs
import proofs.«409407_j84181359001627_4_alg».proof.Proof.Gen.Kernel
import proofs.«409407_j84181359001627_4_alg».proof.Proof.Gen.Kernel.Frame
import proofs.«409407_j84181359001627_4_alg».proof.Proof.Gen.KernelIdeal
import proofs.«409407_j84181359001627_4_alg».proof.Proof.Gen.KernelIdeal.Frame
import proofs.«409407_j84181359001627_4_alg».proof.Proof.Gen.ReferenceIdeal
import proofs.«409407_j84181359001627_4_alg».proof.Proof.Gen.Pre_finite_inputs
import proofs.«409407_j84181359001627_4_alg».proof.Proof.KRun
import proofs.«409407_j84181359001627_4_alg».proof.Proof.KValue
import proofs.«409407_j84181359001627_4_alg».proof.Proof.SpecLaws
import proofs.«409407_j84181359001627_4_alg».proof.Proof.RefRunValue
import proofs.«409407_j84181359001627_4_alg».proof.Proof.RefValue
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RunValue.run (F := Ideal) m ρ)

/-- From memories agreeing on the arguments both programs end with the six-stage chain of the arguments: the kernel
    program by its regions and stretches, the reference by its operations and the law joining the two arrangements. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Gcn.chainK (m ((c : Thread Cert.KernelIdeal.nD Cert.KernelIdeal.τ).loc Cert.KernelIdeal.main_arg1))
      (m ((c : Thread Cert.KernelIdeal.nD Cert.KernelIdeal.τ).loc Cert.KernelIdeal.main_arg0))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Gen.value m ρ c), (h c).2⟩)
      (Cert.KernelIdeal.Gen.run (F := Ideal) m ρ)
  · refine (θ_run Cert.ReferenceIdeal.defs _ _).mono (fun _ h c => ⟨(h c).1.trans ?_, (h c).2⟩)
      (Cert.ReferenceIdeal.RunValue.run (F := Ideal) m' ρ')
    rw [Cert.ReferenceIdeal.RefValue.result_eq, Cert.Gcn.outR_eq_outK,
      ← Cert.Gcn.chainK_eq_outK, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
